-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S4x128x128 : Shape := ⟨3, ![4, 128, 128]⟩
abbrev S4x128 : Shape := ⟨2, ![4, 128]⟩
abbrev S128x32 : Shape := ⟨2, ![128, 32]⟩
abbrev S32 : Shape := ⟨1, ![32]⟩
abbrev S1x1600000 : Shape := ⟨2, ![1, 1600000]⟩
abbrev S1600000 : Shape := ⟨1, ![1600000]⟩
abbrev S_ : Shape := ⟨0, ![]⟩

class Facts : Prop where
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  reducesTo_S1600000_S_d0 : S1600000.ReducesTo [0] S_

variable [Facts]

def fn_part3 {F : FTy → Type} [FloatOps F] (main_v6 : IVec S1600000 32) (main_v50 : IVec S_ 1) (main_c_18 : IVec S_ 32) : IVec S_ 1 :=
  let main_v51 : IVec S1600000 32 := broadcastInDim S1600000 ![] bcast_S_S1600000 main_c_18
  let main_v52 : IVec S1600000 1 := cmpi .sge main_v6 main_v51
  let main_c_19 : IVec S_ 32 := constantI S_ 32 99999#32
  let main_v53 : IVec S1600000 32 := broadcastInDim S1600000 ![] bcast_S_S1600000 main_c_19
  let main_v54 : IVec S1600000 1 := cmpi .sle main_v6 main_v53
  let main_v55 : IVec S1600000 1 := andi main_v52 main_v54
  let main_c_20 : IVec S_ 1 := constantI S_ 1 1#1
  let main_v56 : IVec S_ 1 := (fun x v => Host.reduce IntOp.andi x v reducesTo_S1600000_S_d0 h_S_) main_v55 main_c_20
  let main_v57 : IVec S_ 1 := andi main_v50 main_v56
  main_v57

def fn_part2 {F : FTy → Type} [FloatOps F] (main_arg8 : FVec F S4x128 .f32) (main_arg9 : FVec F S128x32 .f32) (main_arg10 : FVec F S32 .f32) (main_v6 : IVec S1600000 32) (main_v30 : IVec S_ 1) (main_v33 : IVec S4x128x128 1) (main_c_11 : IVec S_ 1) : IVec S_ 1 :=
  let main_v34 : IVec S_ 1 := (fun x v => Host.reduce IntOp.andi x v reducesTo_S4x128x128_S_d0_1_2 h_S_) main_v33 main_c_11
  let main_v35 : IVec S_ 1 := andi main_v30 main_v34
  let main_v36 : FVec F S4x128 .f32 := Host.absf main_arg8
  let main_cst_12 : FVec F S_ .f32 := constant S_ .f32 0x7F800000#32
  let main_v37 : FVec F S4x128 .f32 := broadcastInDim S4x128 ![] bcast_S_S4x128 main_cst_12
  let main_v38 : IVec S4x128 1 := cmpf .olt main_v36 main_v37
  let main_c_13 : IVec S_ 1 := constantI S_ 1 1#1
  let main_v39 : IVec S_ 1 := (fun x v => Host.reduce IntOp.andi x v reducesTo_S4x128_S_d0_1 h_S_) main_v38 main_c_13
  let main_v40 : IVec S_ 1 := andi main_v35 main_v39
  let main_v41 : FVec F S128x32 .f32 := Host.absf main_arg9
  let main_cst_14 : FVec F S_ .f32 := constant S_ .f32 0x7F800000#32
  let main_v42 : FVec F S128x32 .f32 := broadcastInDim S128x32 ![] bcast_S_S128x32 main_cst_14
  let main_v43 : IVec S128x32 1 := cmpf .olt main_v41 main_v42
  let main_c_15 : IVec S_ 1 := constantI S_ 1 1#1
  let main_v44 : IVec S_ 1 := (fun x v => Host.reduce IntOp.andi x v reducesTo_S128x32_S_d0_1 h_S_) main_v43 main_c_15
  let main_v45 : IVec S_ 1 := andi main_v40 main_v44
  let main_v46 : FVec F S32 .f32 := Host.absf main_arg10
  let main_cst_16 : FVec F S_ .f32 := constant S_ .f32 0x7F800000#32
  let main_v47 : FVec F S32 .f32 := broadcastInDim S32 ![] bcast_S_S32 main_cst_16
  let main_v48 : IVec S32 1 := cmpf .olt main_v46 main_v47
  let main_c_17 : IVec S_ 1 := constantI S_ 1 1#1
  let main_v49 : IVec S_ 1 := (fun x v => Host.reduce IntOp.andi x v reducesTo_S32_S_d0 h_S_) main_v48 main_c_17
  let main_v50 : IVec S_ 1 := andi main_v45 main_v49
  let main_c_18 : IVec S_ 32 := constantI S_ 32 0#32
  fn_part3 (F := F) main_v6 main_v50 main_c_18

def fn_part1 {F : FTy → Type} [FloatOps F] (main_arg5 : FVec F S4x128x128 .f32) (main_arg6 : FVec F S4x128 .f32) (main_arg7 : FVec F S4x128x128 .f32) (main_arg8 : FVec F S4x128 .f32) (main_arg9 : FVec F S128x32 .f32) (main_arg10 : FVec F S32 .f32) (main_v6 : IVec S1600000 32) (main_v15 : IVec S_ 1) (main_v16 : FVec F S128 .f32) (main_cst_4 : FVec F S_ .f32) : IVec S_ 1 :=
  let main_v17 : FVec F S128 .f32 := broadcastInDim S128 ![] bcast_S_S128 main_cst_4
  let main_v18 : IVec S128 1 := cmpf .olt main_v16 main_v17
  let main_c_5 : IVec S_ 1 := constantI S_ 1 1#1
  let main_v19 : IVec S_ 1 := (fun x v => Host.reduce IntOp.andi x v reducesTo_S128_S_d0 h_S_) main_v18 main_c_5
  let main_v20 : IVec S_ 1 := andi main_v15 main_v19
  let main_v21 : FVec F S4x128x128 .f32 := Host.absf main_arg5
  let main_cst_6 : FVec F S_ .f32 := constant S_ .f32 0x7F800000#32
  let main_v22 : FVec F S4x128x128 .f32 := broadcastInDim S4x128x128 ![] bcast_S_S4x128x128 main_cst_6
  let main_v23 : IVec S4x128x128 1 := cmpf .olt main_v21 main_v22
  let main_c_7 : IVec S_ 1 := constantI S_ 1 1#1
  let main_v24 : IVec S_ 1 := (fun x v => Host.reduce IntOp.andi x v reducesTo_S4x128x128_S_d0_1_2 h_S_) main_v23 main_c_7
  let main_v25 : IVec S_ 1 := andi main_v20 main_v24
  let main_v26 : FVec F S4x128 .f32 := Host.absf main_arg6
  let main_cst_8 : FVec F S_ .f32 := constant S_ .f32 0x7F800000#32
  let main_v27 : FVec F S4x128 .f32 := broadcastInDim S4x128 ![] bcast_S_S4x128 main_cst_8
  let main_v28 : IVec S4x128 1 := cmpf .olt main_v26 main_v27
  let main_c_9 : IVec S_ 1 := constantI S_ 1 1#1
  let main_v29 : IVec S_ 1 := (fun x v => Host.reduce IntOp.andi x v reducesTo_S4x128_S_d0_1 h_S_) main_v28 main_c_9
  let main_v30 : IVec S_ 1 := andi main_v25 main_v29
  let main_v31 : FVec F S4x128x128 .f32 := Host.absf main_arg7
  let main_cst_10 : FVec F S_ .f32 := constant S_ .f32 0x7F800000#32
  let main_v32 : FVec F S4x128x128 .f32 := broadcastInDim S4x128x128 ![] bcast_S_S4x128x128 main_cst_10
  let main_v33 : IVec S4x128x128 1 := cmpf .olt main_v31 main_v32
  let main_c_11 : IVec S_ 1 := constantI S_ 1 1#1
  fn_part2 (F := F) main_arg8 main_arg9 main_arg10 main_v6 main_v30 main_v33 main_c_11

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S4x128x128 .f32) (main_arg6 : FVec F S4x128 .f32) (main_arg7 : FVec F S4x128x128 .f32) (main_arg8 : FVec F S4x128 .f32) (main_arg9 : FVec F S128x32 .f32) (main_arg10 : FVec F S32 .f32) : IVec S_ 1 :=
  let main_v0 : IVec S1x1600000 32 := (extractStridedSlice S1x1600000 ![0, 0] · slices_S2x1600000_S1x1600000_0_0) main_arg1
  let main_v1 : IVec S1600000 32 := shapeCast S1600000 main_v0 shapeCasts_S1x1600000_S1600000
  let main_c : IVec S_ 32 := constantI S_ 32 0#32
  let main_v2 : IVec S1600000 32 := broadcastInDim S1600000 ![] bcast_S_S1600000 main_c
  let main_v3 : IVec S1600000 1 := cmpi .slt main_v1 main_v2
  let main_c_0 : IVec S_ 32 := constantI S_ 32 100000#32
  let main_v4 : IVec S1600000 32 := broadcastInDim S1600000 ![] bcast_S_S1600000 main_c_0
  let main_v5 : IVec S1600000 32 := addi main_v1 main_v4
  let main_v6 : IVec S1600000 32 := select main_v3 main_v5 main_v1
  let main_v7 : FVec F S100000x128 .f32 := Host.absf main_arg0
  let main_cst : FVec F S_ .f32 := constant S_ .f32 0x7F800000#32
  let main_v8 : FVec F S100000x128 .f32 := broadcastInDim S100000x128 ![] bcast_S_S100000x128 main_cst
  let main_v9 : IVec S100000x128 1 := cmpf .olt main_v7 main_v8
  let main_c_1 : IVec S_ 1 := constantI S_ 1 1#1
  let main_v10 : IVec S_ 1 := (fun x v => Host.reduce IntOp.andi x v reducesTo_S100000x128_S_d0_1 h_S_) main_v9 main_c_1
  let main_v11 : FVec F S128x128 .f32 := Host.absf main_arg3
  let main_cst_2 : FVec F S_ .f32 := constant S_ .f32 0x7F800000#32
  let main_v12 : FVec F S128x128 .f32 := broadcastInDim S128x128 ![] bcast_S_S128x128 main_cst_2
  let main_v13 : IVec S128x128 1 := cmpf .olt main_v11 main_v12
  let main_c_3 : IVec S_ 1 := constantI S_ 1 1#1
  let main_v14 : IVec S_ 1 := (fun x v => Host.reduce IntOp.andi x v reducesTo_S128x128_S_d0_1 h_S_) main_v13 main_c_3
  let main_v15 : IVec S_ 1 := andi main_v10 main_v14
  let main_v16 : FVec F S128 .f32 := Host.absf main_arg4
  let main_cst_4 : FVec F S_ .f32 := constant S_ .f32 0x7F800000#32
  fn_part1 (F := F) main_arg5 main_arg6 main_arg7 main_arg8 main_arg9 main_arg10 main_v6 main_v15 main_v16 main_cst_4
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S4x128x128 : Shape := ⟨3, ![4, 128, 128]⟩
abbrev S4x128 : Shape := ⟨2, ![4, 128]⟩
abbrev S128x32 : Shape := ⟨2, ![128, 32]⟩
abbrev S32 : Shape := ⟨1, ![32]⟩
abbrev S1x1600000 : Shape := ⟨2, ![1, 1600000]⟩
abbrev S1600000 : Shape := ⟨1, ![1600000]⟩
abbrev S5000x128 : Shape := ⟨2, ![5000, 128]⟩
abbrev S1x128 : Shape := ⟨2, ![1, 128]⟩
abbrev S1x128x128 : Shape := ⟨3, ![1, 128, 128]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x128 : Shape := ⟨2, ![1600000, 128]⟩
abbrev S512x128 : Shape := ⟨2, ![512, 128]⟩
abbrev S100000x1 : Shape := ⟨2, ![100000, 1]⟩
abbrev S512x32 : Shape := ⟨2, ![512, 32]⟩
abbrev S1x32 : Shape := ⟨2, ![1, 32]⟩

abbrev nBuf : Space → Nat
  | .hbm => 169
  | .vmem => 66
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S4x128x128, .f32⟩
  | 6 => ⟨S4x128, .f32⟩
  | 7 => ⟨S4x128x128, .f32⟩
  | 8 => ⟨S4x128, .f32⟩
  | 9 => ⟨S128x32, .f32⟩
  | 10 => ⟨S32, .f32⟩
  | 11 => ⟨S1x1600000, .i32⟩
  | 12 => ⟨S1600000, .i32⟩
  | 13 => ⟨S1x1600000, .i32⟩
  | 14 => ⟨S1600000, .i32⟩
  | 15 => ⟨S100000x128, .f32⟩
  | 16 => ⟨S1x128x128, .f32⟩
  | 17 => ⟨S128x128, .f32⟩
  | 18 => ⟨S1x128, .f32⟩
  | 19 => ⟨S128, .f32⟩
  | 20 => ⟨S100000x128, .f32⟩
  | 21 => ⟨S_, .i32⟩
  | 22 => ⟨S1600000, .i32⟩
  | 23 => ⟨S1600000, .i1⟩
  | 24 => ⟨S_, .i32⟩
  | 25 => ⟨S1600000, .i32⟩
  | 26 => ⟨S1600000, .i32⟩
  | 27 => ⟨S1600000, .i32⟩
  | 28 => ⟨S1600000x1, .i32⟩
  | 29 => ⟨S1, .i32⟩
  | 30 => ⟨S_, .i32⟩
  | 31 => ⟨S1600000x1, .i32⟩
  | 32 => ⟨S1600000x1, .i1⟩
  | 33 => ⟨S1x1, .i32⟩
  | 34 => ⟨S1600000x1, .i32⟩
  | 35 => ⟨S1600000x1, .i1⟩
  | 36 => ⟨S1600000x1, .i1⟩
  | 37 => ⟨S_, .i1⟩
  | 38 => ⟨S1600000, .i1⟩
  | 39 => ⟨S1600000x128, .f32⟩
  | 40 => ⟨S1600000x128, .i1⟩
  | 41 => ⟨S_, .f32⟩
  | 42 => ⟨S1600000x128, .f32⟩
  | 43 => ⟨S1600000x128, .f32⟩
  | 44 => ⟨S_, .f32⟩
  | 45 => ⟨S100000x128, .f32⟩
  | 46 => ⟨S1600000x1, .i32⟩
  | 47 => ⟨S100000x128, .f32⟩
  | 48 => ⟨S1x128x128, .f32⟩
  | 49 => ⟨S128x128, .f32⟩
  | 50 => ⟨S1x128, .f32⟩
  | 51 => ⟨S128, .f32⟩
  | 52 => ⟨S100000x128, .f32⟩
  | 53 => ⟨S1x128x128, .f32⟩
  | 54 => ⟨S128x128, .f32⟩
  | 55 => ⟨S1x128, .f32⟩
  | 56 => ⟨S128, .f32⟩
  | 57 => ⟨S100000x128, .f32⟩
  | 58 => ⟨S_, .i32⟩
  | 59 => ⟨S1600000, .i32⟩
  | 60 => ⟨S1600000, .i1⟩
  | 61 => ⟨S_, .i32⟩
  | 62 => ⟨S1600000, .i32⟩
  | 63 => ⟨S1600000, .i32⟩
  | 64 => ⟨S1600000, .i32⟩
  | 65 => ⟨S1600000x1, .i32⟩
  | 66 => ⟨S1, .i32⟩
  | 67 => ⟨S_, .i32⟩
  | 68 => ⟨S1600000x1, .i32⟩
  | 69 => ⟨S1600000x1, .i1⟩
  | 70 => ⟨S1x1, .i32⟩
  | 71 => ⟨S1600000x1, .i32⟩
  | 72 => ⟨S1600000x1, .i1⟩
  | 73 => ⟨S1600000x1, .i1⟩
  | 74 => ⟨S_, .i1⟩
  | 75 => ⟨S1600000, .i1⟩
  | 76 => ⟨S1600000x128, .f32⟩
  | 77 => ⟨S1600000x128, .i1⟩
  | 78 => ⟨S_, .f32⟩
  | 79 => ⟨S1600000x128, .f32⟩
  | 80 => ⟨S1600000x128, .f32⟩
  | 81 => ⟨S_, .f32⟩
  | 82 => ⟨S100000x128, .f32⟩
  | 83 => ⟨S1600000x1, .i32⟩
  | 84 => ⟨S100000x128, .f32⟩
  | 85 => ⟨S1x128x128, .f32⟩
  | 86 => ⟨S128x128, .f32⟩
  | 87 => ⟨S1x128, .f32⟩
  | 88 => ⟨S128, .f32⟩
  | 89 => ⟨S100000x128, .f32⟩
  | 90 => ⟨S1x128x128, .f32⟩
  | 91 => ⟨S128x128, .f32⟩
  | 92 => ⟨S1x128, .f32⟩
  | 93 => ⟨S128, .f32⟩
  | 94 => ⟨S100000x128, .f32⟩
  | 95 => ⟨S_, .i32⟩
  | 96 => ⟨S1600000, .i32⟩
  | 97 => ⟨S1600000, .i1⟩
  | 98 => ⟨S_, .i32⟩
  | 99 => ⟨S1600000, .i32⟩
  | 100 => ⟨S1600000, .i32⟩
  | 101 => ⟨S1600000, .i32⟩
  | 102 => ⟨S1600000x1, .i32⟩
  | 103 => ⟨S1, .i32⟩
  | 104 => ⟨S_, .i32⟩
  | 105 => ⟨S1600000x1, .i32⟩
  | 106 => ⟨S1600000x1, .i1⟩
  | 107 => ⟨S1x1, .i32⟩
  | 108 => ⟨S1600000x1, .i32⟩
  | 109 => ⟨S1600000x1, .i1⟩
  | 110 => ⟨S1600000x1, .i1⟩
  | 111 => ⟨S_, .i1⟩
  | 112 => ⟨S1600000, .i1⟩
  | 113 => ⟨S1600000x128, .f32⟩
  | 114 => ⟨S1600000x128, .i1⟩
  | 115 => ⟨S_, .f32⟩
  | 116 => ⟨S1600000x128, .f32⟩
  | 117 => ⟨S1600000x128, .f32⟩
  | 118 => ⟨S_, .f32⟩
  | 119 => ⟨S100000x128, .f32⟩
  | 120 => ⟨S1600000x1, .i32⟩
  | 121 => ⟨S100000x128, .f32⟩
  | 122 => ⟨S1x128x128, .f32⟩
  | 123 => ⟨S128x128, .f32⟩
  | 124 => ⟨S1x128, .f32⟩
  | 125 => ⟨S128, .f32⟩
  | 126 => ⟨S100000x128, .f32⟩
  | 127 => ⟨S1x128x128, .f32⟩
  | _ => ⟨S100000x128, .f32⟩

abbrev hbmTy0_1 (i : Nat) : BufTy := match i % 128 with
  | 0 => ⟨S128x128, .f32⟩
  | 1 => ⟨S1x128, .f32⟩
  | 2 => ⟨S128, .f32⟩
  | 3 => ⟨S100000x128, .f32⟩
  | 4 => ⟨S_, .i32⟩
  | 5 => ⟨S1600000, .i32⟩
  | 6 => ⟨S1600000, .i1⟩
  | 7 => ⟨S_, .i32⟩
  | 8 => ⟨S1600000, .i32⟩
  | 9 => ⟨S1600000, .i32⟩
  | 10 => ⟨S1600000, .i32⟩
  | 11 => ⟨S1600000x1, .i32⟩
  | 12 => ⟨S1, .i32⟩
  | 13 => ⟨S_, .i32⟩
  | 14 => ⟨S1600000x1, .i32⟩
  | 15 => ⟨S1600000x1, .i1⟩
  | 16 => ⟨S1x1, .i32⟩
  | 17 => ⟨S1600000x1, .i32⟩
  | 18 => ⟨S1600000x1, .i1⟩
  | 19 => ⟨S1600000x1, .i1⟩
  | 20 => ⟨S_, .i1⟩
  | 21 => ⟨S1600000, .i1⟩
  | 22 => ⟨S1600000x128, .f32⟩
  | 23 => ⟨S1600000x128, .i1⟩
  | 24 => ⟨S_, .f32⟩
  | 25 => ⟨S1600000x128, .f32⟩
  | 26 => ⟨S1600000x128, .f32⟩
  | 27 => ⟨S_, .f32⟩
  | 28 => ⟨S100000x128, .f32⟩
  | 29 => ⟨S1600000x1, .i32⟩
  | 30 => ⟨S100000x128, .f32⟩
  | 31 => ⟨S1x128x128, .f32⟩
  | 32 => ⟨S128x128, .f32⟩
  | 33 => ⟨S1x128, .f32⟩
  | 34 => ⟨S128, .f32⟩
  | 35 => ⟨S100000x128, .f32⟩
  | 36 => ⟨S_, .f32⟩
  | 37 => ⟨S512x128, .f32⟩
  | 38 => ⟨S100000x1, .i32⟩
  | 39 => ⟨S512x128, .f32⟩
  | 40 => ⟨S512x32, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S128x128, .f32⟩
  | .local _ .vmem, ⟨29, _⟩ => ⟨S128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S128x128, .f32⟩
  | .local _ .vmem, ⟨37, _⟩ => ⟨S128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S128x128, .f32⟩
  | .local _ .vmem, ⟨43, _⟩ => ⟨S128, .f32⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S5000x128, .f32⟩
  | .local _ .vmem, ⟨50, _⟩ => ⟨S128x128, .f32⟩
  | .local _ .vmem, ⟨51, _⟩ => ⟨S128, .f32⟩
  | .local _ .vmem, ⟨52, _⟩ => ⟨S5000x128, .f32⟩
  | .local _ .vmem, ⟨53, _⟩ => ⟨S5000x128, .f32⟩
  | .local _ .vmem, ⟨54, _⟩ => ⟨S5000x128, .f32⟩
  | .local _ .vmem, ⟨55, _⟩ => ⟨S5000x128, .f32⟩
  | .local _ .vmem, ⟨56, _⟩ => ⟨S128x128, .f32⟩
  | .local _ .vmem, ⟨57, _⟩ => ⟨S128, .f32⟩
  | .local _ .vmem, ⟨58, _⟩ => ⟨S5000x128, .f32⟩
  | .local _ .vmem, ⟨59, _⟩ => ⟨S5000x128, .f32⟩
  | .local _ .vmem, ⟨60, _⟩ => ⟨S5000x128, .f32⟩
  | .local _ .vmem, ⟨61, _⟩ => ⟨S5000x128, .f32⟩
  | .local _ .vmem, ⟨62, _⟩ => ⟨S512x128, .f32⟩
  | .local _ .vmem, ⟨63, _⟩ => ⟨S128x32, .f32⟩
  | .local _ .vmem, ⟨64, _⟩ => ⟨S32, .f32⟩
  | .local _ .vmem, ⟨65, _⟩ => ⟨S512x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_v14 : Ref sig .tc := ⟨.hbm, 40, rfl⟩
abbrev main_call0_cst : Ref sig .tc := ⟨.hbm, 41, rfl⟩
abbrev main_call0_v15 : Ref sig .tc := ⟨.hbm, 42, rfl⟩
abbrev main_v10 : Ref sig .tc := ⟨.hbm, 43, rfl⟩
abbrev main_cst : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_call1_c : Ref sig .tc := ⟨.hbm, 58, rfl⟩
abbrev main_call1_v0 : Ref sig .tc := ⟨.hbm, 59, rfl⟩
abbrev main_call1_v1 : Ref sig .tc := ⟨.hbm, 60, rfl⟩
abbrev main_call1_c_0 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_call1_v5 : Ref sig .tc := ⟨.hbm, 65, rfl⟩
abbrev main_call1_c_1 : Ref sig .tc := ⟨.hbm, 66, rfl⟩
abbrev main_call1_c_2 : Ref sig .tc := ⟨.hbm, 67, rfl⟩
abbrev main_call1_v6 : Ref sig .tc := ⟨.hbm, 68, rfl⟩
abbrev main_call1_v7 : Ref sig .tc := ⟨.hbm, 69, rfl⟩
abbrev main_call1_v8 : Ref sig .tc := ⟨.hbm, 70, rfl⟩
abbrev main_call1_v9 : Ref sig .tc := ⟨.hbm, 71, rfl⟩
abbrev main_call1_v10 : Ref sig .tc := ⟨.hbm, 72, rfl⟩
abbrev main_call1_v11 : Ref sig .tc := ⟨.hbm, 73, rfl⟩
abbrev main_call1_c_3 : Ref sig .tc := ⟨.hbm, 74, rfl⟩
abbrev main_call1_v12 : Ref sig .tc := ⟨.hbm, 75, rfl⟩
abbrev main_call1_v13 : Ref sig .tc := ⟨.hbm, 76, rfl⟩
abbrev main_call1_v14 : Ref sig .tc := ⟨.hbm, 77, rfl⟩
abbrev main_call1_cst : Ref sig .tc := ⟨.hbm, 78, rfl⟩
abbrev main_call1_v15 : Ref sig .tc := ⟨.hbm, 79, rfl⟩
abbrev main_v24 : Ref sig .tc := ⟨.hbm, 80, rfl⟩
abbrev main_cst_0 : Ref sig .tc := ⟨.hbm, 81, rfl⟩
abbrev main_v25 : Ref sig .tc := ⟨.hbm, 82, rfl⟩
abbrev main_v26 : Ref sig .tc := ⟨.hbm, 83, rfl⟩
abbrev main_v27 : Ref sig .tc := ⟨.hbm, 84, rfl⟩
abbrev main_v28 : Ref sig .tc := ⟨.hbm, 85, rfl⟩
abbrev main_v29 : Ref sig .tc := ⟨.hbm, 86, rfl⟩
abbrev main_v30 : Ref sig .tc := ⟨.hbm, 87, rfl⟩
abbrev main_v31 : Ref sig .tc := ⟨.hbm, 88, rfl⟩
abbrev main_v32 : Ref sig .tc := ⟨.hbm, 89, rfl⟩
abbrev main_v33 : Ref sig .tc := ⟨.hbm, 90, rfl⟩
abbrev main_v34 : Ref sig .tc := ⟨.hbm, 91, rfl⟩
abbrev main_v35 : Ref sig .tc := ⟨.hbm, 92, rfl⟩
abbrev main_v36 : Ref sig .tc := ⟨.hbm, 93, rfl⟩
abbrev main_v37 : Ref sig .tc := ⟨.hbm, 94, rfl⟩
abbrev main_call2_c : Ref sig .tc := ⟨.hbm, 95, rfl⟩
abbrev main_call2_v0 : Ref sig .tc := ⟨.hbm, 96, rfl⟩
abbrev main_call2_v1 : Ref sig .tc := ⟨.hbm, 97, rfl⟩
abbrev main_call2_c_0 : Ref sig .tc := ⟨.hbm, 98, rfl⟩
abbrev main_call2_v2 : Ref sig .tc := ⟨.hbm, 99, rfl⟩
abbrev main_call2_v3 : Ref sig .tc := ⟨.hbm, 100, rfl⟩
abbrev main_call2_v4 : Ref sig .tc := ⟨.hbm, 101, rfl⟩
abbrev main_call2_v5 : Ref sig .tc := ⟨.hbm, 102, rfl⟩
abbrev main_call2_c_1 : Ref sig .tc := ⟨.hbm, 103, rfl⟩
abbrev main_call2_c_2 : Ref sig .tc := ⟨.hbm, 104, rfl⟩
abbrev main_call2_v6 : Ref sig .tc := ⟨.hbm, 105, rfl⟩
abbrev main_call2_v7 : Ref sig .tc := ⟨.hbm, 106, rfl⟩
abbrev main_call2_v8 : Ref sig .tc := ⟨.hbm, 107, rfl⟩
abbrev main_call2_v9 : Ref sig .tc := ⟨.hbm, 108, rfl⟩
abbrev main_call2_v10 : Ref sig .tc := ⟨.hbm, 109, rfl⟩
abbrev main_call2_v11 : Ref sig .tc := ⟨.hbm, 110, rfl⟩
abbrev main_call2_c_3 : Ref sig .tc := ⟨.hbm, 111, rfl⟩
abbrev main_call2_v12 : Ref sig .tc := ⟨.hbm, 112, rfl⟩
abbrev main_call2_v13 : Ref sig .tc := ⟨.hbm, 113, rfl⟩
abbrev main_call2_v14 : Ref sig .tc := ⟨.hbm, 114, rfl⟩
abbrev main_call2_cst : Ref sig .tc := ⟨.hbm, 115, rfl⟩
abbrev main_call2_v15 : Ref sig .tc := ⟨.hbm, 116, rfl⟩
abbrev main_v38 : Ref sig .tc := ⟨.hbm, 117, rfl⟩
abbrev main_cst_1 : Ref sig .tc := ⟨.hbm, 118, rfl⟩
abbrev main_v39 : Ref sig .tc := ⟨.hbm, 119, rfl⟩
abbrev main_v40 : Ref sig .tc := ⟨.hbm, 120, rfl⟩
abbrev main_v41 : Ref sig .tc := ⟨.hbm, 121, rfl⟩
abbrev main_v42 : Ref sig .tc := ⟨.hbm, 122, rfl⟩
abbrev main_v43 : Ref sig .tc := ⟨.hbm, 123, rfl⟩
abbrev main_v44 : Ref sig .tc := ⟨.hbm, 124, rfl⟩
abbrev main_v45 : Ref sig .tc := ⟨.hbm, 125, rfl⟩
abbrev main_v46 : Ref sig .tc := ⟨.hbm, 126, rfl⟩
abbrev main_v47 : Ref sig .tc := ⟨.hbm, 127, rfl⟩
abbrev main_v48 : Ref sig .tc := ⟨.hbm, 128, rfl⟩
abbrev main_v49 : Ref sig .tc := ⟨.hbm, 129, rfl⟩
abbrev main_v50 : Ref sig .tc := ⟨.hbm, 130, rfl⟩
abbrev main_v51 : Ref sig .tc := ⟨.hbm, 131, rfl⟩
abbrev main_call3_c : Ref sig .tc := ⟨.hbm, 132, rfl⟩
abbrev main_call3_v0 : Ref sig .tc := ⟨.hbm, 133, rfl⟩
abbrev main_call3_v1 : Ref sig .tc := ⟨.hbm, 134, rfl⟩
abbrev main_call3_c_0 : Ref sig .tc := ⟨.hbm, 135, rfl⟩
abbrev main_call3_v2 : Ref sig .tc := ⟨.hbm, 136, rfl⟩
abbrev main_call3_v3 : Ref sig .tc := ⟨.hbm, 137, rfl⟩
abbrev main_call3_v4 : Ref sig .tc := ⟨.hbm, 138, rfl⟩
abbrev main_call3_v5 : Ref sig .tc := ⟨.hbm, 139, rfl⟩
abbrev main_call3_c_1 : Ref sig .tc := ⟨.hbm, 140, rfl⟩
abbrev main_call3_c_2 : Ref sig .tc := ⟨.hbm, 141, rfl⟩
abbrev main_call3_v6 : Ref sig .tc := ⟨.hbm, 142, rfl⟩
abbrev main_call3_v7 : Ref sig .tc := ⟨.hbm, 143, rfl⟩
abbrev main_call3_v8 : Ref sig .tc := ⟨.hbm, 144, rfl⟩
abbrev main_call3_v9 : Ref sig .tc := ⟨.hbm, 145, rfl⟩
abbrev main_call3_v10 : Ref sig .tc := ⟨.hbm, 146, rfl⟩
abbrev main_call3_v11 : Ref sig .tc := ⟨.hbm, 147, rfl⟩
abbrev main_call3_c_3 : Ref sig .tc := ⟨.hbm, 148, rfl⟩
abbrev main_call3_v12 : Ref sig .tc := ⟨.hbm, 149, rfl⟩
abbrev main_call3_v13 : Ref sig .tc := ⟨.hbm, 150, rfl⟩
abbrev main_call3_v14 : Ref sig .tc := ⟨.hbm, 151, rfl⟩
abbrev main_call3_cst : Ref sig .tc := ⟨.hbm, 152, rfl⟩
abbrev main_call3_v15 : Ref sig .tc := ⟨.hbm, 153, rfl⟩
abbrev main_v52 : Ref sig .tc := ⟨.hbm, 154, rfl⟩
abbrev main_cst_2 : Ref sig .tc := ⟨.hbm, 155, rfl⟩
abbrev main_v53 : Ref sig .tc := ⟨.hbm, 156, rfl⟩
abbrev main_v54 : Ref sig .tc := ⟨.hbm, 157, rfl⟩
abbrev main_v55 : Ref sig .tc := ⟨.hbm, 158, rfl⟩
abbrev main_v56 : Ref sig .tc := ⟨.hbm, 159, rfl⟩
abbrev main_v57 : Ref sig .tc := ⟨.hbm, 160, rfl⟩
abbrev main_v58 : Ref sig .tc := ⟨.hbm, 161, rfl⟩
abbrev main_v59 : Ref sig .tc := ⟨.hbm, 162, rfl⟩
abbrev main_v60 : Ref sig .tc := ⟨.hbm, 163, rfl⟩
abbrev main_cst_3 : Ref sig .tc := ⟨.hbm, 164, rfl⟩
abbrev main_v61 : Ref sig .tc := ⟨.hbm, 165, rfl⟩
abbrev main_v62 : Ref sig .tc := ⟨.hbm, 166, rfl⟩
abbrev main_v63 : Ref sig .tc := ⟨.hbm, 167, rfl⟩
abbrev main_v64 : Ref sig .tc := ⟨.hbm, 168, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc2_stg4_0 : Ref sig .tc := ⟨.vmem, 18, rfl⟩
abbrev cc2_stg4_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg3_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg3_0 : Ref sig .tc := ⟨.vmem, 30, rfl⟩
abbrev cc4_stg3_1 : Ref sig .tc := ⟨.vmem, 31, rfl⟩
abbrev cc4_stg4_0 : Ref sig .tc := ⟨.vmem, 32, rfl⟩
abbrev cc4_stg4_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg2_0 : Ref sig .tc := ⟨.vmem, 37, rfl⟩
abbrev cc5_stg3_0 : Ref sig .tc := ⟨.vmem, 38, rfl⟩
abbrev cc5_stg3_1 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg2_0 : Ref sig .tc := ⟨.vmem, 43, rfl⟩
abbrev cc6_stg3_0 : Ref sig .tc := ⟨.vmem, 44, rfl⟩
abbrev cc6_stg3_1 : Ref sig .tc := ⟨.vmem, 45, rfl⟩
abbrev cc6_stg4_0 : Ref sig .tc := ⟨.vmem, 46, rfl⟩
abbrev cc6_stg4_1 : Ref sig .tc := ⟨.vmem, 47, rfl⟩
abbrev cc7_stg0_0 : Ref sig .tc := ⟨.vmem, 48, rfl⟩
abbrev cc7_stg0_1 : Ref sig .tc := ⟨.vmem, 49, rfl⟩
abbrev cc7_stg1_0 : Ref sig .tc := ⟨.vmem, 50, rfl⟩
abbrev cc7_stg2_0 : Ref sig .tc := ⟨.vmem, 51, rfl⟩
abbrev cc7_stg3_0 : Ref sig .tc := ⟨.vmem, 52, rfl⟩
abbrev cc7_stg3_1 : Ref sig .tc := ⟨.vmem, 53, rfl⟩
abbrev cc8_stg0_0 : Ref sig .tc := ⟨.vmem, 54, rfl⟩
abbrev cc8_stg0_1 : Ref sig .tc := ⟨.vmem, 55, rfl⟩
abbrev cc8_stg1_0 : Ref sig .tc := ⟨.vmem, 56, rfl⟩
abbrev cc8_stg2_0 : Ref sig .tc := ⟨.vmem, 57, rfl⟩
abbrev cc8_stg3_0 : Ref sig .tc := ⟨.vmem, 58, rfl⟩
abbrev cc8_stg3_1 : Ref sig .tc := ⟨.vmem, 59, rfl⟩
abbrev cc8_stg4_0 : Ref sig .tc := ⟨.vmem, 60, rfl⟩
abbrev cc8_stg4_1 : Ref sig .tc := ⟨.vmem, 61, rfl⟩
abbrev cc9_stg0_0 : Ref sig .tc := ⟨.vmem, 62, rfl⟩
abbrev cc9_stg1_0 : Ref sig .tc := ⟨.vmem, 63, rfl⟩
abbrev cc9_stg2_0 : Ref sig .tc := ⟨.vmem, 64, rfl⟩
abbrev cc9_stg3_0 : Ref sig .tc := ⟨.vmem, 65, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc2_sem4_0 : DmaSem sig := 18
abbrev cc2_sem4_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem3_0 : DmaSem sig := 24
abbrev cc3_sem3_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem3_0 : DmaSem sig := 30
abbrev cc4_sem3_1 : DmaSem sig := 31
abbrev cc4_sem4_0 : DmaSem sig := 32
abbrev cc4_sem4_1 : DmaSem sig := 33
abbrev cc5_sem0_0 : DmaSem sig := 34
abbrev cc5_sem0_1 : DmaSem sig := 35
abbrev cc5_sem1_0 : DmaSem sig := 36
abbrev cc5_sem2_0 : DmaSem sig := 37
abbrev cc5_sem3_0 : DmaSem sig := 38
abbrev cc5_sem3_1 : DmaSem sig := 39
abbrev cc6_sem0_0 : DmaSem sig := 40
abbrev cc6_sem0_1 : DmaSem sig := 41
abbrev cc6_sem1_0 : DmaSem sig := 42
abbrev cc6_sem2_0 : DmaSem sig := 43
abbrev cc6_sem3_0 : DmaSem sig := 44
abbrev cc6_sem3_1 : DmaSem sig := 45
abbrev cc6_sem4_0 : DmaSem sig := 46
abbrev cc6_sem4_1 : DmaSem sig := 47
abbrev cc7_sem0_0 : DmaSem sig := 48
abbrev cc7_sem0_1 : DmaSem sig := 49
abbrev cc7_sem1_0 : DmaSem sig := 50
abbrev cc7_sem2_0 : DmaSem sig := 51
abbrev cc7_sem3_0 : DmaSem sig := 52
abbrev cc7_sem3_1 : DmaSem sig := 53
abbrev cc8_sem0_0 : DmaSem sig := 54
abbrev cc8_sem0_1 : DmaSem sig := 55
abbrev cc8_sem1_0 : DmaSem sig := 56
abbrev cc8_sem2_0 : DmaSem sig := 57
abbrev cc8_sem3_0 : DmaSem sig := 58
abbrev cc8_sem3_1 : DmaSem sig := 59
abbrev cc8_sem4_0 : DmaSem sig := 60
abbrev cc8_sem4_1 : DmaSem sig := 61
abbrev cc9_sem0_0 : DmaSem sig := 62
abbrev cc9_sem1_0 : DmaSem sig := 63
abbrev cc9_sem2_0 : DmaSem sig := 64
abbrev cc9_sem3_0 : DmaSem sig := 65

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S5000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S5000x128 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S5000x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S128x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S5000x128 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev stage8_4 : Fin 2 → Memref sig .tc .vmem S5000x128 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev grid9 : Pipeline.Grid := ⟨1, ![1], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 1 → Nat :=
  let arg0 : BitVec 32 := BitVec.ofNat 32 (i 0).val
  let c0_i32 : BitVec 32 := 0#32
  let c0_i32_0 : BitVec 32 := 0#32
  ![c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 1 → Memref sig .tc .vmem S512x128 .f32 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![false]

abbrev stage9_1 : Fin 1 → Memref sig .tc .vmem S128x32 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S32 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S512x32 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  shapeCasts_S5000x128_S5000x128 : S5000x128.ShapeCasts S5000x128
  shapeCasts_S128x128_S128x128 : S128x128.ShapeCasts S128x128
  shapeCasts_S128_S128 : S128.ShapeCasts S128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S_S100000x128 : S_.BroadcastsInDim S100000x128 (![] : Fin 0 → Fin S100000x128.rank)
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  bcast_S_S512x128 : S_.BroadcastsInDim S512x128 (![] : Fin 0 → Fin S512x128.rank)
  bcast_S100000_S100000x1_0 : S100000.BroadcastsInDim S100000x1 (![0] : Fin 1 → Fin S100000x1.rank)
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128x32_S128x32_0_0 : ∀ a, (![0, 0] : Fin 2 → Nat) a + S128x32.size a ≤ S128x32.size a
  h_S128x32 : 0 < S128x32.numel
  inb_S32_S32_0 : ∀ a, (![0] : Fin 1 → Nat) a + S32.size a ≤ S32.size a
  h_S32 : 0 < S32.numel
  shapeCasts_S32_S1x32 : S32.ShapeCasts S1x32
  broadcasts_S1x32_S512x32 : S1x32.Broadcasts S512x32
  inb_S512x32_S512x32_0_0 : ∀ a, (![0, 0] : Fin 2 → Nat) a + S512x32.size a ≤ S512x32.size a
  h_S512x32 : 0 < S512x32.numel
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S512x128_S100000x1_S100000x128_1_0_0_1_wf : ScatterDims.WF S512x128 S100000x1 S100000x128 [1] [0] [0] 1
  dot_S512x128_S128x32_S512x32_1_0_0_1_n_n_wf : DotDims.WF S512x128 S128x32 S512x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S100000x128.size a
  hwx2_4 : ∀ i : grid2.Coords, EltTy.bits .f32 = 32 ∨ (Rect.block (s := S100000x128) S5000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128.size a ≤ S128.size a
  hwx3_2 : ∀ i : grid3.Coords, EltTy.bits .f32 = 32 ∨ (Rect.block (s := S128) S128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .f32 = 32 ∨ (Rect.block (s := S100000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128.size a ≤ S128.size a
  hwx4_2 : ∀ i : grid4.Coords, EltTy.bits .f32 = 32 ∨ (Rect.block (s := S128) S128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S100000x128.size a
  hwx4_3 : ∀ i : grid4.Coords, EltTy.bits .f32 = 32 ∨ (Rect.block (s := S100000x128) S5000x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x128.size a ≤ S100000x128.size a
  hwx4_4 : ∀ i : grid4.Coords, EltTy.bits .f32 = 32 ∨ (Rect.block (s := S100000x128) S5000x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128.size a ≤ S128.size a
  hwx5_2 : ∀ i : grid5.Coords, EltTy.bits .f32 = 32 ∨ (Rect.block (s := S128) S128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S100000x128.size a
  hwx5_3 : ∀ i : grid5.Coords, EltTy.bits .f32 = 32 ∨ (Rect.block (s := S100000x128) S5000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128.size a ≤ S128.size a
  hwx6_2 : ∀ i : grid6.Coords, EltTy.bits .f32 = 32 ∨ (Rect.block (s := S128) S128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x128.size a ≤ S100000x128.size a
  hwx6_3 : ∀ i : grid6.Coords, EltTy.bits .f32 = 32 ∨ (Rect.block (s := S100000x128) S5000x128.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S5000x128.size a ≤ S100000x128.size a
  hwx6_4 : ∀ i : grid6.Coords, EltTy.bits .f32 = 32 ∨ (Rect.block (s := S100000x128) S5000x128.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S100000x128.size a
  hwx7_0 : ∀ i : grid7.Coords, EltTy.bits .f32 = 32 ∨ (Rect.block (s := S100000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x128.size a ≤ S128x128.size a
  hwx7_1 : ∀ i : grid7.Coords, EltTy.bits .f32 = 32 ∨ (Rect.block (s := S128x128) S128x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S128.size a ≤ S128.size a
  hwx7_2 : ∀ i : grid7.Coords, EltTy.bits .f32 = 32 ∨ (Rect.block (s := S128) S128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x128.size a ≤ S100000x128.size a
  hwx7_3 : ∀ i : grid7.Coords, EltTy.bits .f32 = 32 ∨ (Rect.block (s := S100000x128) S5000x128.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S100000x128.size a
  hwx8_0 : ∀ i : grid8.Coords, EltTy.bits .f32 = 32 ∨ (Rect.block (s := S100000x128) S5000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S128x128.size a ≤ S128x128.size a
  hwx8_1 : ∀ i : grid8.Coords, EltTy.bits .f32 = 32 ∨ (Rect.block (s := S128x128) S128x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S128.size a ≤ S128.size a
  hwx8_2 : ∀ i : grid8.Coords, EltTy.bits .f32 = 32 ∨ (Rect.block (s := S128) S128.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S5000x128.size a ≤ S100000x128.size a
  hwx8_3 : ∀ i : grid8.Coords, EltTy.bits .f32 = 32 ∨ (Rect.block (s := S100000x128) S5000x128.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S5000x128.size a ≤ S100000x128.size a
  hwx8_4 : ∀ i : grid8.Coords, EltTy.bits .f32 = 32 ∨ (Rect.block (s := S100000x128) S5000x128.size (cc8_transform_4 i) (hinb8_4 i)).WholeWords (EltTy.packing .f32)
  hrank9 : 0 < grid9.rank
  hstage9_0 : ∀ j, (stage9_0 j).IsWhole
  nbuf9_0 : grid9.bufCount reads9_0 true = 1
  hreads9_0 : ∀ i i' : grid9.Coords, (∀ a, reads9_0 a = true → i a = i' a) → cc9_transform_0 i = cc9_transform_0 i'
  hinb9_0 : ∀ (i : grid9.Coords) a, (cc9_transform_0 i a + 1) * S512x128.size a ≤ S512x128.size a
  hwx9_0 : ∀ i : grid9.Coords, EltTy.bits .f32 = 32 ∨ (Rect.block (s := S512x128) S512x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S128x32.size a ≤ S128x32.size a
  hwx9_1 : ∀ i : grid9.Coords, EltTy.bits .f32 = 32 ∨ (Rect.block (s := S128x32) S128x32.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S32.size a ≤ S32.size a
  hwx9_2 : ∀ i : grid9.Coords, EltTy.bits .f32 = 32 ∨ (Rect.block (s := S32) S32.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S512x32.size a ≤ S512x32.size a
  hwx9_3 : ∀ i : grid9.Coords, EltTy.bits .f32 = 32 ∨ (Rect.block (s := S512x32) S512x32.size (cc9_transform_3 i) (hinb9_3 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def dot_S512x128_S128x32_S512x32_1_0_0_1_n_n : DotDims S512x128 S128x32 S512x32 where
  lhsContracting := [1]
  rhsContracting := [0]
  lhsNonContracting := [0]
  rhsNonContracting := [1]
  lhsBatch := []
  rhsBatch := []
  wf := dot_S512x128_S128x32_S512x32_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v4) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v8) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v9) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v13) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v17) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v4) S5000x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v18) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v18) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v20) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v22) S128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v23) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v27) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v29) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v31) S128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v18) S5000x128.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v32) S5000x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v32) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v34) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v36) S128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v37) S5000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v41) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v43) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v45) S128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v32) S5000x128.size cc6_transform_3 reads6_3 false false 2 stage6_3 sem6_3
    hrank6 hreads6_3 hinb6_3 nbuf6_3 (Memref.isWhole_whole _) hwx6_3 hstage6_3

abbrev win6_4 : Pipeline.Window sig grid6 :=
  Pipeline.Window.ofSpec (Memref.whole main_v46) S5000x128.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v46) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v48) S128x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v50) S128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v51) S5000x128.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v55) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v57) S128x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v59) S128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v46) S5000x128.size cc8_transform_3 reads8_3 false false 2 stage8_3 sem8_3
    hrank8 hreads8_3 hinb8_3 nbuf8_3 (Memref.isWhole_whole _) hwx8_3 hstage8_3

abbrev win8_4 : Pipeline.Window sig grid8 :=
  Pipeline.Window.ofSpec (Memref.whole main_v60) S5000x128.size cc8_transform_4 reads8_4 true false 2 stage8_4 sem8_4
    hrank8 hreads8_4 hinb8_4 nbuf8_4 (Memref.isWhole_whole _) hwx8_4 hstage8_4

abbrev win8 : Fin 5 → Pipeline.Window sig grid8 := fun | 0 => win8_0 | 1 => win8_1 | 2 => win8_2 | 3 => win8_3 | 4 => win8_4 | ⟨_ + 5, h⟩ => absurd h (Nat.not_lt.2 (Nat.le_add_left _ _))
abbrev spec8 : Fin 5 → Pipeline.WinSpec sig grid8.rank := fun w => (win8 w).toWinSpec

abbrev win9_0 : Pipeline.Window sig grid9 :=
  Pipeline.Window.ofSpec (Memref.whole main_v63) S512x128.size cc9_transform_0 reads9_0 false true 1 stage9_0 sem9_0
    hrank9 hreads9_0 hinb9_0 nbuf9_0 (Memref.isWhole_whole _) hwx9_0 hstage9_0

abbrev win9_1 : Pipeline.Window sig grid9 :=
  Pipeline.Window.ofSpec (Memref.whole main_arg9) S128x32.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_arg10) S32.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v64) S512x32.size cc9_transform_3 reads9_3 true true 1 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S4x128x128 : Shape := ⟨3, ![4, 128, 128]⟩
abbrev S4x128 : Shape := ⟨2, ![4, 128]⟩
abbrev S128x32 : Shape := ⟨2, ![128, 32]⟩
abbrev S32 : Shape := ⟨1, ![32]⟩
abbrev S1x1600000 : Shape := ⟨2, ![1, 1600000]⟩
abbrev S1600000 : Shape := ⟨1, ![1600000]⟩
abbrev S1x128 : Shape := ⟨2, ![1, 128]⟩
abbrev S_ : Shape := ⟨0, ![]⟩
abbrev S1x128x128 : Shape := ⟨3, ![1, 128, 128]⟩
abbrev S1600000x1 : Shape := ⟨2, ![1600000, 1]⟩
abbrev S1600000x128 : Shape := ⟨2, ![1600000, 128]⟩
abbrev S512x128 : Shape := ⟨2, ![512, 128]⟩
abbrev S100000x1 : Shape := ⟨2, ![100000, 1]⟩
abbrev S512x32 : Shape := ⟨2, ![512, 32]⟩
abbrev S1x32 : Shape := ⟨2, ![1, 32]⟩

abbrev nBuf : Space → Nat
  | .hbm => 174
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S4x128x128, .f32⟩
  | 6 => ⟨S4x128, .f32⟩
  | 7 => ⟨S4x128x128, .f32⟩
  | 8 => ⟨S4x128, .f32⟩
  | 9 => ⟨S128x32, .f32⟩
  | 10 => ⟨S32, .f32⟩
  | 11 => ⟨S1x1600000, .i32⟩
  | 12 => ⟨S1600000, .i32⟩
  | 13 => ⟨S1x1600000, .i32⟩
  | 14 => ⟨S1600000, .i32⟩
  | 15 => ⟨S100000x128, .f32⟩
  | 16 => ⟨S1x128, .f32⟩
  | 17 => ⟨S100000x128, .f32⟩
  | 18 => ⟨S100000x128, .f32⟩
  | 19 => ⟨S_, .f32⟩
  | 20 => ⟨S100000x128, .f32⟩
  | 21 => ⟨S100000x128, .f32⟩
  | 22 => ⟨S1x128x128, .f32⟩
  | 23 => ⟨S128x128, .f32⟩
  | 24 => ⟨S100000x128, .f32⟩
  | 25 => ⟨S1x128, .f32⟩
  | 26 => ⟨S128, .f32⟩
  | 27 => ⟨S1x128, .f32⟩
  | 28 => ⟨S100000x128, .f32⟩
  | 29 => ⟨S100000x128, .f32⟩
  | 30 => ⟨S_, .f32⟩
  | 31 => ⟨S100000x128, .f32⟩
  | 32 => ⟨S100000x128, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000x128, .f32⟩
  | 42 => ⟨S_, .f32⟩
  | 43 => ⟨S100000x128, .f32⟩
  | 44 => ⟨S1600000x1, .i32⟩
  | 45 => ⟨S100000x128, .f32⟩
  | 46 => ⟨S1x128x128, .f32⟩
  | 47 => ⟨S128x128, .f32⟩
  | 48 => ⟨S100000x128, .f32⟩
  | 49 => ⟨S1x128, .f32⟩
  | 50 => ⟨S128, .f32⟩
  | 51 => ⟨S1x128, .f32⟩
  | 52 => ⟨S100000x128, .f32⟩
  | 53 => ⟨S100000x128, .f32⟩
  | 54 => ⟨S_, .f32⟩
  | 55 => ⟨S100000x128, .f32⟩
  | 56 => ⟨S100000x128, .f32⟩
  | 57 => ⟨S100000x128, .f32⟩
  | 58 => ⟨S1x128x128, .f32⟩
  | 59 => ⟨S128x128, .f32⟩
  | 60 => ⟨S100000x128, .f32⟩
  | 61 => ⟨S1x128, .f32⟩
  | 62 => ⟨S128, .f32⟩
  | 63 => ⟨S1x128, .f32⟩
  | 64 => ⟨S100000x128, .f32⟩
  | 65 => ⟨S100000x128, .f32⟩
  | 66 => ⟨S_, .f32⟩
  | 67 => ⟨S100000x128, .f32⟩
  | 68 => ⟨S100000x128, .f32⟩
  | 69 => ⟨S_, .i32⟩
  | 70 => ⟨S1600000, .i32⟩
  | 71 => ⟨S1600000, .i1⟩
  | 72 => ⟨S_, .i32⟩
  | 73 => ⟨S1600000, .i32⟩
  | 74 => ⟨S1600000, .i32⟩
  | 75 => ⟨S1600000, .i32⟩
  | 76 => ⟨S1600000x1, .i32⟩
  | 77 => ⟨S1600000x128, .f32⟩
  | 78 => ⟨S_, .f32⟩
  | 79 => ⟨S100000x128, .f32⟩
  | 80 => ⟨S1600000x1, .i32⟩
  | 81 => ⟨S100000x128, .f32⟩
  | 82 => ⟨S1x128x128, .f32⟩
  | 83 => ⟨S128x128, .f32⟩
  | 84 => ⟨S100000x128, .f32⟩
  | 85 => ⟨S1x128, .f32⟩
  | 86 => ⟨S128, .f32⟩
  | 87 => ⟨S1x128, .f32⟩
  | 88 => ⟨S100000x128, .f32⟩
  | 89 => ⟨S100000x128, .f32⟩
  | 90 => ⟨S_, .f32⟩
  | 91 => ⟨S100000x128, .f32⟩
  | 92 => ⟨S100000x128, .f32⟩
  | 93 => ⟨S100000x128, .f32⟩
  | 94 => ⟨S1x128x128, .f32⟩
  | 95 => ⟨S128x128, .f32⟩
  | 96 => ⟨S100000x128, .f32⟩
  | 97 => ⟨S1x128, .f32⟩
  | 98 => ⟨S128, .f32⟩
  | 99 => ⟨S1x128, .f32⟩
  | 100 => ⟨S100000x128, .f32⟩
  | 101 => ⟨S100000x128, .f32⟩
  | 102 => ⟨S_, .f32⟩
  | 103 => ⟨S100000x128, .f32⟩
  | 104 => ⟨S100000x128, .f32⟩
  | 105 => ⟨S_, .i32⟩
  | 106 => ⟨S1600000, .i32⟩
  | 107 => ⟨S1600000, .i1⟩
  | 108 => ⟨S_, .i32⟩
  | 109 => ⟨S1600000, .i32⟩
  | 110 => ⟨S1600000, .i32⟩
  | 111 => ⟨S1600000, .i32⟩
  | 112 => ⟨S1600000x1, .i32⟩
  | 113 => ⟨S1600000x128, .f32⟩
  | 114 => ⟨S_, .f32⟩
  | 115 => ⟨S100000x128, .f32⟩
  | 116 => ⟨S1600000x1, .i32⟩
  | 117 => ⟨S100000x128, .f32⟩
  | 118 => ⟨S1x128x128, .f32⟩
  | 119 => ⟨S128x128, .f32⟩
  | 120 => ⟨S100000x128, .f32⟩
  | 121 => ⟨S1x128, .f32⟩
  | 122 => ⟨S128, .f32⟩
  | 123 => ⟨S1x128, .f32⟩
  | 124 => ⟨S100000x128, .f32⟩
  | 125 => ⟨S100000x128, .f32⟩
  | 126 => ⟨S_, .f32⟩
  | 127 => ⟨S100000x128, .f32⟩
  | _ => ⟨S100000x128, .f32⟩

abbrev hbmTy0_1 (i : Nat) : BufTy := match i % 128 with
  | 0 => ⟨S100000x128, .f32⟩
  | 1 => ⟨S100000x128, .f32⟩
  | 2 => ⟨S1x128x128, .f32⟩
  | 3 => ⟨S128x128, .f32⟩
  | 4 => ⟨S100000x128, .f32⟩
  | 5 => ⟨S1x128, .f32⟩
  | 6 => ⟨S128, .f32⟩
  | 7 => ⟨S1x128, .f32⟩
  | 8 => ⟨S100000x128, .f32⟩
  | 9 => ⟨S100000x128, .f32⟩
  | 10 => ⟨S_, .f32⟩
  | 11 => ⟨S100000x128, .f32⟩
  | 12 => ⟨S100000x128, .f32⟩
  | 13 => ⟨S_, .i32⟩
  | 14 => ⟨S1600000, .i32⟩
  | 15 => ⟨S1600000, .i1⟩
  | 16 => ⟨S_, .i32⟩
  | 17 => ⟨S1600000, .i32⟩
  | 18 => ⟨S1600000, .i32⟩
  | 19 => ⟨S1600000, .i32⟩
  | 20 => ⟨S1600000x1, .i32⟩
  | 21 => ⟨S1600000x128, .f32⟩
  | 22 => ⟨S_, .f32⟩
  | 23 => ⟨S100000x128, .f32⟩
  | 24 => ⟨S1600000x1, .i32⟩
  | 25 => ⟨S100000x128, .f32⟩
  | 26 => ⟨S1x128x128, .f32⟩
  | 27 => ⟨S128x128, .f32⟩
  | 28 => ⟨S100000x128, .f32⟩
  | 29 => ⟨S1x128, .f32⟩
  | 30 => ⟨S128, .f32⟩
  | 31 => ⟨S1x128, .f32⟩
  | 32 => ⟨S100000x128, .f32⟩
  | 33 => ⟨S100000x128, .f32⟩
  | 34 => ⟨S_, .f32⟩
  | 35 => ⟨S100000x128, .f32⟩
  | 36 => ⟨S100000x128, .f32⟩
  | 37 => ⟨S100000x128, .f32⟩
  | 38 => ⟨S_, .f32⟩
  | 39 => ⟨S512x128, .f32⟩
  | 40 => ⟨S100000x1, .i32⟩
  | 41 => ⟨S512x128, .f32⟩
  | 42 => ⟨S512x32, .f32⟩
  | 43 => ⟨S1x32, .f32⟩
  | 44 => ⟨S512x32, .f32⟩
  | 45 => ⟨S512x32, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_call0_cst : Ref sig .tc := ⟨.hbm, 19, rfl⟩
abbrev main_call0_v0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_call1_cst : Ref sig .tc := ⟨.hbm, 30, rfl⟩
abbrev main_call1_v0 : Ref sig .tc := ⟨.hbm, 31, rfl⟩
abbrev main_v17 : Ref sig .tc := ⟨.hbm, 32, rfl⟩
abbrev main_c : Ref sig .tc := ⟨.hbm, 33, rfl⟩
abbrev main_v18 : Ref sig .tc := ⟨.hbm, 34, rfl⟩
abbrev main_v19 : Ref sig .tc := ⟨.hbm, 35, rfl⟩
abbrev main_c_0 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_call2_cst : Ref sig .tc := ⟨.hbm, 54, rfl⟩
abbrev main_call2_v0 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_call3_cst : Ref sig .tc := ⟨.hbm, 66, rfl⟩
abbrev main_call3_v0 : Ref sig .tc := ⟨.hbm, 67, rfl⟩
abbrev main_v46 : Ref sig .tc := ⟨.hbm, 68, rfl⟩
abbrev main_c_1 : Ref sig .tc := ⟨.hbm, 69, rfl⟩
abbrev main_v47 : Ref sig .tc := ⟨.hbm, 70, rfl⟩
abbrev main_v48 : Ref sig .tc := ⟨.hbm, 71, rfl⟩
abbrev main_c_2 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_3 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_call4_cst : Ref sig .tc := ⟨.hbm, 90, rfl⟩
abbrev main_call4_v0 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_call5_cst : Ref sig .tc := ⟨.hbm, 102, rfl⟩
abbrev main_call5_v0 : Ref sig .tc := ⟨.hbm, 103, rfl⟩
abbrev main_v75 : Ref sig .tc := ⟨.hbm, 104, rfl⟩
abbrev main_c_4 : Ref sig .tc := ⟨.hbm, 105, rfl⟩
abbrev main_v76 : Ref sig .tc := ⟨.hbm, 106, rfl⟩
abbrev main_v77 : Ref sig .tc := ⟨.hbm, 107, rfl⟩
abbrev main_c_5 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_cst_6 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_call6_cst : Ref sig .tc := ⟨.hbm, 126, rfl⟩
abbrev main_call6_v0 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_call7_cst : Ref sig .tc := ⟨.hbm, 138, rfl⟩
abbrev main_call7_v0 : Ref sig .tc := ⟨.hbm, 139, rfl⟩
abbrev main_v104 : Ref sig .tc := ⟨.hbm, 140, rfl⟩
abbrev main_c_7 : Ref sig .tc := ⟨.hbm, 141, rfl⟩
abbrev main_v105 : Ref sig .tc := ⟨.hbm, 142, rfl⟩
abbrev main_v106 : Ref sig .tc := ⟨.hbm, 143, rfl⟩
abbrev main_c_8 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_cst_9 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_call8_cst : Ref sig .tc := ⟨.hbm, 162, rfl⟩
abbrev main_call8_v0 : Ref sig .tc := ⟨.hbm, 163, rfl⟩
abbrev main_v123 : Ref sig .tc := ⟨.hbm, 164, rfl⟩
abbrev main_v124 : Ref sig .tc := ⟨.hbm, 165, rfl⟩
abbrev main_cst_10 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  bcast_S_S512x128 : S_.BroadcastsInDim S512x128 (![] : Fin 0 → Fin S512x128.rank)
  bcast_S100000_S100000x1_0 : S100000.BroadcastsInDim S100000x1 (![0] : Fin 1 → Fin S100000x1.rank)
  bcast_S32_S1x32_1 : S32.BroadcastsInDim S1x32 (![1] : Fin 1 → Fin S1x32.rank)
  bcast_S1x32_S512x32_0_1 : S1x32.BroadcastsInDim S512x32 (![0, 1] : Fin 2 → Fin S512x32.rank)
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S512x128_S100000x1_S100000x128_1_0_0_1_wf : ScatterDims.WF S512x128 S100000x1 S100000x128 [1] [0] [0] 1
  dot_S512x128_S128x32_S512x32_1_0_0_1_n_n_wf : DotDims.WF S512x128 S128x32 S512x32 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def dot_S512x128_S128x32_S512x32_1_0_0_1_n_n : DotDims S512x128 S128x32 S512x32 where
  lhsContracting := [1]
  rhsContracting := [0]
  lhsNonContracting := [0]
  rhsNonContracting := [1]
  lhsBatch := []
  rhsBatch := []
  wf := dot_S512x128_S128x32_S512x32_1_0_0_1_n_n_wf

class Facts : Prop extends Facts₀ where

variable [Facts]
-- ==== Proof.KKeep.lean ====
import proofs.«403677_j16363825398111_1_alg».proof.Proof.Gen.KernelIdeal.Frame
import Idealize.ShloMosaic.Lib.StableHlo.Run

noncomputable section

namespace Cert.KernelIdeal.Gen

open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! Which buffers each host stretch writes, and that a buffer a segment does not write is carried across it. -/

/-- The buffers the stretch `hostOps0` writes, in order. -/
abbrev hostOps0_written : List (Ref sig .tc) := [main_v0, main_v1, main_v2, main_v3]
theorem hostOps0_writes : (hostOps0 : List (HloOp τ sig (Elt F))).Forall fun op => op.writes ⊆ ((hostOps0_written).map (Proc.devRef (τ := τ) .tc)).toFinset := by
  simp only [hostOps0, List.Forall, StableHlo.nullary_writes, StableHlo.unary_writes, StableHlo.binary_writes, StableHlo.ternary_writes, StableHlo.quaternary_writes, StableHlo.reshape_writes, StableHlo.binaryIndexed_writes]
  repeat' apply And.intro
  all_goals exact Finset.singleton_subset_iff.mpr (List.mem_toFinset.mpr (List.mem_map_of_mem (by decide)))

/-- The buffers the stretch `hostOps1` writes, in order. -/
abbrev hostOps1_written : List (Ref sig .tc) := [main_v5, main_v6, main_v7, main_v8]
theorem hostOps1_writes : (hostOps1 : List (HloOp τ sig (Elt F))).Forall fun op => op.writes ⊆ ((hostOps1_written).map (Proc.devRef (τ := τ) .tc)).toFinset := by
  simp only [hostOps1, List.Forall, StableHlo.nullary_writes, StableHlo.unary_writes, StableHlo.binary_writes, StableHlo.ternary_writes, StableHlo.quaternary_writes, StableHlo.reshape_writes, StableHlo.binaryIndexed_writes]
  repeat' apply And.intro
  all_goals exact Finset.singleton_subset_iff.mpr (List.mem_toFinset.mpr (List.mem_map_of_mem (by decide)))

/-- The buffers the stretch `hostOps2` writes, in order. -/
abbrev hostOps2_written : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v10]
theorem hostOps2_writes : (hostOps2 : List (HloOp τ sig (Elt F))).Forall fun op => op.writes ⊆ ((hostOps2_written).map (Proc.devRef (τ := τ) .tc)).toFinset := by
  simp only [hostOps2, List.Forall, StableHlo.nullary_writes, StableHlo.unary_writes, StableHlo.binary_writes, StableHlo.ternary_writes, StableHlo.quaternary_writes, StableHlo.reshape_writes, StableHlo.binaryIndexed_writes]
  repeat' apply And.intro
  all_goals exact Finset.singleton_subset_iff.mpr (List.mem_toFinset.mpr (List.mem_map_of_mem (by decide)))

/-- The buffers the stretch `hostOps2_1` writes, in order. -/
abbrev hostOps2_1_written : List (Ref sig .tc) := [main_cst, main_v11, main_v12, main_v13, main_v14, main_v15, main_v16, main_v17]
theorem hostOps2_1_writes : (hostOps2_1 : List (HloOp τ sig (Elt F))).Forall fun op => op.writes ⊆ ((hostOps2_1_written).map (Proc.devRef (τ := τ) .tc)).toFinset := by
  simp only [hostOps2_1, List.Forall, StableHlo.nullary_writes, StableHlo.unary_writes, StableHlo.binary_writes, StableHlo.ternary_writes, StableHlo.quaternary_writes, StableHlo.reshape_writes, StableHlo.binaryIndexed_writes]
  repeat' apply And.intro
  all_goals exact Finset.singleton_subset_iff.mpr (List.mem_toFinset.mpr (List.mem_map_of_mem (by decide)))

/-- The buffers the stretch `hostOps3` writes, in order. -/
abbrev hostOps3_written : List (Ref sig .tc) := [main_v19, main_v20, main_v21, main_v22]
theorem hostOps3_writes : (hostOps3 : List (HloOp τ sig (Elt F))).Forall fun op => op.writes ⊆ ((hostOps3_written).map (Proc.devRef (τ := τ) .tc)).toFinset := by
  simp only [hostOps3, List.Forall, StableHlo.nullary_writes, StableHlo.unary_writes, StableHlo.binary_writes, StableHlo.ternary_writes, StableHlo.quaternary_writes, StableHlo.reshape_writes, StableHlo.binaryIndexed_writes]
  repeat' apply And.intro
  all_goals exact Finset.singleton_subset_iff.mpr (List.mem_toFinset.mpr (List.mem_map_of_mem (by decide)))

/-- The buffers the stretch `hostOps4` writes, in order. -/
abbrev hostOps4_written : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v24]
theorem hostOps4_writes : (hostOps4 : List (HloOp τ sig (Elt F))).Forall fun op => op.writes ⊆ ((hostOps4_written).map (Proc.devRef (τ := τ) .tc)).toFinset := by
  simp only [hostOps4, List.Forall, StableHlo.nullary_writes, StableHlo.unary_writes, StableHlo.binary_writes, StableHlo.ternary_writes, StableHlo.quaternary_writes, StableHlo.reshape_writes, StableHlo.binaryIndexed_writes]
  repeat' apply And.intro
  all_goals exact Finset.singleton_subset_iff.mpr (List.mem_toFinset.mpr (List.mem_map_of_mem (by decide)))

/-- The buffers the stretch `hostOps4_1` writes, in order. -/
abbrev hostOps4_1_written : List (Ref sig .tc) := [main_cst_0, main_v25, main_v26, main_v27, main_v28, main_v29, main_v30, main_v31]
theorem hostOps4_1_writes : (hostOps4_1 : List (HloOp τ sig (Elt F))).Forall fun op => op.writes ⊆ ((hostOps4_1_written).map (Proc.devRef (τ := τ) .tc)).toFinset := by
  simp only [hostOps4_1, List.Forall, StableHlo.nullary_writes, StableHlo.unary_writes, StableHlo.binary_writes, StableHlo.ternary_writes, StableHlo.quaternary_writes, StableHlo.reshape_writes, StableHlo.binaryIndexed_writes]
  repeat' apply And.intro
  all_goals exact Finset.singleton_subset_iff.mpr (List.mem_toFinset.mpr (List.mem_map_of_mem (by decide)))

/-- The buffers the stretch `hostOps5` writes, in order. -/
abbrev hostOps5_written : List (Ref sig .tc) := [main_v33, main_v34, main_v35, main_v36]
theorem hostOps5_writes : (hostOps5 : List (HloOp τ sig (Elt F))).Forall fun op => op.writes ⊆ ((hostOps5_written).map (Proc.devRef (τ := τ) .tc)).toFinset := by
  simp only [hostOps5, List.Forall, StableHlo.nullary_writes, StableHlo.unary_writes, StableHlo.binary_writes, StableHlo.ternary_writes, StableHlo.quaternary_writes, StableHlo.reshape_writes, StableHlo.binaryIndexed_writes]
  repeat' apply And.intro
  all_goals exact Finset.singleton_subset_iff.mpr (List.mem_toFinset.mpr (List.mem_map_of_mem (by decide)))

/-- The buffers the stretch `hostOps6` writes, in order. -/
abbrev hostOps6_written : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v38]
theorem hostOps6_writes : (hostOps6 : List (HloOp τ sig (Elt F))).Forall fun op => op.writes ⊆ ((hostOps6_written).map (Proc.devRef (τ := τ) .tc)).toFinset := by
  simp only [hostOps6, List.Forall, StableHlo.nullary_writes, StableHlo.unary_writes, StableHlo.binary_writes, StableHlo.ternary_writes, StableHlo.quaternary_writes, StableHlo.reshape_writes, StableHlo.binaryIndexed_writes]
  repeat' apply And.intro
  all_goals exact Finset.singleton_subset_iff.mpr (List.mem_toFinset.mpr (List.mem_map_of_mem (by decide)))

/-- The buffers the stretch `hostOps6_1` writes, in order. -/
abbrev hostOps6_1_written : List (Ref sig .tc) := [main_cst_1, main_v39, main_v40, main_v41, main_v42, main_v43, main_v44, main_v45]
theorem hostOps6_1_writes : (hostOps6_1 : List (HloOp τ sig (Elt F))).Forall fun op => op.writes ⊆ ((hostOps6_1_written).map (Proc.devRef (τ := τ) .tc)).toFinset := by
  simp only [hostOps6_1, List.Forall, StableHlo.nullary_writes, StableHlo.unary_writes, StableHlo.binary_writes, StableHlo.ternary_writes, StableHlo.quaternary_writes, StableHlo.reshape_writes, StableHlo.binaryIndexed_writes]
  repeat' apply And.intro
  all_goals exact Finset.singleton_subset_iff.mpr (List.mem_toFinset.mpr (List.mem_map_of_mem (by decide)))

/-- The buffers the stretch `hostOps7` writes, in order. -/
abbrev hostOps7_written : List (Ref sig .tc) := [main_v47, main_v48, main_v49, main_v50]
theorem hostOps7_writes : (hostOps7 : List (HloOp τ sig (Elt F))).Forall fun op => op.writes ⊆ ((hostOps7_written).map (Proc.devRef (τ := τ) .tc)).toFinset := by
  simp only [hostOps7, List.Forall, StableHlo.nullary_writes, StableHlo.unary_writes, StableHlo.binary_writes, StableHlo.ternary_writes, StableHlo.quaternary_writes, StableHlo.reshape_writes, StableHlo.binaryIndexed_writes]
  repeat' apply And.intro
  all_goals exact Finset.singleton_subset_iff.mpr (List.mem_toFinset.mpr (List.mem_map_of_mem (by decide)))

/-- The buffers the stretch `hostOps8` writes, in order. -/
abbrev hostOps8_written : List (Ref sig .tc) := [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v52]
theorem hostOps8_writes : (hostOps8 : List (HloOp τ sig (Elt F))).Forall fun op => op.writes ⊆ ((hostOps8_written).map (Proc.devRef (τ := τ) .tc)).toFinset := by
  simp only [hostOps8, List.Forall, StableHlo.nullary_writes, StableHlo.unary_writes, StableHlo.binary_writes, StableHlo.ternary_writes, StableHlo.quaternary_writes, StableHlo.reshape_writes, StableHlo.binaryIndexed_writes]
  repeat' apply And.intro
  all_goals exact Finset.singleton_subset_iff.mpr (List.mem_toFinset.mpr (List.mem_map_of_mem (by decide)))

/-- The buffers the stretch `hostOps8_1` writes, in order. -/
abbrev hostOps8_1_written : List (Ref sig .tc) := [main_cst_2, main_v53, main_v54, main_v55, main_v56, main_v57, main_v58, main_v59]
theorem hostOps8_1_writes : (hostOps8_1 : List (HloOp τ sig (Elt F))).Forall fun op => op.writes ⊆ ((hostOps8_1_written).map (Proc.devRef (τ := τ) .tc)).toFinset := by
  simp only [hostOps8_1, List.Forall, StableHlo.nullary_writes, StableHlo.unary_writes, StableHlo.binary_writes, StableHlo.ternary_writes, StableHlo.quaternary_writes, StableHlo.reshape_writes, StableHlo.binaryIndexed_writes]
  repeat' apply And.intro
  all_goals exact Finset.singleton_subset_iff.mpr (List.mem_toFinset.mpr (List.mem_map_of_mem (by decide)))

/-- The buffers the stretch `hostOps9` writes, in order. -/
abbrev hostOps9_written : List (Ref sig .tc) := [main_cst_3, main_v61, main_v62, main_v63]
theorem hostOps9_writes : (hostOps9 : List (HloOp τ sig (Elt F))).Forall fun op => op.writes ⊆ ((hostOps9_written).map (Proc.devRef (τ := τ) .tc)).toFinset := by
  simp only [hostOps9, List.Forall, StableHlo.nullary_writes, StableHlo.unary_writes, StableHlo.binary_writes, StableHlo.ternary_writes, StableHlo.quaternary_writes, StableHlo.reshape_writes, StableHlo.binaryIndexed_writes]
  repeat' apply And.intro
  all_goals exact Finset.singleton_subset_iff.mpr (List.mem_toFinset.mpr (List.mem_map_of_mem (by decide)))

/-- Boundary 1 is boundary 0 after the stretch `hostOps0`: a buffer the stretch does not write is as before. -/
theorem keep1 (c : Dev nD) (r : Ref sig .tc) (hr : r ∉ hostOps0_written) :
    W1 m ρ c (Proc.devRef .tc r) = W0 m ρ c (Proc.devRef .tc r) :=
  StableHlo.after_of_writes_sub _ _ hostOps0_writes hr

/-- Boundary 2 is boundary 1 after pallas_call 0: a buffer that is none of its arrays is as before … -/
theorem keep2 (c : Dev nD) (r : Ref sig .tc) (hr : ∀ w, Pipeline.arrRef spec0 w ≠ r) :
    W2 m ρ c (Proc.devRef .tc r) = W1 m ρ c (Proc.devRef .tc r) :=
  W2_of_ne m ρ c r hr
/-- … and so is the array of an input window (staged, never written back). -/
theorem keep2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))

/-- Boundary 3 is boundary 2 after the stretch `hostOps1`: a buffer the stretch does not write is as before. -/
theorem keep3 (c : Dev nD) (r : Ref sig .tc) (hr : r ∉ hostOps1_written) :
    W3 m ρ c (Proc.devRef .tc r) = W2 m ρ c (Proc.devRef .tc r) :=
  StableHlo.after_of_writes_sub _ _ hostOps1_writes hr

/-- Boundary 4 is boundary 3 after pallas_call 1: a buffer that is none of its arrays is as before … -/
theorem keep4 (c : Dev nD) (r : Ref sig .tc) (hr : ∀ w, Pipeline.arrRef spec1 w ≠ r) :
    W4 m ρ c (Proc.devRef .tc r) = W3 m ρ c (Proc.devRef .tc r) :=
  W4_of_ne m ρ c r hr
/-- … and so is the array of an input window (staged, never written back). -/
theorem keep4_in (c : Dev nD) (w : Fin cfg1.W) (hin : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hin _).trans (A_eq1 (V3 m ρ) c w))

/-- Boundary 5 is boundary 4 after the stretch `hostOps2`: a buffer the stretch does not write is as before. -/
theorem keep5 (c : Dev nD) (r : Ref sig .tc) (hr : r ∉ hostOps2_written) :
    W5 m ρ c (Proc.devRef .tc r) = W4 m ρ c (Proc.devRef .tc r) :=
  StableHlo.after_of_writes_sub _ _ hostOps2_writes hr

/-- Boundary 6 is boundary 5 after the stretch `hostOps2_1`: a buffer the stretch does not write is as before. -/
theorem keep6 (c : Dev nD) (r : Ref sig .tc) (hr : r ∉ hostOps2_1_written) :
    W6 m ρ c (Proc.devRef .tc r) = W5 m ρ c (Proc.devRef .tc r) :=
  StableHlo.after_of_writes_sub _ _ hostOps2_1_writes hr

/-- Boundary 7 is boundary 6 after pallas_call 2: a buffer that is none of its arrays is as before … -/
theorem keep7 (c : Dev nD) (r : Ref sig .tc) (hr : ∀ w, Pipeline.arrRef spec2 w ≠ r) :
    W7 m ρ c (Proc.devRef .tc r) = W6 m ρ c (Proc.devRef .tc r) :=
  W7_of_ne m ρ c r hr
/-- … and so is the array of an input window (staged, never written back). -/
theorem keep7_in (c : Dev nD) (w : Fin cfg2.W) (hin : (cfg2.win w).isOut = false) :
    W7 m ρ c (Proc.devRef .tc (Pipeline.arrRef spec2 w)) = W6 m ρ c (Proc.devRef .tc (Pipeline.arrRef spec2 w)) :=
  (W7_arr m ρ c w).trans (((dat2 (V6 m ρ) c).arrAt_in w hin _).trans (A_eq2 (V6 m ρ) c w))

/-- Boundary 8 is boundary 7 after the stretch `hostOps3`: a buffer the stretch does not write is as before. -/
theorem keep8 (c : Dev nD) (r : Ref sig .tc) (hr : r ∉ hostOps3_written) :
    W8 m ρ c (Proc.devRef .tc r) = W7 m ρ c (Proc.devRef .tc r) :=
  StableHlo.after_of_writes_sub _ _ hostOps3_writes hr

/-- Boundary 9 is boundary 8 after pallas_call 3: a buffer that is none of its arrays is as before … -/
theorem keep9 (c : Dev nD) (r : Ref sig .tc) (hr : ∀ w, Pipeline.arrRef spec3 w ≠ r) :
    W9 m ρ c (Proc.devRef .tc r) = W8 m ρ c (Proc.devRef .tc r) :=
  W9_of_ne m ρ c r hr
/-- … and so is the array of an input window (staged, never written back). -/
theorem keep9_in (c : Dev nD) (w : Fin cfg3.W) (hin : (cfg3.win w).isOut = false) :
    W9 m ρ c (Proc.devRef .tc (Pipeline.arrRef spec3 w)) = W8 m ρ c (Proc.devRef .tc (Pipeline.arrRef spec3 w)) :=
  (W9_arr m ρ c w).trans (((dat3 (V8 m ρ) c).arrAt_in w hin _).trans (A_eq3 (V8 m ρ) c w))

/-- Boundary 10 is boundary 9 after the stretch `hostOps4`: a buffer the stretch does not write is as before. -/
theorem keep10 (c : Dev nD) (r : Ref sig .tc) (hr : r ∉ hostOps4_written) :
    W10 m ρ c (Proc.devRef .tc r) = W9 m ρ c (Proc.devRef .tc r) :=
  StableHlo.after_of_writes_sub _ _ hostOps4_writes hr

/-- Boundary 11 is boundary 10 after the stretch `hostOps4_1`: a buffer the stretch does not write is as before. -/
theorem keep11 (c : Dev nD) (r : Ref sig .tc) (hr : r ∉ hostOps4_1_written) :
    W11 m ρ c (Proc.devRef .tc r) = W10 m ρ c (Proc.devRef .tc r) :=
  StableHlo.after_of_writes_sub _ _ hostOps4_1_writes hr

/-- Boundary 12 is boundary 11 after pallas_call 4: a buffer that is none of its arrays is as before … -/
theorem keep12 (c : Dev nD) (r : Ref sig .tc) (hr : ∀ w, Pipeline.arrRef spec4 w ≠ r) :
    W12 m ρ c (Proc.devRef .tc r) = W11 m ρ c (Proc.devRef .tc r) :=
  W12_of_ne m ρ c r hr
/-- … and so is the array of an input window (staged, never written back). -/
theorem keep12_in (c : Dev nD) (w : Fin cfg4.W) (hin : (cfg4.win w).isOut = false) :
    W12 m ρ c (Proc.devRef .tc (Pipeline.arrRef spec4 w)) = W11 m ρ c (Proc.devRef .tc (Pipeline.arrRef spec4 w)) :=
  (W12_arr m ρ c w).trans (((dat4 (V11 m ρ) c).arrAt_in w hin _).trans (A_eq4 (V11 m ρ) c w))

/-- Boundary 13 is boundary 12 after the stretch `hostOps5`: a buffer the stretch does not write is as before. -/
theorem keep13 (c : Dev nD) (r : Ref sig .tc) (hr : r ∉ hostOps5_written) :
    W13 m ρ c (Proc.devRef .tc r) = W12 m ρ c (Proc.devRef .tc r) :=
  StableHlo.after_of_writes_sub _ _ hostOps5_writes hr

/-- Boundary 14 is boundary 13 after pallas_call 5: a buffer that is none of its arrays is as before … -/
theorem keep14 (c : Dev nD) (r : Ref sig .tc) (hr : ∀ w, Pipeline.arrRef spec5 w ≠ r) :
    W14 m ρ c (Proc.devRef .tc r) = W13 m ρ c (Proc.devRef .tc r) :=
  W14_of_ne m ρ c r hr
/-- … and so is the array of an input window (staged, never written back). -/
theorem keep14_in (c : Dev nD) (w : Fin cfg5.W) (hin : (cfg5.win w).isOut = false) :
    W14 m ρ c (Proc.devRef .tc (Pipeline.arrRef spec5 w)) = W13 m ρ c (Proc.devRef .tc (Pipeline.arrRef spec5 w)) :=
  (W14_arr m ρ c w).trans (((dat5 (V13 m ρ) c).arrAt_in w hin _).trans (A_eq5 (V13 m ρ) c w))

/-- Boundary 15 is boundary 14 after the stretch `hostOps6`: a buffer the stretch does not write is as before. -/
theorem keep15 (c : Dev nD) (r : Ref sig .tc) (hr : r ∉ hostOps6_written) :
    W15 m ρ c (Proc.devRef .tc r) = W14 m ρ c (Proc.devRef .tc r) :=
  StableHlo.after_of_writes_sub _ _ hostOps6_writes hr

/-- Boundary 16 is boundary 15 after the stretch `hostOps6_1`: a buffer the stretch does not write is as before. -/
theorem keep16 (c : Dev nD) (r : Ref sig .tc) (hr : r ∉ hostOps6_1_written) :
    W16 m ρ c (Proc.devRef .tc r) = W15 m ρ c (Proc.devRef .tc r) :=
  StableHlo.after_of_writes_sub _ _ hostOps6_1_writes hr

/-- Boundary 17 is boundary 16 after pallas_call 6: a buffer that is none of its arrays is as before … -/
theorem keep17 (c : Dev nD) (r : Ref sig .tc) (hr : ∀ w, Pipeline.arrRef spec6 w ≠ r) :
    W17 m ρ c (Proc.devRef .tc r) = W16 m ρ c (Proc.devRef .tc r) :=
  W17_of_ne m ρ c r hr
/-- … and so is the array of an input window (staged, never written back). -/
theorem keep17_in (c : Dev nD) (w : Fin cfg6.W) (hin : (cfg6.win w).isOut = false) :
    W17 m ρ c (Proc.devRef .tc (Pipeline.arrRef spec6 w)) = W16 m ρ c (Proc.devRef .tc (Pipeline.arrRef spec6 w)) :=
  (W17_arr m ρ c w).trans (((dat6 (V16 m ρ) c).arrAt_in w hin _).trans (A_eq6 (V16 m ρ) c w))

/-- Boundary 18 is boundary 17 after the stretch `hostOps7`: a buffer the stretch does not write is as before. -/
theorem keep18 (c : Dev nD) (r : Ref sig .tc) (hr : r ∉ hostOps7_written) :
    W18 m ρ c (Proc.devRef .tc r) = W17 m ρ c (Proc.devRef .tc r) :=
  StableHlo.after_of_writes_sub _ _ hostOps7_writes hr

/-- Boundary 19 is boundary 18 after pallas_call 7: a buffer that is none of its arrays is as before … -/
theorem keep19 (c : Dev nD) (r : Ref sig .tc) (hr : ∀ w, Pipeline.arrRef spec7 w ≠ r) :
    W19 m ρ c (Proc.devRef .tc r) = W18 m ρ c (Proc.devRef .tc r) :=
  W19_of_ne m ρ c r hr
/-- … and so is the array of an input window (staged, never written back). -/
theorem keep19_in (c : Dev nD) (w : Fin cfg7.W) (hin : (cfg7.win w).isOut = false) :
    W19 m ρ c (Proc.devRef .tc (Pipeline.arrRef spec7 w)) = W18 m ρ c (Proc.devRef .tc (Pipeline.arrRef spec7 w)) :=
  (W19_arr m ρ c w).trans (((dat7 (V18 m ρ) c).arrAt_in w hin _).trans (A_eq7 (V18 m ρ) c w))

/-- Boundary 20 is boundary 19 after the stretch `hostOps8`: a buffer the stretch does not write is as before. -/
theorem keep20 (c : Dev nD) (r : Ref sig .tc) (hr : r ∉ hostOps8_written) :
    W20 m ρ c (Proc.devRef .tc r) = W19 m ρ c (Proc.devRef .tc r) :=
  StableHlo.after_of_writes_sub _ _ hostOps8_writes hr

/-- Boundary 21 is boundary 20 after the stretch `hostOps8_1`: a buffer the stretch does not write is as before. -/
theorem keep21 (c : Dev nD) (r : Ref sig .tc) (hr : r ∉ hostOps8_1_written) :
    W21 m ρ c (Proc.devRef .tc r) = W20 m ρ c (Proc.devRef .tc r) :=
  StableHlo.after_of_writes_sub _ _ hostOps8_1_writes hr

/-- Boundary 22 is boundary 21 after pallas_call 8: a buffer that is none of its arrays is as before … -/
theorem keep22 (c : Dev nD) (r : Ref sig .tc) (hr : ∀ w, Pipeline.arrRef spec8 w ≠ r) :
    W22 m ρ c (Proc.devRef .tc r) = W21 m ρ c (Proc.devRef .tc r) :=
  W22_of_ne m ρ c r hr
/-- … and so is the array of an input window (staged, never written back). -/
theorem keep22_in (c : Dev nD) (w : Fin cfg8.W) (hin : (cfg8.win w).isOut = false) :
    W22 m ρ c (Proc.devRef .tc (Pipeline.arrRef spec8 w)) = W21 m ρ c (Proc.devRef .tc (Pipeline.arrRef spec8 w)) :=
  (W22_arr m ρ c w).trans (((dat8 (V21 m ρ) c).arrAt_in w hin _).trans (A_eq8 (V21 m ρ) c w))

/-- Boundary 23 is boundary 22 after the stretch `hostOps9`: a buffer the stretch does not write is as before. -/
theorem keep23 (c : Dev nD) (r : Ref sig .tc) (hr : r ∉ hostOps9_written) :
    W23 m ρ c (Proc.devRef .tc r) = W22 m ρ c (Proc.devRef .tc r) :=
  StableHlo.after_of_writes_sub _ _ hostOps9_writes hr

/-- Boundary 24 is boundary 23 after pallas_call 9: a buffer that is none of its arrays is as before … -/
theorem keep24 (c : Dev nD) (r : Ref sig .tc) (hr : ∀ w, Pipeline.arrRef spec9 w ≠ r) :
    W24 m ρ c (Proc.devRef .tc r) = W23 m ρ c (Proc.devRef .tc r) :=
  W24_of_ne m ρ c r hr
/-- … and so is the array of an input window (staged, never written back). -/
theorem keep24_in (c : Dev nD) (w : Fin cfg9.W) (hin : (cfg9.win w).isOut = false) :
    W24 m ρ c (Proc.devRef .tc (Pipeline.arrRef spec9 w)) = W23 m ρ c (Proc.devRef .tc (Pipeline.arrRef spec9 w)) :=
  (W24_arr m ρ c w).trans (((dat9 (V23 m ρ) c).arrAt_in w hin _).trans (A_eq9 (V23 m ρ) c w))

end Cert.KernelIdeal.Gen

end
-- ==== Proof.Layers.lean ====
import proofs.«403677_j16363825398111_1_alg».proof.Proof.Gen.KernelIdeal
import proofs.«403677_j16363825398111_1_alg».proof.Proof.Gen.ReferenceIdeal.Read

/-!
  The host layers the two programs share, each as one function of its operand arrays.

  * `rowIdx src`: an edge's source index read the NumPy way (a negative index counts from the end of the 100000 rows),
    as the [E, 1] index array the gather takes;
  * `gatherRows msg src`: row `rowIdx src e` of `msg` for every edge `e` — the reference's `message[src]`;
  * `takeMasked msg src`: the kernel's `jnp.take(message, src, axis=0)`: the same rows where the index lies in
    `0 … 99999`, a fill value elsewhere;
  * `segSum dst upd`: `segment_sum (upd, dst)` onto the 100000 nodes; `poolSum batch st`: onto the 512 graphs.
  The reference's stages are these functions of its earlier stages, by unfolding.
-/

noncomputable section

namespace Cert.Layers

open Idealize.ShloMosaic Idealize.ShloMosaic.TcCoe

variable {F : FTy → Type} [FloatOps F]

section Kernel
open Cert.KernelIdeal Cert.KernelIdeal.Facts₀ Cert.KernelIdeal.Facts

/-- The gather's [E, 1] index array: `src`, a negative entry moved up by the 100000 rows. -/
def rowIdx (src : (⟨S1600000, .i32⟩ : BufTy).Contents (Elt F)) : (⟨S1600000x1, .i32⟩ : BufTy).Contents (Elt F) :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- Row `rowIdx src e` of `msg`, for every edge `e`. -/
def gatherRows (msg : (⟨S100000x128, .f32⟩ : BufTy).Contents (Elt F)) (src : (⟨S1600000, .i32⟩ : BufTy).Contents (Elt F)) :
    (⟨S1600000x128, .f32⟩ : BufTy).Contents (Elt F) :=
  Host.gather gather_S100000x128_S1600000x1_S1600000x128_1_0_n_n_0_1_1128 msg (rowIdx src)

/-- Per edge: is the index within `0 … 99999`? -/
def inRange (src : (⟨S1600000, .i32⟩ : BufTy).Contents (Elt F)) : (⟨S1600000x1, .i1⟩ : BufTy).Contents (Elt F) :=
  andi (cmpi .sge (rowIdx src) (broadcastInDim S1600000x1 ![] bcast_S_S1600000x1 (constantI S_ 32 0#32)))
    (cmpi .sle (rowIdx src) (broadcastInDim S1600000x1 ![0, 1] bcast_S1x1_S1600000x1_0_1
      (broadcastInDim S1x1 ![1] bcast_S1_S1x1_1 (constantI S1 32 99999#32))))

/-- The kernel's `take`: the gathered row where the index is in range, the fill word elsewhere. -/
def takeMasked (msg : (⟨S100000x128, .f32⟩ : BufTy).Contents (Elt F)) (src : (⟨S1600000, .i32⟩ : BufTy).Contents (Elt F)) :
    (⟨S1600000x128, .f32⟩ : BufTy).Contents (Elt F) :=
  select
    (broadcastInDim S1600000x128 ![0] bcast_S1600000_S1600000x128_0
      (Host.reduce IntOp.andi (inRange src) (constantI S_ 1 1#1) reducesTo_S1600000x1_S1600000_d1 h_S_))
    (gatherRows msg src)
    (broadcastInDim S1600000x128 ![] bcast_S_S1600000x128 (constant S_ .f32 0x7FC00000#32))

/-- `segment_sum (upd, dst)` onto the node table. -/
def segSum (dst : (⟨S1600000, .i32⟩ : BufTy).Contents (Elt F)) (upd : (⟨S1600000x128, .f32⟩ : BufTy).Contents (Elt F)) :
    (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst) upd

/-- `segment_sum (st, batch)` onto the 512 graphs. -/
def poolSum (batch : (⟨S100000, .i32⟩ : BufTy).Contents (Elt F)) (st : (⟨S100000x128, .f32⟩ : BufTy).Contents (Elt F)) :
    (⟨S512x128, .f32⟩ : BufTy).Contents (Elt F) :=
  Host.scatterAdd scatter_S512x128_S100000x1_S100000x128_1_0_0_1
    (broadcastInDim S512x128 ![] bcast_S_S512x128 (constant S_ .f32 0x00000000#32))
    (broadcastInDim S100000x1 ![0] bcast_S100000_S100000x1_0 batch) st

end Kernel

section Reference
open Cert.ReferenceIdeal Cert.ReferenceIdeal.Read

variable (x0 : (⟨S100000x128, .f32⟩ : BufTy).Contents (Elt F)) (x1 : (⟨S2x1600000, .i32⟩ : BufTy).Contents (Elt F))
  (x2 : (⟨S100000, .i32⟩ : BufTy).Contents (Elt F)) (x3 : (⟨S128x128, .f32⟩ : BufTy).Contents (Elt F))
  (x4 : (⟨S128, .f32⟩ : BufTy).Contents (Elt F)) (x5 : (⟨S4x128x128, .f32⟩ : BufTy).Contents (Elt F))
  (x6 : (⟨S4x128, .f32⟩ : BufTy).Contents (Elt F)) (x7 : (⟨S4x128x128, .f32⟩ : BufTy).Contents (Elt F))
  (x8 : (⟨S4x128, .f32⟩ : BufTy).Contents (Elt F))

/-- The reference's gathers are `gatherRows` of its messages at `src = edge_index[0]` … -/
theorem gath0_eq : val_main_v24 (F := F) x0 x1 x3 x4 x5 x6 = gatherRows (val_main_v17 x0 x3 x4 x5 x6) (val_main_v1 x1) := rfl
theorem gath1_eq : val_main_v53 (F := F) x0 x1 x3 x4 x5 x6 x7 x8 = gatherRows (val_main_v46 x0 x1 x3 x4 x5 x6 x7 x8) (val_main_v1 x1) := rfl
theorem gath2_eq : val_main_v82 (F := F) x0 x1 x3 x4 x5 x6 x7 x8 = gatherRows (val_main_v75 x0 x1 x3 x4 x5 x6 x7 x8) (val_main_v1 x1) := rfl
theorem gath3_eq : val_main_v111 (F := F) x0 x1 x3 x4 x5 x6 x7 x8 = gatherRows (val_main_v104 x0 x1 x3 x4 x5 x6 x7 x8) (val_main_v1 x1) := rfl
/-- … its aggregations `segSum` at `dst = edge_index[1]` … -/
theorem agg0_eq : val_main_v27 (F := F) x0 x1 x3 x4 x5 x6 = segSum (val_main_v3 x1) (val_main_v24 x0 x1 x3 x4 x5 x6) := rfl
theorem agg1_eq : val_main_v56 (F := F) x0 x1 x3 x4 x5 x6 x7 x8 = segSum (val_main_v3 x1) (val_main_v53 x0 x1 x3 x4 x5 x6 x7 x8) := rfl
theorem agg2_eq : val_main_v85 (F := F) x0 x1 x3 x4 x5 x6 x7 x8 = segSum (val_main_v3 x1) (val_main_v82 x0 x1 x3 x4 x5 x6 x7 x8) := rfl
theorem agg3_eq : val_main_v114 (F := F) x0 x1 x3 x4 x5 x6 x7 x8 = segSum (val_main_v3 x1) (val_main_v111 x0 x1 x3 x4 x5 x6 x7 x8) := rfl
/-- … and its pooling `poolSum` at `batch`. -/
theorem pool_eq : val_main_v127 (F := F) x0 x1 x2 x3 x4 x5 x6 x7 x8 = poolSum x2 (val_main_v124 x0 x1 x3 x4 x5 x6 x7 x8) := rfl

end Reference

end Cert.Layers

end
-- ==== Proof.KHost.lean ====
import proofs.«403677_j16363825398111_1_alg».proof.Proof.Gen.KernelIdeal.Launch
import proofs.«403677_j16363825398111_1_alg».proof.Proof.Layers
import Idealize.ShloMosaic.Lib.StableHlo.Run

/-!
  Each host stretch of the kernel's program, read at the buffers later segments use: the stretch's result there as a
  function of the buffers it reads, whatever the contents `Wp` it starts from. The slices of the stacked weights are
  the reference's own stages (the same slice and reshape of the same argument); the gather, the two segment sums and
  the masked take are the shared layers.

  The masked take is a called function's body: each of its operations is stated at the type of the tensor value and
  moved to its buffer's type and back, and the buffer's type IS the value's type, so each such pair is the identity
  (`ofBuf_toBuf`); at the stretch's own operands and result the single carry is the identity by computation. What is
  left is the layer's definition, operation for operation.
-/

noncomputable section

namespace Cert.KernelIdeal.HostRead

open Cert.KernelIdeal Cert.KernelIdeal.Gen Idealize.ShloMosaic Idealize.ShloMosaic.TcCoe Idealize.SL.Sem Idealize.ShloMosaic.StableHlo

variable {F : FTy → Type} [FloatOps F] (Wp : Valuation τ sig (Elt F))

/-- A value carried to a typed reference's buffer type and back is the value: both carries are along the one equation
    between the two types. The called function's operations leave such a pair around every intermediate result. -/
theorem ofBuf_toBuf {T : BufTy} (r : Ref sig .tc) (h1 h1' : r.ty = T) (h2 h2' : r.space ≠ .host) (h3 h3' : r.isScoped = false)
    (v : T.Contents (Elt F)) :
    (TRef.of r h1 h2 h3).ofBuf ((TRef.of r h1' h2' h3').toBuf v) = v := by
  subst h1; rfl

theorem src : StableHlo.after hostOps0 Wp (Proc.devRef .tc main_v1) = Cert.ReferenceIdeal.Read.val_main_v1 (F := F) (Wp (Proc.devRef .tc main_arg1)) := by
  after_results
  rfl

theorem dst : StableHlo.after hostOps0 Wp (Proc.devRef .tc main_v3) = Cert.ReferenceIdeal.Read.val_main_v3 (F := F) (Wp (Proc.devRef .tc main_arg1)) := by
  after_results
  rfl

theorem msgW0 : StableHlo.after hostOps1 Wp (Proc.devRef .tc main_v6) = Cert.ReferenceIdeal.Read.val_main_v10 (F := F) (Wp (Proc.devRef .tc main_arg5)) := by
  after_results
  rfl

theorem msgB0 : StableHlo.after hostOps1 Wp (Proc.devRef .tc main_v8) = Cert.ReferenceIdeal.Read.val_main_v13 (F := F) (Wp (Proc.devRef .tc main_arg6)) := by
  after_results
  rfl

set_option maxRecDepth 8192 in
set_option maxHeartbeats 4000000 in
theorem take0 : StableHlo.after hostOps2 Wp (Proc.devRef .tc main_v10) = Cert.Layers.takeMasked (F := F) (Wp (Proc.devRef .tc main_v9)) (Wp (Proc.devRef .tc main_v1)) := by
  have eSrc : ∀ h1 h2 h3, (TRef.of (T := ⟨S1600000, .i32⟩) main_v1 h1 h2 h3).ofBuf (Wp (Proc.devRef .tc main_v1)) = Wp (Proc.devRef .tc main_v1) :=
    fun _ _ _ => rfl
  have eMsg : ∀ h1 h2 h3, (TRef.of (T := ⟨S100000x128, .f32⟩) main_v9 h1 h2 h3).ofBuf (Wp (Proc.devRef .tc main_v9)) = Wp (Proc.devRef .tc main_v9) :=
    fun _ _ _ => rfl
  have eOut : ∀ h1 h2 h3 (v : (⟨S1600000x128, .f32⟩ : BufTy).Contents (Elt F)), (TRef.of (T := ⟨S1600000x128, .f32⟩) main_v10 h1 h2 h3).toBuf v = v :=
    fun _ _ _ _ => rfl
  after_results_simp
  simp only [ofBuf_toBuf, eSrc, eMsg, eOut]
  unfold Cert.Layers.takeMasked Cert.Layers.inRange Cert.Layers.gatherRows Cert.Layers.rowIdx
  rfl

theorem agg0 : StableHlo.after hostOps2_1 Wp (Proc.devRef .tc main_v13) = Cert.Layers.segSum (F := F) (Wp (Proc.devRef .tc main_v3)) (Wp (Proc.devRef .tc main_v10)) := by
  after_results
  rfl

theorem updW0 : StableHlo.after hostOps2_1 Wp (Proc.devRef .tc main_v15) = Cert.ReferenceIdeal.Read.val_main_v29 (F := F) (Wp (Proc.devRef .tc main_arg7)) := by
  after_results
  rfl

theorem updB0 : StableHlo.after hostOps2_1 Wp (Proc.devRef .tc main_v17) = Cert.ReferenceIdeal.Read.val_main_v32 (F := F) (Wp (Proc.devRef .tc main_arg8)) := by
  after_results
  rfl

theorem msgW1 : StableHlo.after hostOps3 Wp (Proc.devRef .tc main_v20) = Cert.ReferenceIdeal.Read.val_main_v39 (F := F) (Wp (Proc.devRef .tc main_arg5)) := by
  after_results
  rfl

theorem msgB1 : StableHlo.after hostOps3 Wp (Proc.devRef .tc main_v22) = Cert.ReferenceIdeal.Read.val_main_v42 (F := F) (Wp (Proc.devRef .tc main_arg6)) := by
  after_results
  rfl

set_option maxRecDepth 8192 in
set_option maxHeartbeats 4000000 in
theorem take1 : StableHlo.after hostOps4 Wp (Proc.devRef .tc main_v24) = Cert.Layers.takeMasked (F := F) (Wp (Proc.devRef .tc main_v23)) (Wp (Proc.devRef .tc main_v1)) := by
  have eSrc : ∀ h1 h2 h3, (TRef.of (T := ⟨S1600000, .i32⟩) main_v1 h1 h2 h3).ofBuf (Wp (Proc.devRef .tc main_v1)) = Wp (Proc.devRef .tc main_v1) :=
    fun _ _ _ => rfl
  have eMsg : ∀ h1 h2 h3, (TRef.of (T := ⟨S100000x128, .f32⟩) main_v23 h1 h2 h3).ofBuf (Wp (Proc.devRef .tc main_v23)) = Wp (Proc.devRef .tc main_v23) :=
    fun _ _ _ => rfl
  have eOut : ∀ h1 h2 h3 (v : (⟨S1600000x128, .f32⟩ : BufTy).Contents (Elt F)), (TRef.of (T := ⟨S1600000x128, .f32⟩) main_v24 h1 h2 h3).toBuf v = v :=
    fun _ _ _ _ => rfl
  after_results_simp
  simp only [ofBuf_toBuf, eSrc, eMsg, eOut]
  unfold Cert.Layers.takeMasked Cert.Layers.inRange Cert.Layers.gatherRows Cert.Layers.rowIdx
  rfl

theorem agg1 : StableHlo.after hostOps4_1 Wp (Proc.devRef .tc main_v27) = Cert.Layers.segSum (F := F) (Wp (Proc.devRef .tc main_v3)) (Wp (Proc.devRef .tc main_v24)) := by
  after_results
  rfl

theorem updW1 : StableHlo.after hostOps4_1 Wp (Proc.devRef .tc main_v29) = Cert.ReferenceIdeal.Read.val_main_v58 (F := F) (Wp (Proc.devRef .tc main_arg7)) := by
  after_results
  rfl

theorem updB1 : StableHlo.after hostOps4_1 Wp (Proc.devRef .tc main_v31) = Cert.ReferenceIdeal.Read.val_main_v61 (F := F) (Wp (Proc.devRef .tc main_arg8)) := by
  after_results
  rfl

theorem msgW2 : StableHlo.after hostOps5 Wp (Proc.devRef .tc main_v34) = Cert.ReferenceIdeal.Read.val_main_v68 (F := F) (Wp (Proc.devRef .tc main_arg5)) := by
  after_results
  rfl

theorem msgB2 : StableHlo.after hostOps5 Wp (Proc.devRef .tc main_v36) = Cert.ReferenceIdeal.Read.val_main_v71 (F := F) (Wp (Proc.devRef .tc main_arg6)) := by
  after_results
  rfl

set_option maxRecDepth 8192 in
set_option maxHeartbeats 4000000 in
theorem take2 : StableHlo.after hostOps6 Wp (Proc.devRef .tc main_v38) = Cert.Layers.takeMasked (F := F) (Wp (Proc.devRef .tc main_v37)) (Wp (Proc.devRef .tc main_v1)) := by
  have eSrc : ∀ h1 h2 h3, (TRef.of (T := ⟨S1600000, .i32⟩) main_v1 h1 h2 h3).ofBuf (Wp (Proc.devRef .tc main_v1)) = Wp (Proc.devRef .tc main_v1) :=
    fun _ _ _ => rfl
  have eMsg : ∀ h1 h2 h3, (TRef.of (T := ⟨S100000x128, .f32⟩) main_v37 h1 h2 h3).ofBuf (Wp (Proc.devRef .tc main_v37)) = Wp (Proc.devRef .tc main_v37) :=
    fun _ _ _ => rfl
  have eOut : ∀ h1 h2 h3 (v : (⟨S1600000x128, .f32⟩ : BufTy).Contents (Elt F)), (TRef.of (T := ⟨S1600000x128, .f32⟩) main_v38 h1 h2 h3).toBuf v = v :=
    fun _ _ _ _ => rfl
  after_results_simp
  simp only [ofBuf_toBuf, eSrc, eMsg, eOut]
  unfold Cert.Layers.takeMasked Cert.Layers.inRange Cert.Layers.gatherRows Cert.Layers.rowIdx
  rfl

theorem agg2 : StableHlo.after hostOps6_1 Wp (Proc.devRef .tc main_v41) = Cert.Layers.segSum (F := F) (Wp (Proc.devRef .tc main_v3)) (Wp (Proc.devRef .tc main_v38)) := by
  after_results
  rfl

theorem updW2 : StableHlo.after hostOps6_1 Wp (Proc.devRef .tc main_v43) = Cert.ReferenceIdeal.Read.val_main_v87 (F := F) (Wp (Proc.devRef .tc main_arg7)) := by
  after_results
  rfl

theorem updB2 : StableHlo.after hostOps6_1 Wp (Proc.devRef .tc main_v45) = Cert.ReferenceIdeal.Read.val_main_v90 (F := F) (Wp (Proc.devRef .tc main_arg8)) := by
  after_results
  rfl

theorem msgW3 : StableHlo.after hostOps7 Wp (Proc.devRef .tc main_v48) = Cert.ReferenceIdeal.Read.val_main_v97 (F := F) (Wp (Proc.devRef .tc main_arg5)) := by
  after_results
  rfl

theorem msgB3 : StableHlo.after hostOps7 Wp (Proc.devRef .tc main_v50) = Cert.ReferenceIdeal.Read.val_main_v100 (F := F) (Wp (Proc.devRef .tc main_arg6)) := by
  after_results
  rfl

set_option maxRecDepth 8192 in
set_option maxHeartbeats 4000000 in
theorem take3 : StableHlo.after hostOps8 Wp (Proc.devRef .tc main_v52) = Cert.Layers.takeMasked (F := F) (Wp (Proc.devRef .tc main_v51)) (Wp (Proc.devRef .tc main_v1)) := by
  have eSrc : ∀ h1 h2 h3, (TRef.of (T := ⟨S1600000, .i32⟩) main_v1 h1 h2 h3).ofBuf (Wp (Proc.devRef .tc main_v1)) = Wp (Proc.devRef .tc main_v1) :=
    fun _ _ _ => rfl
  have eMsg : ∀ h1 h2 h3, (TRef.of (T := ⟨S100000x128, .f32⟩) main_v51 h1 h2 h3).ofBuf (Wp (Proc.devRef .tc main_v51)) = Wp (Proc.devRef .tc main_v51) :=
    fun _ _ _ => rfl
  have eOut : ∀ h1 h2 h3 (v : (⟨S1600000x128, .f32⟩ : BufTy).Contents (Elt F)), (TRef.of (T := ⟨S1600000x128, .f32⟩) main_v52 h1 h2 h3).toBuf v = v :=
    fun _ _ _ _ => rfl
  after_results_simp
  simp only [ofBuf_toBuf, eSrc, eMsg, eOut]
  unfold Cert.Layers.takeMasked Cert.Layers.inRange Cert.Layers.gatherRows Cert.Layers.rowIdx
  rfl

theorem agg3 : StableHlo.after hostOps8_1 Wp (Proc.devRef .tc main_v55) = Cert.Layers.segSum (F := F) (Wp (Proc.devRef .tc main_v3)) (Wp (Proc.devRef .tc main_v52)) := by
  after_results
  rfl

theorem updW3 : StableHlo.after hostOps8_1 Wp (Proc.devRef .tc main_v57) = Cert.ReferenceIdeal.Read.val_main_v116 (F := F) (Wp (Proc.devRef .tc main_arg7)) := by
  after_results
  rfl

theorem updB3 : StableHlo.after hostOps8_1 Wp (Proc.devRef .tc main_v59) = Cert.ReferenceIdeal.Read.val_main_v119 (F := F) (Wp (Proc.devRef .tc main_arg8)) := by
  after_results
  rfl

theorem pool : StableHlo.after hostOps9 Wp (Proc.devRef .tc main_v63) = Cert.Layers.poolSum (F := F) (Wp (Proc.devRef .tc main_arg2)) (Wp (Proc.devRef .tc main_v60)) := by
  after_results
  rfl

end Cert.KernelIdeal.HostRead

end
-- ==== Proof.RefStage.lean ====
import proofs.«403677_j16363825398111_1_alg».proof.Proof.Gen.ReferenceIdeal.Read

/-!
  The reference program's stages, regrouped by layer.

  The reference computes, on the node table `s₀ = relu (x · W_emb + b_emb)`, four rounds
  `msg = relu (s · W_msg[r] + b_msg[r])`, `agg = segment_sum (msg[src], dst)`,
  `s ← s + relu (agg · W_upd[r] + b_upd[r])`, and at the end `segment_sum (s, batch) · W_out + b_out`.
  Every `relu (X · W + b)` on the node table is ONE function of `(X, W, b)` — the generated stage `val_main_v8`, read at
  arbitrary operands — and the closing affine map on the pooled table is `outLin`. The equations below say that each later
  stage of the reference is that function of the earlier stages: they hold by unfolding the stages' definitions.
-/

noncomputable section

namespace Cert.RefStage

open Cert.ReferenceIdeal Cert.ReferenceIdeal.Gen Cert.ReferenceIdeal.Read Idealize.ShloMosaic Idealize.ShloMosaic.TcCoe

variable {F : FTy → Type} [FloatOps F]

/-- The closing affine map `gs · W + b` on the pooled table `gs : [512, 128]`, `W : [128, 32]`, `b : [32]`. -/
def outLin (gs : (⟨S512x128, .f32⟩ : BufTy).Contents (Elt F)) (w : (⟨S128x32, .f32⟩ : BufTy).Contents (Elt F))
    (b : (⟨S32, .f32⟩ : BufTy).Contents (Elt F)) : (⟨S512x32, .f32⟩ : BufTy).Contents (Elt F) :=
  addf (Host.dotGeneral dot_S512x128_S128x32_S512x32_1_0_0_1_n_n none gs w) (val_main_v130 (F := F) b)

/-- `outLin` at an entry `(g, j)`: the row `g` of `gs` against the column `j` of `W`, plus `b j`. -/
theorem outLin_apply (gs : (⟨S512x128, .f32⟩ : BufTy).Contents (Elt Ideal)) (w : (⟨S128x32, .f32⟩ : BufTy).Contents (Elt Ideal))
    (b : (⟨S32, .f32⟩ : BufTy).Contents (Elt Ideal)) (i : S512x32.Idx) :
    outLin (F := Ideal) gs w b i
      = (∑ k : Fin 128, gs (lidx_main_v128 i k) * w (ridx_main_v128 i k)) + b (idx_main_v129 (idx_main_v130 i)) := by
  unfold outLin
  show FloatOps.addf (F := Ideal) (Host.dotGeneral dot_S512x128_S128x32_S512x32_1_0_0_1_n_n none gs w i) (val_main_v130 (F := Ideal) b i) = _
  rw [val_main_v130_apply, val_main_v129_apply]
  refine congrArg (· + b (idx_main_v129 (idx_main_v130 i))) ?_
  simp only [Host.dotGeneral]
  rw [Ideal.dotGeneral_apply, ← Equiv.sum_comp (ValueIdx.contrEquiv1 dot_S512x128_S128x32_S512x32_1_0_0_1_n_n 128 rfl rfl).symm]
  refine Finset.sum_congr rfl fun k _ => ?_
  have hk := ValueIdx.contrEquiv1_symm_val dot_S512x128_S128x32_S512x32_1_0_0_1_n_n 128 rfl rfl k
  have el : dot_S512x128_S128x32_S512x32_1_0_0_1_n_n.lhsIdx i ((ValueIdx.contrEquiv1 dot_S512x128_S128x32_S512x32_1_0_0_1_n_n 128 rfl rfl).symm k) = lidx_main_v128 i k := funext fun a => Fin.ext (by
    match a with
    | ⟨0, _⟩ => exact lhs_main_v128_0 _ _
    | ⟨1, _⟩ => exact (lhs_main_v128_1 _ _).trans hk)
  have er : dot_S512x128_S128x32_S512x32_1_0_0_1_n_n.rhsIdx i ((ValueIdx.contrEquiv1 dot_S512x128_S128x32_S512x32_1_0_0_1_n_n 128 rfl rfl).symm k) = ridx_main_v128 i k := funext fun a => Fin.ext (by
    match a with
    | ⟨0, _⟩ => exact (rhs_main_v128_0 _ _).trans hk
    | ⟨1, _⟩ => exact rhs_main_v128_1 _ _)
  rw [el, er]

/-- `relu (X · W + b)` on the node table at an entry `(n, j)`: `max (∑ₖ X n k · W k j + b j) 0`. -/
theorem linRelu_apply (x : (⟨S100000x128, .f32⟩ : BufTy).Contents (Elt Ideal)) (w : (⟨S128x128, .f32⟩ : BufTy).Contents (Elt Ideal))
    (b : (⟨S128, .f32⟩ : BufTy).Contents (Elt Ideal)) (i : S100000x128.Idx) :
    val_main_v8 (F := Ideal) x w b i
      = FloatOps.maximumf (F := Ideal) ((∑ k : Fin 128, x (lidx_main_v4 i k) * w (ridx_main_v4 i k)) + b (idx_main_v5 (idx_main_v6 i)))
          (FloatOps.ofBits (F := Ideal) .f32 0x00000000#32) := by
  rw [val_main_v8_apply, val_main_v7_apply, val_main_v4_apply, val_main_v6_apply, val_main_v5_apply, val_main_call0_v0_apply,
    val_main_call0_cst_apply]
  rfl

section Structure

variable (x0 : (⟨S100000x128, .f32⟩ : BufTy).Contents (Elt F)) (x1 : (⟨S2x1600000, .i32⟩ : BufTy).Contents (Elt F))
  (x2 : (⟨S100000, .i32⟩ : BufTy).Contents (Elt F)) (x3 : (⟨S128x128, .f32⟩ : BufTy).Contents (Elt F))
  (x4 : (⟨S128, .f32⟩ : BufTy).Contents (Elt F)) (x5 : (⟨S4x128x128, .f32⟩ : BufTy).Contents (Elt F))
  (x6 : (⟨S4x128, .f32⟩ : BufTy).Contents (Elt F)) (x7 : (⟨S4x128x128, .f32⟩ : BufTy).Contents (Elt F))
  (x8 : (⟨S4x128, .f32⟩ : BufTy).Contents (Elt F)) (x9 : (⟨S128x32, .f32⟩ : BufTy).Contents (Elt F))
  (x10 : (⟨S32, .f32⟩ : BufTy).Contents (Elt F))

/-- Round 0's messages are the layer on the embedded nodes. -/
theorem msg0_eq : val_main_v17 (F := F) x0 x3 x4 x5 x6 = val_main_v8 (val_main_v8 x0 x3 x4) (val_main_v10 x5) (val_main_v13 x6) := rfl
/-- Round 0's update: the nodes plus the layer on the aggregated messages. -/
theorem st1_eq : val_main_v37 (F := F) x0 x1 x3 x4 x5 x6 x7 x8
    = addf (val_main_v8 x0 x3 x4) (val_main_v8 (val_main_v27 x0 x1 x3 x4 x5 x6) (val_main_v29 x7) (val_main_v32 x8)) := rfl
theorem msg1_eq : val_main_v46 (F := F) x0 x1 x3 x4 x5 x6 x7 x8
    = val_main_v8 (val_main_v37 x0 x1 x3 x4 x5 x6 x7 x8) (val_main_v39 x5) (val_main_v42 x6) := rfl
theorem st2_eq : val_main_v66 (F := F) x0 x1 x3 x4 x5 x6 x7 x8
    = addf (val_main_v37 x0 x1 x3 x4 x5 x6 x7 x8) (val_main_v8 (val_main_v56 x0 x1 x3 x4 x5 x6 x7 x8) (val_main_v58 x7) (val_main_v61 x8)) := rfl
theorem msg2_eq : val_main_v75 (F := F) x0 x1 x3 x4 x5 x6 x7 x8
    = val_main_v8 (val_main_v66 x0 x1 x3 x4 x5 x6 x7 x8) (val_main_v68 x5) (val_main_v71 x6) := rfl
theorem st3_eq : val_main_v95 (F := F) x0 x1 x3 x4 x5 x6 x7 x8
    = addf (val_main_v66 x0 x1 x3 x4 x5 x6 x7 x8) (val_main_v8 (val_main_v85 x0 x1 x3 x4 x5 x6 x7 x8) (val_main_v87 x7) (val_main_v90 x8)) := rfl
theorem msg3_eq : val_main_v104 (F := F) x0 x1 x3 x4 x5 x6 x7 x8
    = val_main_v8 (val_main_v95 x0 x1 x3 x4 x5 x6 x7 x8) (val_main_v97 x5) (val_main_v100 x6) := rfl
theorem st4_eq : val_main_v124 (F := F) x0 x1 x3 x4 x5 x6 x7 x8
    = addf (val_main_v95 x0 x1 x3 x4 x5 x6 x7 x8) (val_main_v8 (val_main_v114 x0 x1 x3 x4 x5 x6 x7 x8) (val_main_v116 x7) (val_main_v119 x8)) := rfl
/-- The result is the closing affine map on the pooled nodes. -/
theorem out_eq : val_main_v131 (F := F) x0 x1 x2 x3 x4 x5 x6 x7 x8 x9 x10
    = outLin (val_main_v127 x0 x1 x2 x3 x4 x5 x6 x7 x8) x9 x10 := rfl

end Structure

end Cert.RefStage

end
-- ==== Proof.BlockLayer.lean ====
import proofs.«403677_j16363825398111_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

/-!
  What each kernel body stores, entry by entry, over the extended reals.

  Every node-table kernel stores, at row `p` and column `q` of its block, `max (∑ₖ x p k · w k q + b q) 0`
  (the residual kernels add the residual block's entry); the closing kernel stores `∑ₖ gs p k · w k q + b q`.
  Rounding the operands to bf16 before the product is the identity on the extended reals, and so is a shape cast
  between equal shapes.
-/

noncomputable section

namespace Cert.KernelIdeal.BlockLayer

open Cert.KernelIdeal Cert.KernelIdeal.Gen Idealize.ShloMosaic Idealize.ShloMosaic.TcCoe Idealize.ShloMosaic.ValueIdx

/-- `max (∑ₖ x p k · w k q + b q) 0`: the Linear + ReLU layer at one entry of a block of 5000 rows. -/
def linReluAt (x : Vec Ideal S5000x128 .f32) (w : Vec Ideal S128x128 .f32) (b : Vec Ideal S128 .f32) (p : Fin 5000) (q : Fin 128) : Ideal .f32 :=
  FloatOps.maximumf (F := Ideal) ((∑ k : Fin 128, x (ix2 p k) * w (ix2 k q)) + b (ix1 q)) (FloatOps.ofBits (F := Ideal) .f32 0x00000000#32)

/-- `∑ₖ gs p k · w k q + b q`: the closing affine layer at one entry. -/
def linAt (gs : Vec Ideal S512x128 .f32) (w : Vec Ideal S128x32 .f32) (b : Vec Ideal S32 .f32) (p : Fin 512) (q : Fin 32) : Ideal .f32 :=
  (∑ k : Fin 128, gs (ix2 p k) * w (ix2 k q)) + b (ix1 q)

/-! ### The operand indices of the [5000,128] × [128,128] product: at output entry `i` and contraction index `c` the left operand is read
    at (i 0, c) and the right operand at (c, i 1). -/

/-- The left operand's row is the output's row. -/
theorem lhs_a_0 (i : S5000x128.Idx) (c : dot_S5000x128_S128x128_S5000x128_1_0_0_1_n_n.contr.Idx) :
    (dot_S5000x128_S128x128_S5000x128_1_0_0_1_n_n.lhsIdx i c 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's column is the contraction index. -/
theorem lhs_a_1 (i : S5000x128.Idx) (c : dot_S5000x128_S128x128_S5000x128_1_0_0_1_n_n.contr.Idx) :
    (dot_S5000x128_S128x128_S5000x128_1_0_0_1_n_n.lhsIdx i c 1).val = (c ⟨0, by decide⟩).val :=
  dot_S5000x128_S128x128_S5000x128_1_0_0_1_n_n.lhsIdx_val_of_single rfl i c
/-- The right operand's row is the contraction index. -/
theorem rhs_a_0 (i : S5000x128.Idx) (c : dot_S5000x128_S128x128_S5000x128_1_0_0_1_n_n.contr.Idx) :
    (dot_S5000x128_S128x128_S5000x128_1_0_0_1_n_n.rhsIdx i c 0).val = (c ⟨0, by decide⟩).val :=
  dot_S5000x128_S128x128_S5000x128_1_0_0_1_n_n.rhsIdx_val_of_single rfl i c
/-- The right operand's column is the output's column. -/
theorem rhs_a_1 (i : S5000x128.Idx) (c : dot_S5000x128_S128x128_S5000x128_1_0_0_1_n_n.contr.Idx) :
    (dot_S5000x128_S128x128_S5000x128_1_0_0_1_n_n.rhsIdx i c 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product accumulated onto zero, at entry (p, q): `∑ₖ x' p k · w' k q` over the 128 contraction indices. -/
theorem matmul_a_at (x' : FVec Ideal S5000x128 .bf16) (w' : FVec Ideal S128x128 .bf16) (p : Fin 5000) (q : Fin 128) :
    matmul dot_S5000x128_S128x128_S5000x128_1_0_0_1_n_n none x' w' (constant (F := Ideal) S5000x128 .f32 0x00000000#32) (ix2 p q) = ∑ k : Fin 128, x' (ix2 p k) * w' (ix2 k q) := by
  refine (Ideal.matmul_constant_zero_apply dot_S5000x128_S128x128_S5000x128_1_0_0_1_n_n none x' w' (ix2 p q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_a_0 _ _
    | ⟨1, _⟩ => exact (lhs_a_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_a_0 _ _).trans hk
    | ⟨1, _⟩ => exact rhs_a_1 _ _)
  rw [el, er]

/-! ### The operand indices of the [512,128] × [128,32] product: at output entry `i` and contraction index `c` the left operand is read
    at (i 0, c) and the right operand at (c, i 1). -/

/-- The left operand's row is the output's row. -/
theorem lhs_b_0 (i : S512x32.Idx) (c : dot_S512x128_S128x32_S512x32_1_0_0_1_n_n.contr.Idx) :
    (dot_S512x128_S128x32_S512x32_1_0_0_1_n_n.lhsIdx i c 0).val = (i 0).val := by
  unfold DotDims.lhsIdx
  rw [dif_neg (show ¬(0 : Fin S512x128.rank) ∈ dot_S512x128_S128x32_S512x32_1_0_0_1_n_n.lhsBatch by decide), dif_pos (show (0 : Fin S512x128.rank) ∈ dot_S512x128_S128x32_S512x32_1_0_0_1_n_n.lhsNonContracting by decide)]
  rfl
/-- The left operand's column is the contraction index. -/
theorem lhs_b_1 (i : S512x32.Idx) (c : dot_S512x128_S128x32_S512x32_1_0_0_1_n_n.contr.Idx) :
    (dot_S512x128_S128x32_S512x32_1_0_0_1_n_n.lhsIdx i c 1).val = (c ⟨0, by decide⟩).val :=
  dot_S512x128_S128x32_S512x32_1_0_0_1_n_n.lhsIdx_val_of_single rfl i c
/-- The right operand's row is the contraction index. -/
theorem rhs_b_0 (i : S512x32.Idx) (c : dot_S512x128_S128x32_S512x32_1_0_0_1_n_n.contr.Idx) :
    (dot_S512x128_S128x32_S512x32_1_0_0_1_n_n.rhsIdx i c 0).val = (c ⟨0, by decide⟩).val :=
  dot_S512x128_S128x32_S512x32_1_0_0_1_n_n.rhsIdx_val_of_single rfl i c
/-- The right operand's column is the output's column. -/
theorem rhs_b_1 (i : S512x32.Idx) (c : dot_S512x128_S128x32_S512x32_1_0_0_1_n_n.contr.Idx) :
    (dot_S512x128_S128x32_S512x32_1_0_0_1_n_n.rhsIdx i c 1).val = (i 1).val := by
  unfold DotDims.rhsIdx
  rw [dif_neg (show ¬(1 : Fin S128x32.rank) ∈ dot_S512x128_S128x32_S512x32_1_0_0_1_n_n.rhsBatch by decide), dif_pos (show (1 : Fin S128x32.rank) ∈ dot_S512x128_S128x32_S512x32_1_0_0_1_n_n.rhsNonContracting by decide)]
  rfl

/-- The product accumulated onto zero, at entry (p, q): `∑ₖ x' p k · w' k q` over the 128 contraction indices. -/
theorem matmul_b_at (x' : FVec Ideal S512x128 .bf16) (w' : FVec Ideal S128x32 .bf16) (p : Fin 512) (q : Fin 32) :
    matmul dot_S512x128_S128x32_S512x32_1_0_0_1_n_n none x' w' (constant (F := Ideal) S512x32 .f32 0x00000000#32) (ix2 p q) = ∑ k : Fin 128, x' (ix2 p k) * w' (ix2 k q) := by
  refine (Ideal.matmul_constant_zero_apply dot_S512x128_S128x32_S512x32_1_0_0_1_n_n none x' w' (ix2 p q)).trans ?_
  rw [← Equiv.sum_comp (ValueIdx.contrEquiv1 dot_S512x128_S128x32_S512x32_1_0_0_1_n_n 128 rfl rfl).symm]
  refine Finset.sum_congr rfl fun k _ => ?_
  have hk := ValueIdx.contrEquiv1_symm_val dot_S512x128_S128x32_S512x32_1_0_0_1_n_n 128 rfl rfl k
  have el : dot_S512x128_S128x32_S512x32_1_0_0_1_n_n.lhsIdx (ix2 p q) ((ValueIdx.contrEquiv1 dot_S512x128_S128x32_S512x32_1_0_0_1_n_n 128 rfl rfl).symm k) = ix2 p k := funext fun a => Fin.ext (by
    match a with
    | ⟨0, _⟩ => exact lhs_b_0 _ _
    | ⟨1, _⟩ => exact (lhs_b_1 _ _).trans hk)
  have er : dot_S512x128_S128x32_S512x32_1_0_0_1_n_n.rhsIdx (ix2 p q) ((ValueIdx.contrEquiv1 dot_S512x128_S128x32_S512x32_1_0_0_1_n_n 128 rfl rfl).symm k) = ix2 k q := funext fun a => Fin.ext (by
    match a with
    | ⟨0, _⟩ => exact (rhs_b_0 _ _).trans hk
    | ⟨1, _⟩ => exact rhs_b_1 _ _)
  rw [el, er]

/-- A vector of `n` entries viewed as one row and laid along each of `m` rows reads, at (p, q), its entry `q`. -/
theorem bias_row_apply {α : Type} {m n : Nat} (b : (⟨1, ![n]⟩ : Shape).Idx → α)
    (h1 : (⟨1, ![n]⟩ : Shape).ShapeCasts ⟨2, ![1, n]⟩) (hb : (⟨2, ![1, n]⟩ : Shape).Broadcasts ⟨2, ![m, n]⟩) (p : Fin m) (q : Fin n) :
    broadcastTo ⟨2, ![m, n]⟩ (shapeCast ⟨2, ![1, n]⟩ b h1) hb (ix2 p q) = b (ix1 q) := by
  refine (broadcastTo_apply (shapeCast ⟨2, ![1, n]⟩ b h1) hb (ix2 p q) (ix2 (0 : Fin 1) q) ?_).trans ?_
  · intro a
    match a with
    | ⟨0, _⟩ => rfl
    | ⟨1, _⟩ =>
      show q.val = if n = 1 then 0 else q.val
      split
      · have := q.isLt; omega
      · rfl
  · refine shapeCast_apply b h1 (ix2 (0 : Fin 1) q) (ix1 q) ?_
    rw [Shape.rowMajor_val_two, Shape.rowMajor_val_one]
    show q.val = 0 * n + q.val
    omega

section LinRelu
variable (x : Vec Ideal S5000x128 .f32) (w : Vec Ideal S128x128 .f32) (b : Vec Ideal S128 .f32) (p : Fin 5000) (q : Fin 128)

theorem pay0_apply : k0_pay1 (F := Ideal) x w b (ix2 p q) = linReluAt x w b p q := by
  exact congrArg₂ (fun m c : Ideal .f32 => FloatOps.maximumf (F := Ideal) (m + c) (FloatOps.ofBits (F := Ideal) .f32 0x00000000#32))
    (matmul_a_at (truncf .bf16 x bitsLt_bf16_f32) (truncf .bf16 w bitsLt_bf16_f32) p q)
    (bias_row_apply (m := 5000) b shapeCasts_S128_S1x128 broadcasts_S1x128_S5000x128 p q)
theorem pay1_apply : k1_pay1 (F := Ideal) x w b (ix2 p q) = linReluAt x w b p q := by
  unfold k1_pay1
  rw [shapeCast_self x, shapeCast_self w, shapeCast_self b]
  exact pay0_apply x w b p q
theorem pay3_apply : k3_pay1 (F := Ideal) x w b (ix2 p q) = linReluAt x w b p q := by
  unfold k3_pay1
  rw [shapeCast_self x, shapeCast_self w, shapeCast_self b]
  exact pay0_apply x w b p q
theorem pay5_apply : k5_pay1 (F := Ideal) x w b (ix2 p q) = linReluAt x w b p q := by
  unfold k5_pay1
  rw [shapeCast_self x, shapeCast_self w, shapeCast_self b]
  exact pay0_apply x w b p q
theorem pay7_apply : k7_pay1 (F := Ideal) x w b (ix2 p q) = linReluAt x w b p q := by
  unfold k7_pay1
  rw [shapeCast_self x, shapeCast_self w, shapeCast_self b]
  exact pay0_apply x w b p q

variable (res : Vec Ideal S5000x128 .f32)

theorem pay2_apply : k2_pay1 (F := Ideal) x w b res (ix2 p q) = res (ix2 p q) + linReluAt x w b p q := by
  unfold k2_pay1
  rw [shapeCast_self x, shapeCast_self w, shapeCast_self b, shapeCast_self res]
  exact congrArg (fun t => res (ix2 p q) + t) (pay0_apply x w b p q)
theorem pay4_apply : k4_pay1 (F := Ideal) x w b res (ix2 p q) = res (ix2 p q) + linReluAt x w b p q := by
  unfold k4_pay1
  rw [shapeCast_self x, shapeCast_self w, shapeCast_self b, shapeCast_self res]
  exact congrArg (fun t => res (ix2 p q) + t) (pay0_apply x w b p q)
theorem pay6_apply : k6_pay1 (F := Ideal) x w b res (ix2 p q) = res (ix2 p q) + linReluAt x w b p q := by
  unfold k6_pay1
  rw [shapeCast_self x, shapeCast_self w, shapeCast_self b, shapeCast_self res]
  exact congrArg (fun t => res (ix2 p q) + t) (pay0_apply x w b p q)
theorem pay8_apply : k8_pay1 (F := Ideal) x w b res (ix2 p q) = res (ix2 p q) + linReluAt x w b p q := by
  unfold k8_pay1
  rw [shapeCast_self x, shapeCast_self w, shapeCast_self b, shapeCast_self res]
  exact congrArg (fun t => res (ix2 p q) + t) (pay0_apply x w b p q)
end LinRelu

theorem pay9_apply (gs : Vec Ideal S512x128 .f32) (w : Vec Ideal S128x32 .f32) (b : Vec Ideal S32 .f32) (p : Fin 512) (q : Fin 32) :
    k9_pay1 (F := Ideal) gs w b (ix2 p q) = linAt gs w b p q := by
  unfold k9_pay1
  rw [shapeCast_self gs]
  exact congrArg₂ (fun m c : Ideal .f32 => m + c)
    (matmul_b_at (truncf .bf16 gs bitsLt_bf16_f32) (truncf .bf16 w bitsLt_bf16_f32) p q)
    (bias_row_apply (m := 512) b shapeCasts_S32_S1x32 broadcasts_S1x32_S512x32 p q)

end Cert.KernelIdeal.BlockLayer

end
-- ==== Proof.Region0.lean ====
import proofs.«403677_j16363825398111_1_alg».proof.Proof.Gen.KernelIdeal.Frame
import proofs.«403677_j16363825398111_1_alg».proof.Proof.RefStage
import proofs.«403677_j16363825398111_1_alg».proof.Proof.BlockLayer
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionVal

open Cert.KernelIdeal Cert.KernelIdeal.Gen Idealize.ShloMosaic Idealize.ShloMosaic.TcCoe Idealize.SL.Sem
open Idealize.ShloMosaic.Pipeline (Dat)

namespace R0
open Idealize.ShloMosaic.ValueIdx Cert.KernelIdeal.BlockLayer

/-- The zero offsets of a rank-2 block, as the constant function. -/
theorem hz2 : (![0, 0] : Fin 2 → Nat) = fun _ => 0 := funext fun a => by fin_cases a <;> rfl
/-- The zero offset of a rank-1 block, as the constant function. -/
theorem hz1 : (![0] : Fin 1 → Nat) = fun _ => 0 := funext fun a => by fin_cases a <;> rfl

/-- The index maps over the 20 grid points: the row block of the input and the row block of the output move together
    along axis 0 and sit at block 0 on axis 1; the weight and the bias stay at block 0; the output's row-block index is
    at most 19. -/
theorem idx_facts : ∀ t : Fin cfg0.N,
    win0_0.index t (0 : Fin 2) = win0_3.index t (0 : Fin 2)
    ∧ win0_0.index t (1 : Fin 2) = 0
    ∧ win0_3.index t (1 : Fin 2) = 0
    ∧ win0_1.index t (0 : Fin 2) = 0
    ∧ win0_1.index t (1 : Fin 2) = 0
    ∧ win0_2.index t (0 : Fin 1) = 0
    ∧ win0_3.index t (0 : Fin 2) ≤ 19 :=
  (by decide +kernel : ∀ t : Fin grid0.N, _)

/-- Every one of the 20 row blocks of the output is some grid point's. -/
theorem idx_onto : ∀ r : Fin 20, ∃ t : Fin cfg0.N, win0_3.index t = ![r.val, 0] :=
  (by decide +kernel : ∀ r : Fin 20, ∃ t : Fin grid0.N, win0_3.index t = ![r.val, 0])

/-- One entry: if row `p` of the block `x` is row `i 0` of the table `X`, column `q` of `w` is column `i 1` of `W` and
    `b q` is `B (i 1)`, then `max (∑ₖ x p k · w k q + b q) 0` is the reference's layer `relu (X · W + B)` at `i`. -/
theorem entry_eq (X : (⟨Cert.ReferenceIdeal.S100000x128, .f32⟩ : BufTy).Contents (Elt Ideal))
    (W : (⟨Cert.ReferenceIdeal.S128x128, .f32⟩ : BufTy).Contents (Elt Ideal))
    (B : (⟨Cert.ReferenceIdeal.S128, .f32⟩ : BufTy).Contents (Elt Ideal))
    (x : Vec Ideal S5000x128 .f32) (w : Vec Ideal S128x128 .f32) (b : Vec Ideal S128 .f32)
    (i : Cert.ReferenceIdeal.S100000x128.Idx) (p : Fin 5000) (q : Fin 128)
    (hx : ∀ k : Fin 128, x (ix2 p k) = X (Cert.ReferenceIdeal.Read.lidx_main_v4 i k))
    (hw : ∀ k : Fin 128, w (ix2 k q) = W (Cert.ReferenceIdeal.Read.ridx_main_v4 i k))
    (hb : b (ix1 q) = B (Cert.ReferenceIdeal.Read.idx_main_v5 (Cert.ReferenceIdeal.Read.idx_main_v6 i))) :
    linReluAt x w b p q = Cert.ReferenceIdeal.Read.val_main_v8 (F := Ideal) X W B i := by
  rw [Cert.RefStage.linRelu_apply]
  unfold linReluAt
  rw [hb, Finset.sum_congr rfl (fun k _ => by rw [hx k, hw k])]

variable (V : (c : Dev nD) → (b : Ref sig .tc) → Buf (Elt Ideal) ((c : Thread nD τ).loc b))

/-- What grid point `t` writes back is block `t` of the reference's layer of the three arrays as the region finds them. -/
theorem flushed_eq (c : Dev nD) (t : Fin cfg0.N) :
    (dat0 (F := Ideal) V c).flushed 3 t = ((cfg0.win 3).blk t).view.read (Elt Ideal)
      (Cert.ReferenceIdeal.Read.val_main_v8 (F := Ideal) (V c main_arg0) (V c main_arg3) (V c main_arg4)) := by
  show (cfg0.win 3).cut (grid0.coords t) ((dat0 V c).after 3 t) = _
  rw [after0_3]
  unfold out0_3
  rw [View.canon_unit_zero hz2]
  simp only [View.ld_unit_zero (S := S5000x128) hz2, View.ld_unit_zero (S := S128x128) hz2, View.ld_unit_zero (S := S128) hz1]
  obtain ⟨e0, e1, e2, e3, e4, e5, e6⟩ := idx_facts t
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (iblk0 V c 2 t) (ix2 p q)
    = Cert.ReferenceIdeal.Read.val_main_v8 (F := Ideal) (V c main_arg0) (V c main_arg3) (V c main_arg4)
        (((cfg0.win 3).blk t).view.emb (ix2 p q))
  refine (pay0_apply (iblk0 V c 0 t) (iblk0 V c 1 t) (iblk0 V c 2 t) p q).trans ?_
  refine entry_eq (V c main_arg0) (V c main_arg3) (V c main_arg4) (iblk0 V c 0 t) (iblk0 V c 1 t) (iblk0 V c 2 t)
    (((cfg0.win 3).blk t).view.emb (ix2 p q)) p q (fun k => ?_) (fun k => ?_) ?_
  · show V c main_arg0 (((cfg0.win 0).blk t).view.emb (ix2 p k)) = V c main_arg0 _
    refine congrArg (V c main_arg0) (funext fun a => Fin.ext ?_)
    match a with
    | ⟨0, _⟩ =>
      show win0_0.index t (0 : Fin 2) * 5000 + 1 * p.val = win0_3.index t (0 : Fin 2) * 5000 + 1 * p.val
      omega
    | ⟨1, _⟩ =>
      show win0_0.index t (1 : Fin 2) * 128 + 1 * k.val = k.val
      omega
  · show V c main_arg3 (((cfg0.win 1).blk t).view.emb (ix2 k q)) = V c main_arg3 _
    refine congrArg (V c main_arg3) (funext fun a => Fin.ext ?_)
    match a with
    | ⟨0, _⟩ =>
      show win0_1.index t (0 : Fin 2) * 128 + 1 * k.val = k.val
      omega
    | ⟨1, _⟩ =>
      show win0_1.index t (1 : Fin 2) * 128 + 1 * q.val = win0_3.index t (1 : Fin 2) * 128 + 1 * q.val
      omega
  · show V c main_arg4 (((cfg0.win 2).blk t).view.emb (ix1 q)) = V c main_arg4 _
    refine congrArg (V c main_arg4) (funext fun a => Fin.ext ?_)
    match a with
    | ⟨0, _⟩ =>
      show win0_2.index t (0 : Fin 1) * 128 + 1 * q.val = win0_3.index t (1 : Fin 2) * 128 + 1 * q.val
      omega

/-- An index of the table is in point `t`'s block iff each coordinate is in the block's range on its axis. -/
theorem mem_blk (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v4).slice (win0_3.rect t)).set ↔ _
  rw [View.set_slice_whole, Rect.mem_set_unit]
  exact Iff.rfl

/-- Every index of the table is in some point's block: row `r` is in row block `r / 5000`. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ := idx_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 128 ≤ (i 1).val ∧ (i 1).val < win0_3.index t (1 : Fin 2) * 128 + 128
    omega

end R0

variable (V : (c : Dev nD) → (b : Ref sig .tc) → Buf (Elt Ideal) ((c : Thread nD τ).loc b))

theorem value0 (c : Dev nD) :
    (dat0 (F := Ideal) V c).arrAt 3 cfg0.N
      = Cert.ReferenceIdeal.Read.val_main_v8 (F := Ideal) (V c main_arg0) (V c main_arg3) (V c main_arg4) :=
  (dat0 (F := Ideal) V c).arrAt_eq_of_cover 3 _ (fun t _ => R0.flushed_eq V c t) R0.cover

end Cert.KernelIdeal.RegionVal

end
-- ==== Proof.ChainBase.lean ====
import proofs.«403677_j16363825398111_1_alg».proof.Proof.KKeep
import proofs.«403677_j16363825398111_1_alg».proof.Proof.KHost
import proofs.«403677_j16363825398111_1_alg».proof.Proof.Region0

/-!
  The kernel program's buffers along its run, first part: the buffers no segment after the first host stretch writes —
  the eleven arguments and the two index rows `src = edge_index[0]`, `dst = edge_index[1]` — hold at every later
  boundary what they held after that stretch; and the embedded node table `relu (x · W_emb + b_emb)` after the first
  pallas_call is the reference's first layer of the same arguments.
-/

set_option maxRecDepth 16384

noncomputable section

namespace Cert.KernelIdeal.Chain

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

/-- The buffers that every segment after the first host stretch leaves alone. -/
abbrev kept : List (Ref sig .tc) :=
  [main_arg0, main_arg1, main_arg2, main_arg3, main_arg4, main_arg5, main_arg6, main_arg7, main_arg8, main_arg9, main_arg10, main_v1, main_v3]

/-- Across the first pallas_call: three of them are its input windows' arrays (staged, not written back), the others are
    none of its arrays. -/
theorem pers2 (r : Ref sig .tc) (hr : r ∈ kept) : W2 m ρ c (Proc.devRef .tc r) = W1 m ρ c (Proc.devRef .tc r) := by
  simp only [kept, List.mem_cons, List.not_mem_nil, or_false] at hr
  rcases hr with rfl | rfl | rfl | rfl | rfl | rfl | rfl | rfl | rfl | rfl | rfl | rfl | rfl
  · exact keep2_in m ρ c 0 rfl
  · exact keep2 m ρ c _ (by decide)
  · exact keep2 m ρ c _ (by decide)
  · exact keep2_in m ρ c 1 rfl
  · exact keep2_in m ρ c 2 rfl
  · exact keep2 m ρ c _ (by decide)
  · exact keep2 m ρ c _ (by decide)
  · exact keep2 m ρ c _ (by decide)
  · exact keep2 m ρ c _ (by decide)
  · exact keep2 m ρ c _ (by decide)
  · exact keep2 m ρ c _ (by decide)
  · exact keep2 m ρ c _ (by decide)
  · exact keep2 m ρ c _ (by decide)
theorem pers3 (r : Ref sig .tc) (hr : r ∈ kept) : W3 m ρ c (Proc.devRef .tc r) = W1 m ρ c (Proc.devRef .tc r) :=
  (keep3 m ρ c r ((by decide : ∀ r ∈ kept, r ∉ hostOps1_written) r hr)).trans (pers2 m ρ c r hr)
theorem pers4 (r : Ref sig .tc) (hr : r ∈ kept) : W4 m ρ c (Proc.devRef .tc r) = W1 m ρ c (Proc.devRef .tc r) :=
  (keep4 m ρ c r ((by decide : ∀ r ∈ kept, ∀ w, Pipeline.arrRef spec1 w ≠ r) r hr)).trans (pers3 m ρ c r hr)
theorem pers5 (r : Ref sig .tc) (hr : r ∈ kept) : W5 m ρ c (Proc.devRef .tc r) = W1 m ρ c (Proc.devRef .tc r) :=
  (keep5 m ρ c r ((by decide : ∀ r ∈ kept, r ∉ hostOps2_written) r hr)).trans (pers4 m ρ c r hr)
theorem pers6 (r : Ref sig .tc) (hr : r ∈ kept) : W6 m ρ c (Proc.devRef .tc r) = W1 m ρ c (Proc.devRef .tc r) :=
  (keep6 m ρ c r ((by decide : ∀ r ∈ kept, r ∉ hostOps2_1_written) r hr)).trans (pers5 m ρ c r hr)
theorem pers7 (r : Ref sig .tc) (hr : r ∈ kept) : W7 m ρ c (Proc.devRef .tc r) = W1 m ρ c (Proc.devRef .tc r) :=
  (keep7 m ρ c r ((by decide : ∀ r ∈ kept, ∀ w, Pipeline.arrRef spec2 w ≠ r) r hr)).trans (pers6 m ρ c r hr)
theorem pers8 (r : Ref sig .tc) (hr : r ∈ kept) : W8 m ρ c (Proc.devRef .tc r) = W1 m ρ c (Proc.devRef .tc r) :=
  (keep8 m ρ c r ((by decide : ∀ r ∈ kept, r ∉ hostOps3_written) r hr)).trans (pers7 m ρ c r hr)
theorem pers9 (r : Ref sig .tc) (hr : r ∈ kept) : W9 m ρ c (Proc.devRef .tc r) = W1 m ρ c (Proc.devRef .tc r) :=
  (keep9 m ρ c r ((by decide : ∀ r ∈ kept, ∀ w, Pipeline.arrRef spec3 w ≠ r) r hr)).trans (pers8 m ρ c r hr)
theorem pers10 (r : Ref sig .tc) (hr : r ∈ kept) : W10 m ρ c (Proc.devRef .tc r) = W1 m ρ c (Proc.devRef .tc r) :=
  (keep10 m ρ c r ((by decide : ∀ r ∈ kept, r ∉ hostOps4_written) r hr)).trans (pers9 m ρ c r hr)
theorem pers11 (r : Ref sig .tc) (hr : r ∈ kept) : W11 m ρ c (Proc.devRef .tc r) = W1 m ρ c (Proc.devRef .tc r) :=
  (keep11 m ρ c r ((by decide : ∀ r ∈ kept, r ∉ hostOps4_1_written) r hr)).trans (pers10 m ρ c r hr)
theorem pers12 (r : Ref sig .tc) (hr : r ∈ kept) : W12 m ρ c (Proc.devRef .tc r) = W1 m ρ c (Proc.devRef .tc r) :=
  (keep12 m ρ c r ((by decide : ∀ r ∈ kept, ∀ w, Pipeline.arrRef spec4 w ≠ r) r hr)).trans (pers11 m ρ c r hr)
theorem pers13 (r : Ref sig .tc) (hr : r ∈ kept) : W13 m ρ c (Proc.devRef .tc r) = W1 m ρ c (Proc.devRef .tc r) :=
  (keep13 m ρ c r ((by decide : ∀ r ∈ kept, r ∉ hostOps5_written) r hr)).trans (pers12 m ρ c r hr)
theorem pers14 (r : Ref sig .tc) (hr : r ∈ kept) : W14 m ρ c (Proc.devRef .tc r) = W1 m ρ c (Proc.devRef .tc r) :=
  (keep14 m ρ c r ((by decide : ∀ r ∈ kept, ∀ w, Pipeline.arrRef spec5 w ≠ r) r hr)).trans (pers13 m ρ c r hr)
theorem pers15 (r : Ref sig .tc) (hr : r ∈ kept) : W15 m ρ c (Proc.devRef .tc r) = W1 m ρ c (Proc.devRef .tc r) :=
  (keep15 m ρ c r ((by decide : ∀ r ∈ kept, r ∉ hostOps6_written) r hr)).trans (pers14 m ρ c r hr)
theorem pers16 (r : Ref sig .tc) (hr : r ∈ kept) : W16 m ρ c (Proc.devRef .tc r) = W1 m ρ c (Proc.devRef .tc r) :=
  (keep16 m ρ c r ((by decide : ∀ r ∈ kept, r ∉ hostOps6_1_written) r hr)).trans (pers15 m ρ c r hr)
theorem pers17 (r : Ref sig .tc) (hr : r ∈ kept) : W17 m ρ c (Proc.devRef .tc r) = W1 m ρ c (Proc.devRef .tc r) :=
  (keep17 m ρ c r ((by decide : ∀ r ∈ kept, ∀ w, Pipeline.arrRef spec6 w ≠ r) r hr)).trans (pers16 m ρ c r hr)
theorem pers18 (r : Ref sig .tc) (hr : r ∈ kept) : W18 m ρ c (Proc.devRef .tc r) = W1 m ρ c (Proc.devRef .tc r) :=
  (keep18 m ρ c r ((by decide : ∀ r ∈ kept, r ∉ hostOps7_written) r hr)).trans (pers17 m ρ c r hr)
theorem pers19 (r : Ref sig .tc) (hr : r ∈ kept) : W19 m ρ c (Proc.devRef .tc r) = W1 m ρ c (Proc.devRef .tc r) :=
  (keep19 m ρ c r ((by decide : ∀ r ∈ kept, ∀ w, Pipeline.arrRef spec7 w ≠ r) r hr)).trans (pers18 m ρ c r hr)
theorem pers20 (r : Ref sig .tc) (hr : r ∈ kept) : W20 m ρ c (Proc.devRef .tc r) = W1 m ρ c (Proc.devRef .tc r) :=
  (keep20 m ρ c r ((by decide : ∀ r ∈ kept, r ∉ hostOps8_written) r hr)).trans (pers19 m ρ c r hr)
theorem pers21 (r : Ref sig .tc) (hr : r ∈ kept) : W21 m ρ c (Proc.devRef .tc r) = W1 m ρ c (Proc.devRef .tc r) :=
  (keep21 m ρ c r ((by decide : ∀ r ∈ kept, r ∉ hostOps8_1_written) r hr)).trans (pers20 m ρ c r hr)
theorem pers22 (r : Ref sig .tc) (hr : r ∈ kept) : W22 m ρ c (Proc.devRef .tc r) = W1 m ρ c (Proc.devRef .tc r) :=
  (keep22 m ρ c r ((by decide : ∀ r ∈ kept, ∀ w, Pipeline.arrRef spec8 w ≠ r) r hr)).trans (pers21 m ρ c r hr)
theorem pers23 (r : Ref sig .tc) (hr : r ∈ kept) : W23 m ρ c (Proc.devRef .tc r) = W1 m ρ c (Proc.devRef .tc r) :=
  (keep23 m ρ c r ((by decide : ∀ r ∈ kept, r ∉ hostOps9_written) r hr)).trans (pers22 m ρ c r hr)

/-- An argument is not written by the first host stretch either: at the first boundary it is as launched. -/
theorem arg1 (r : Ref sig .tc) (hr : r ∉ hostOps0_written) : W1 m ρ c (Proc.devRef .tc r) = m ((c.tc : Thread nD τ).loc r) :=
  keep1 m ρ c r hr

/-- `src = edge_index[0]` after the first host stretch is the reference's. -/
theorem src1 : W1 m ρ c (Proc.devRef .tc main_v1) = Cert.ReferenceIdeal.Read.val_main_v1 (F := Ideal) (m ((c.tc : Thread nD τ).loc main_arg1)) :=
  HostRead.src (W0 m ρ c)
/-- `dst = edge_index[1]` likewise. -/
theorem dst1 : W1 m ρ c (Proc.devRef .tc main_v3) = Cert.ReferenceIdeal.Read.val_main_v3 (F := Ideal) (m ((c.tc : Thread nD τ).loc main_arg1)) :=
  HostRead.dst (W0 m ρ c)

/-! The same three reads at every later boundary. -/
theorem argAt2 (r : Ref sig .tc) (hr : r ∈ kept) (h0 : r ∉ hostOps0_written) : W2 m ρ c (Proc.devRef .tc r) = m ((c.tc : Thread nD τ).loc r) :=
  (pers2 m ρ c r hr).trans (arg1 m ρ c r h0)
theorem srcAt2 : W2 m ρ c (Proc.devRef .tc main_v1) = Cert.ReferenceIdeal.Read.val_main_v1 (F := Ideal) (m ((c.tc : Thread nD τ).loc main_arg1)) :=
  (pers2 m ρ c main_v1 (by decide)).trans (src1 m ρ c)
theorem dstAt2 : W2 m ρ c (Proc.devRef .tc main_v3) = Cert.ReferenceIdeal.Read.val_main_v3 (F := Ideal) (m ((c.tc : Thread nD τ).loc main_arg1)) :=
  (pers2 m ρ c main_v3 (by decide)).trans (dst1 m ρ c)
theorem argAt3 (r : Ref sig .tc) (hr : r ∈ kept) (h0 : r ∉ hostOps0_written) : W3 m ρ c (Proc.devRef .tc r) = m ((c.tc : Thread nD τ).loc r) :=
  (pers3 m ρ c r hr).trans (arg1 m ρ c r h0)
theorem srcAt3 : W3 m ρ c (Proc.devRef .tc main_v1) = Cert.ReferenceIdeal.Read.val_main_v1 (F := Ideal) (m ((c.tc : Thread nD τ).loc main_arg1)) :=
  (pers3 m ρ c main_v1 (by decide)).trans (src1 m ρ c)
theorem dstAt3 : W3 m ρ c (Proc.devRef .tc main_v3) = Cert.ReferenceIdeal.Read.val_main_v3 (F := Ideal) (m ((c.tc : Thread nD τ).loc main_arg1)) :=
  (pers3 m ρ c main_v3 (by decide)).trans (dst1 m ρ c)
theorem argAt4 (r : Ref sig .tc) (hr : r ∈ kept) (h0 : r ∉ hostOps0_written) : W4 m ρ c (Proc.devRef .tc r) = m ((c.tc : Thread nD τ).loc r) :=
  (pers4 m ρ c r hr).trans (arg1 m ρ c r h0)
theorem srcAt4 : W4 m ρ c (Proc.devRef .tc main_v1) = Cert.ReferenceIdeal.Read.val_main_v1 (F := Ideal) (m ((c.tc : Thread nD τ).loc main_arg1)) :=
  (pers4 m ρ c main_v1 (by decide)).trans (src1 m ρ c)
theorem dstAt4 : W4 m ρ c (Proc.devRef .tc main_v3) = Cert.ReferenceIdeal.Read.val_main_v3 (F := Ideal) (m ((c.tc : Thread nD τ).loc main_arg1)) :=
  (pers4 m ρ c main_v3 (by decide)).trans (dst1 m ρ c)
theorem argAt5 (r : Ref sig .tc) (hr : r ∈ kept) (h0 : r ∉ hostOps0_written) : W5 m ρ c (Proc.devRef .tc r) = m ((c.tc : Thread nD τ).loc r) :=
  (pers5 m ρ c r hr).trans (arg1 m ρ c r h0)
theorem srcAt5 : W5 m ρ c (Proc.devRef .tc main_v1) = Cert.ReferenceIdeal.Read.val_main_v1 (F := Ideal) (m ((c.tc : Thread nD τ).loc main_arg1)) :=
  (pers5 m ρ c main_v1 (by decide)).trans (src1 m ρ c)
theorem dstAt5 : W5 m ρ c (Proc.devRef .tc main_v3) = Cert.ReferenceIdeal.Read.val_main_v3 (F := Ideal) (m ((c.tc : Thread nD τ).loc main_arg1)) :=
  (pers5 m ρ c main_v3 (by decide)).trans (dst1 m ρ c)
theorem argAt6 (r : Ref sig .tc) (hr : r ∈ kept) (h0 : r ∉ hostOps0_written) : W6 m ρ c (Proc.devRef .tc r) = m ((c.tc : Thread nD τ).loc r) :=
  (pers6 m ρ c r hr).trans (arg1 m ρ c r h0)
theorem srcAt6 : W6 m ρ c (Proc.devRef .tc main_v1) = Cert.ReferenceIdeal.Read.val_main_v1 (F := Ideal) (m ((c.tc : Thread nD τ).loc main_arg1)) :=
  (pers6 m ρ c main_v1 (by decide)).trans (src1 m ρ c)
theorem dstAt6 : W6 m ρ c (Proc.devRef .tc main_v3) = Cert.ReferenceIdeal.Read.val_main_v3 (F := Ideal) (m ((c.tc : Thread nD τ).loc main_arg1)) :=
  (pers6 m ρ c main_v3 (by decide)).trans (dst1 m ρ c)
theorem argAt7 (r : Ref sig .tc) (hr : r ∈ kept) (h0 : r ∉ hostOps0_written) : W7 m ρ c (Proc.devRef .tc r) = m ((c.tc : Thread nD τ).loc r) :=
  (pers7 m ρ c r hr).trans (arg1 m ρ c r h0)
theorem srcAt7 : W7 m ρ c (Proc.devRef .tc main_v1) = Cert.ReferenceIdeal.Read.val_main_v1 (F := Ideal) (m ((c.tc : Thread nD τ).loc main_arg1)) :=
  (pers7 m ρ c main_v1 (by decide)).trans (src1 m ρ c)
theorem dstAt7 : W7 m ρ c (Proc.devRef .tc main_v3) = Cert.ReferenceIdeal.Read.val_main_v3 (F := Ideal) (m ((c.tc : Thread nD τ).loc main_arg1)) :=
  (pers7 m ρ c main_v3 (by decide)).trans (dst1 m ρ c)
theorem argAt8 (r : Ref sig .tc) (hr : r ∈ kept) (h0 : r ∉ hostOps0_written) : W8 m ρ c (Proc.devRef .tc r) = m ((c.tc : Thread nD τ).loc r) :=
  (pers8 m ρ c r hr).trans (arg1 m ρ c r h0)
theorem srcAt8 : W8 m ρ c (Proc.devRef .tc main_v1) = Cert.ReferenceIdeal.Read.val_main_v1 (F := Ideal) (m ((c.tc : Thread nD τ).loc main_arg1)) :=
  (pers8 m ρ c main_v1 (by decide)).trans (src1 m ρ c)
theorem dstAt8 : W8 m ρ c (Proc.devRef .tc main_v3) = Cert.ReferenceIdeal.Read.val_main_v3 (F := Ideal) (m ((c.tc : Thread nD τ).loc main_arg1)) :=
  (pers8 m ρ c main_v3 (by decide)).trans (dst1 m ρ c)
theorem argAt9 (r : Ref sig .tc) (hr : r ∈ kept) (h0 : r ∉ hostOps0_written) : W9 m ρ c (Proc.devRef .tc r) = m ((c.tc : Thread nD τ).loc r) :=
  (pers9 m ρ c r hr).trans (arg1 m ρ c r h0)
theorem srcAt9 : W9 m ρ c (Proc.devRef .tc main_v1) = Cert.ReferenceIdeal.Read.val_main_v1 (F := Ideal) (m ((c.tc : Thread nD τ).loc main_arg1)) :=
  (pers9 m ρ c main_v1 (by decide)).trans (src1 m ρ c)
theorem dstAt9 : W9 m ρ c (Proc.devRef .tc main_v3) = Cert.ReferenceIdeal.Read.val_main_v3 (F := Ideal) (m ((c.tc : Thread nD τ).loc main_arg1)) :=
  (pers9 m ρ c main_v3 (by decide)).trans (dst1 m ρ c)
theorem argAt10 (r : Ref sig .tc) (hr : r ∈ kept) (h0 : r ∉ hostOps0_written) : W10 m ρ c (Proc.devRef .tc r) = m ((c.tc : Thread nD τ).loc r) :=
  (pers10 m ρ c r hr).trans (arg1 m ρ c r h0)
theorem srcAt10 : W10 m ρ c (Proc.devRef .tc main_v1) = Cert.ReferenceIdeal.Read.val_main_v1 (F := Ideal) (m ((c.tc : Thread nD τ).loc main_arg1)) :=
  (pers10 m ρ c main_v1 (by decide)).trans (src1 m ρ c)
theorem dstAt10 : W10 m ρ c (Proc.devRef .tc main_v3) = Cert.ReferenceIdeal.Read.val_main_v3 (F := Ideal) (m ((c.tc : Thread nD τ).loc main_arg1)) :=
  (pers10 m ρ c main_v3 (by decide)).trans (dst1 m ρ c)
theorem argAt11 (r : Ref sig .tc) (hr : r ∈ kept) (h0 : r ∉ hostOps0_written) : W11 m ρ c (Proc.devRef .tc r) = m ((c.tc : Thread nD τ).loc r) :=
  (pers11 m ρ c r hr).trans (arg1 m ρ c r h0)
theorem srcAt11 : W11 m ρ c (Proc.devRef .tc main_v1) = Cert.ReferenceIdeal.Read.val_main_v1 (F := Ideal) (m ((c.tc : Thread nD τ).loc main_arg1)) :=
  (pers11 m ρ c main_v1 (by decide)).trans (src1 m ρ c)
theorem dstAt11 : W11 m ρ c (Proc.devRef .tc main_v3) = Cert.ReferenceIdeal.Read.val_main_v3 (F := Ideal) (m ((c.tc : Thread nD τ).loc main_arg1)) :=
  (pers11 m ρ c main_v3 (by decide)).trans (dst1 m ρ c)
theorem argAt12 (r : Ref sig .tc) (hr : r ∈ kept) (h0 : r ∉ hostOps0_written) : W12 m ρ c (Proc.devRef .tc r) = m ((c.tc : Thread nD τ).loc r) :=
  (pers12 m ρ c r hr).trans (arg1 m ρ c r h0)
theorem srcAt12 : W12 m ρ c (Proc.devRef .tc main_v1) = Cert.ReferenceIdeal.Read.val_main_v1 (F := Ideal) (m ((c.tc : Thread nD τ).loc main_arg1)) :=
  (pers12 m ρ c main_v1 (by decide)).trans (src1 m ρ c)
theorem dstAt12 : W12 m ρ c (Proc.devRef .tc main_v3) = Cert.ReferenceIdeal.Read.val_main_v3 (F := Ideal) (m ((c.tc : Thread nD τ).loc main_arg1)) :=
  (pers12 m ρ c main_v3 (by decide)).trans (dst1 m ρ c)
theorem argAt13 (r : Ref sig .tc) (hr : r ∈ kept) (h0 : r ∉ hostOps0_written) : W13 m ρ c (Proc.devRef .tc r) = m ((c.tc : Thread nD τ).loc r) :=
  (pers13 m ρ c r hr).trans (arg1 m ρ c r h0)
theorem srcAt13 : W13 m ρ c (Proc.devRef .tc main_v1) = Cert.ReferenceIdeal.Read.val_main_v1 (F := Ideal) (m ((c.tc : Thread nD τ).loc main_arg1)) :=
  (pers13 m ρ c main_v1 (by decide)).trans (src1 m ρ c)
theorem dstAt13 : W13 m ρ c (Proc.devRef .tc main_v3) = Cert.ReferenceIdeal.Read.val_main_v3 (F := Ideal) (m ((c.tc : Thread nD τ).loc main_arg1)) :=
  (pers13 m ρ c main_v3 (by decide)).trans (dst1 m ρ c)
theorem argAt14 (r : Ref sig .tc) (hr : r ∈ kept) (h0 : r ∉ hostOps0_written) : W14 m ρ c (Proc.devRef .tc r) = m ((c.tc : Thread nD τ).loc r) :=
  (pers14 m ρ c r hr).trans (arg1 m ρ c r h0)
theorem srcAt14 : W14 m ρ c (Proc.devRef .tc main_v1) = Cert.ReferenceIdeal.Read.val_main_v1 (F := Ideal) (m ((c.tc : Thread nD τ).loc main_arg1)) :=
  (pers14 m ρ c main_v1 (by decide)).trans (src1 m ρ c)
theorem dstAt14 : W14 m ρ c (Proc.devRef .tc main_v3) = Cert.ReferenceIdeal.Read.val_main_v3 (F := Ideal) (m ((c.tc : Thread nD τ).loc main_arg1)) :=
  (pers14 m ρ c main_v3 (by decide)).trans (dst1 m ρ c)
theorem argAt15 (r : Ref sig .tc) (hr : r ∈ kept) (h0 : r ∉ hostOps0_written) : W15 m ρ c (Proc.devRef .tc r) = m ((c.tc : Thread nD τ).loc r) :=
  (pers15 m ρ c r hr).trans (arg1 m ρ c r h0)
theorem srcAt15 : W15 m ρ c (Proc.devRef .tc main_v1) = Cert.ReferenceIdeal.Read.val_main_v1 (F := Ideal) (m ((c.tc : Thread nD τ).loc main_arg1)) :=
  (pers15 m ρ c main_v1 (by decide)).trans (src1 m ρ c)
theorem dstAt15 : W15 m ρ c (Proc.devRef .tc main_v3) = Cert.ReferenceIdeal.Read.val_main_v3 (F := Ideal) (m ((c.tc : Thread nD τ).loc main_arg1)) :=
  (pers15 m ρ c main_v3 (by decide)).trans (dst1 m ρ c)
theorem argAt16 (r : Ref sig .tc) (hr : r ∈ kept) (h0 : r ∉ hostOps0_written) : W16 m ρ c (Proc.devRef .tc r) = m ((c.tc : Thread nD τ).loc r) :=
  (pers16 m ρ c r hr).trans (arg1 m ρ c r h0)
theorem srcAt16 : W16 m ρ c (Proc.devRef .tc main_v1) = Cert.ReferenceIdeal.Read.val_main_v1 (F := Ideal) (m ((c.tc : Thread nD τ).loc main_arg1)) :=
  (pers16 m ρ c main_v1 (by decide)).trans (src1 m ρ c)
theorem dstAt16 : W16 m ρ c (Proc.devRef .tc main_v3) = Cert.ReferenceIdeal.Read.val_main_v3 (F := Ideal) (m ((c.tc : Thread nD τ).loc main_arg1)) :=
  (pers16 m ρ c main_v3 (by decide)).trans (dst1 m ρ c)
theorem argAt17 (r : Ref sig .tc) (hr : r ∈ kept) (h0 : r ∉ hostOps0_written) : W17 m ρ c (Proc.devRef .tc r) = m ((c.tc : Thread nD τ).loc r) :=
  (pers17 m ρ c r hr).trans (arg1 m ρ c r h0)
theorem srcAt17 : W17 m ρ c (Proc.devRef .tc main_v1) = Cert.ReferenceIdeal.Read.val_main_v1 (F := Ideal) (m ((c.tc : Thread nD τ).loc main_arg1)) :=
  (pers17 m ρ c main_v1 (by decide)).trans (src1 m ρ c)
theorem dstAt17 : W17 m ρ c (Proc.devRef .tc main_v3) = Cert.ReferenceIdeal.Read.val_main_v3 (F := Ideal) (m ((c.tc : Thread nD τ).loc main_arg1)) :=
  (pers17 m ρ c main_v3 (by decide)).trans (dst1 m ρ c)
theorem argAt18 (r : Ref sig .tc) (hr : r ∈ kept) (h0 : r ∉ hostOps0_written) : W18 m ρ c (Proc.devRef .tc r) = m ((c.tc : Thread nD τ).loc r) :=
  (pers18 m ρ c r hr).trans (arg1 m ρ c r h0)
theorem srcAt18 : W18 m ρ c (Proc.devRef .tc main_v1) = Cert.ReferenceIdeal.Read.val_main_v1 (F := Ideal) (m ((c.tc : Thread nD τ).loc main_arg1)) :=
  (pers18 m ρ c main_v1 (by decide)).trans (src1 m ρ c)
theorem dstAt18 : W18 m ρ c (Proc.devRef .tc main_v3) = Cert.ReferenceIdeal.Read.val_main_v3 (F := Ideal) (m ((c.tc : Thread nD τ).loc main_arg1)) :=
  (pers18 m ρ c main_v3 (by decide)).trans (dst1 m ρ c)
theorem argAt19 (r : Ref sig .tc) (hr : r ∈ kept) (h0 : r ∉ hostOps0_written) : W19 m ρ c (Proc.devRef .tc r) = m ((c.tc : Thread nD τ).loc r) :=
  (pers19 m ρ c r hr).trans (arg1 m ρ c r h0)
theorem srcAt19 : W19 m ρ c (Proc.devRef .tc main_v1) = Cert.ReferenceIdeal.Read.val_main_v1 (F := Ideal) (m ((c.tc : Thread nD τ).loc main_arg1)) :=
  (pers19 m ρ c main_v1 (by decide)).trans (src1 m ρ c)
theorem dstAt19 : W19 m ρ c (Proc.devRef .tc main_v3) = Cert.ReferenceIdeal.Read.val_main_v3 (F := Ideal) (m ((c.tc : Thread nD τ).loc main_arg1)) :=
  (pers19 m ρ c main_v3 (by decide)).trans (dst1 m ρ c)
theorem argAt20 (r : Ref sig .tc) (hr : r ∈ kept) (h0 : r ∉ hostOps0_written) : W20 m ρ c (Proc.devRef .tc r) = m ((c.tc : Thread nD τ).loc r) :=
  (pers20 m ρ c r hr).trans (arg1 m ρ c r h0)
theorem srcAt20 : W20 m ρ c (Proc.devRef .tc main_v1) = Cert.ReferenceIdeal.Read.val_main_v1 (F := Ideal) (m ((c.tc : Thread nD τ).loc main_arg1)) :=
  (pers20 m ρ c main_v1 (by decide)).trans (src1 m ρ c)
theorem dstAt20 : W20 m ρ c (Proc.devRef .tc main_v3) = Cert.ReferenceIdeal.Read.val_main_v3 (F := Ideal) (m ((c.tc : Thread nD τ).loc main_arg1)) :=
  (pers20 m ρ c main_v3 (by decide)).trans (dst1 m ρ c)
theorem argAt21 (r : Ref sig .tc) (hr : r ∈ kept) (h0 : r ∉ hostOps0_written) : W21 m ρ c (Proc.devRef .tc r) = m ((c.tc : Thread nD τ).loc r) :=
  (pers21 m ρ c r hr).trans (arg1 m ρ c r h0)
theorem srcAt21 : W21 m ρ c (Proc.devRef .tc main_v1) = Cert.ReferenceIdeal.Read.val_main_v1 (F := Ideal) (m ((c.tc : Thread nD τ).loc main_arg1)) :=
  (pers21 m ρ c main_v1 (by decide)).trans (src1 m ρ c)
theorem dstAt21 : W21 m ρ c (Proc.devRef .tc main_v3) = Cert.ReferenceIdeal.Read.val_main_v3 (F := Ideal) (m ((c.tc : Thread nD τ).loc main_arg1)) :=
  (pers21 m ρ c main_v3 (by decide)).trans (dst1 m ρ c)
theorem argAt22 (r : Ref sig .tc) (hr : r ∈ kept) (h0 : r ∉ hostOps0_written) : W22 m ρ c (Proc.devRef .tc r) = m ((c.tc : Thread nD τ).loc r) :=
  (pers22 m ρ c r hr).trans (arg1 m ρ c r h0)
theorem srcAt22 : W22 m ρ c (Proc.devRef .tc main_v1) = Cert.ReferenceIdeal.Read.val_main_v1 (F := Ideal) (m ((c.tc : Thread nD τ).loc main_arg1)) :=
  (pers22 m ρ c main_v1 (by decide)).trans (src1 m ρ c)
theorem dstAt22 : W22 m ρ c (Proc.devRef .tc main_v3) = Cert.ReferenceIdeal.Read.val_main_v3 (F := Ideal) (m ((c.tc : Thread nD τ).loc main_arg1)) :=
  (pers22 m ρ c main_v3 (by decide)).trans (dst1 m ρ c)
theorem argAt23 (r : Ref sig .tc) (hr : r ∈ kept) (h0 : r ∉ hostOps0_written) : W23 m ρ c (Proc.devRef .tc r) = m ((c.tc : Thread nD τ).loc r) :=
  (pers23 m ρ c r hr).trans (arg1 m ρ c r h0)
theorem srcAt23 : W23 m ρ c (Proc.devRef .tc main_v1) = Cert.ReferenceIdeal.Read.val_main_v1 (F := Ideal) (m ((c.tc : Thread nD τ).loc main_arg1)) :=
  (pers23 m ρ c main_v1 (by decide)).trans (src1 m ρ c)
theorem dstAt23 : W23 m ρ c (Proc.devRef .tc main_v3) = Cert.ReferenceIdeal.Read.val_main_v3 (F := Ideal) (m ((c.tc : Thread nD τ).loc main_arg1)) :=
  (pers23 m ρ c main_v3 (by decide)).trans (dst1 m ρ c)

/-- The embedded node table: the first pallas_call's output is the reference's first layer. -/
theorem st0 : W2 m ρ c (Proc.devRef .tc main_v4)
    = Cert.ReferenceIdeal.Read.val_main_v8 (F := Ideal) (m ((c.tc : Thread nD τ).loc main_arg0)) (m ((c.tc : Thread nD τ).loc main_arg3))
        (m ((c.tc : Thread nD τ).loc main_arg4)) := by
  refine ((W2_arr m ρ c 3).trans (RegionVal.value0 (V1 m ρ) c)).trans ?_
  rw [show V1 m ρ c main_arg0 = m ((c.tc : Thread nD τ).loc main_arg0) from arg1 m ρ c main_arg0 (by decide),
    show V1 m ρ c main_arg3 = m ((c.tc : Thread nD τ).loc main_arg3) from arg1 m ρ c main_arg3 (by decide),
    show V1 m ρ c main_arg4 = m ((c.tc : Thread nD τ).loc main_arg4) from arg1 m ρ c main_arg4 (by decide)]

end Cert.KernelIdeal.Chain

end
-- ==== Proof.Region1.lean ====
import proofs.«403677_j16363825398111_1_alg».proof.Proof.Gen.KernelIdeal.Frame
import proofs.«403677_j16363825398111_1_alg».proof.Proof.RefStage
import proofs.«403677_j16363825398111_1_alg».proof.Proof.BlockLayer
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionVal

open Cert.KernelIdeal Cert.KernelIdeal.Gen Idealize.ShloMosaic Idealize.ShloMosaic.TcCoe Idealize.SL.Sem
open Idealize.ShloMosaic.Pipeline (Dat)

namespace R1
open Idealize.ShloMosaic.ValueIdx Cert.KernelIdeal.BlockLayer

/-- The zero offsets of a rank-2 block, as the constant function. -/
theorem hz2 : (![0, 0] : Fin 2 → Nat) = fun _ => 0 := funext fun a => by fin_cases a <;> rfl
/-- The zero offset of a rank-1 block, as the constant function. -/
theorem hz1 : (![0] : Fin 1 → Nat) = fun _ => 0 := funext fun a => by fin_cases a <;> rfl

/-- The index maps over the 20 grid points: the row block of the input and the row block of the output move together
    along axis 0 and sit at block 0 on axis 1; the weight and the bias stay at block 0; the output's row-block index is
    at most 19. -/
theorem idx_facts : ∀ t : Fin cfg1.N,
    win1_0.index t (0 : Fin 2) = win1_3.index t (0 : Fin 2)
    ∧ win1_0.index t (1 : Fin 2) = 0
    ∧ win1_3.index t (1 : Fin 2) = 0
    ∧ win1_1.index t (0 : Fin 2) = 0
    ∧ win1_1.index t (1 : Fin 2) = 0
    ∧ win1_2.index t (0 : Fin 1) = 0
    ∧ win1_3.index t (0 : Fin 2) ≤ 19 :=
  (by decide +kernel : ∀ t : Fin grid1.N, _)

/-- Every one of the 20 row blocks of the output is some grid point's. -/
theorem idx_onto : ∀ r : Fin 20, ∃ t : Fin cfg1.N, win1_3.index t = ![r.val, 0] :=
  (by decide +kernel : ∀ r : Fin 20, ∃ t : Fin grid1.N, win1_3.index t = ![r.val, 0])

/-- One entry: if row `p` of the block `x` is row `i 0` of the table `X`, column `q` of `w` is column `i 1` of `W` and
    `b q` is `B (i 1)`, then `max (∑ₖ x p k · w k q + b q) 0` is the reference's layer `relu (X · W + B)` at `i`. -/
theorem entry_eq (X : (⟨Cert.ReferenceIdeal.S100000x128, .f32⟩ : BufTy).Contents (Elt Ideal))
    (W : (⟨Cert.ReferenceIdeal.S128x128, .f32⟩ : BufTy).Contents (Elt Ideal))
    (B : (⟨Cert.ReferenceIdeal.S128, .f32⟩ : BufTy).Contents (Elt Ideal))
    (x : Vec Ideal S5000x128 .f32) (w : Vec Ideal S128x128 .f32) (b : Vec Ideal S128 .f32)
    (i : Cert.ReferenceIdeal.S100000x128.Idx) (p : Fin 5000) (q : Fin 128)
    (hx : ∀ k : Fin 128, x (ix2 p k) = X (Cert.ReferenceIdeal.Read.lidx_main_v4 i k))
    (hw : ∀ k : Fin 128, w (ix2 k q) = W (Cert.ReferenceIdeal.Read.ridx_main_v4 i k))
    (hb : b (ix1 q) = B (Cert.ReferenceIdeal.Read.idx_main_v5 (Cert.ReferenceIdeal.Read.idx_main_v6 i))) :
    linReluAt x w b p q = Cert.ReferenceIdeal.Read.val_main_v8 (F := Ideal) X W B i := by
  rw [Cert.RefStage.linRelu_apply]
  unfold linReluAt
  rw [hb, Finset.sum_congr rfl (fun k _ => by rw [hx k, hw k])]

variable (V : (c : Dev nD) → (b : Ref sig .tc) → Buf (Elt Ideal) ((c : Thread nD τ).loc b))

/-- What grid point `t` writes back is block `t` of the reference's layer of the three arrays as the region finds them. -/
theorem flushed_eq (c : Dev nD) (t : Fin cfg1.N) :
    (dat1 (F := Ideal) V c).flushed 3 t = ((cfg1.win 3).blk t).view.read (Elt Ideal)
      (Cert.ReferenceIdeal.Read.val_main_v8 (F := Ideal) (V c main_v4) (V c main_v6) (V c main_v8)) := by
  show (cfg1.win 3).cut (grid1.coords t) ((dat1 V c).after 3 t) = _
  rw [after1_3]
  unfold out1_3
  rw [View.canon_unit_zero hz2]
  simp only [View.ld_unit_zero (S := S5000x128) hz2, View.ld_unit_zero (S := S128x128) hz2, View.ld_unit_zero (S := S128) hz1]
  obtain ⟨e0, e1, e2, e3, e4, e5, e6⟩ := idx_facts t
  funext j
  obtain ⟨p, q, rfl⟩ : ∃ (p : Fin 5000) (q : Fin 128), j = ix2 p q := ⟨j 0, j 1, eq_ix2 j⟩
  show k1_pay1 (F := Ideal) (iblk1 V c 0 t) (iblk1 V c 1 t) (iblk1 V c 2 t) (ix2 p q)
    = Cert.ReferenceIdeal.Read.val_main_v8 (F := Ideal) (V c main_v4) (V c main_v6) (V c main_v8)
        (((cfg1.win 3).blk t).view.emb (ix2 p q))
  refine (pay1_apply (iblk1 V c 0 t) (iblk1 V c 1 t) (iblk1 V c 2 t) p q).trans ?_
  refine entry_eq (V c main_v4) (V c main_v6) (V c main_v8) (iblk1 V c 0 t) (iblk1 V c 1 t) (iblk1 V c 2 t)
    (((cfg1.win 3).blk t).view.emb (ix2 p q)) p q (fun k => ?_) (fun k => ?_) ?_
  · show V c main_v4 (((cfg1.win 0).blk t).view.emb (ix2 p k)) = V c main_v4 _
    refine congrArg (V c main_v4) (funext fun a => Fin.ext ?_)
    match a with
    | ⟨0, _⟩ =>
      show win1_0.index t (0 : Fin 2) * 5000 + 1 * p.val = win1_3.index t (0 : Fin 2) * 5000 + 1 * p.val
      omega
    | ⟨1, _⟩ =>
      show win1_0.index t (1 : Fin 2) * 128 + 1 * k.val = k.val
      omega
  · show V c main_v6 (((cfg1.win 1).blk t).view.emb (ix2 k q)) = V c main_v6 _
    refine congrArg (V c main_v6) (funext fun a => Fin.ext ?_)
    match a with
    | ⟨0, _⟩ =>
      show win1_1.index t (0 : Fin 2) * 128 + 1 * k.val = k.val
      omega
    | ⟨1, _⟩ =>
      show win1_1.index t (1 : Fin 2) * 128 + 1 * q.val = win1_3.index t (1 : Fin 2) * 128 + 1 * q.val
      omega
  · show V c main_v8 (((cfg1.win 2).blk t).view.emb (ix1 q)) = V c main_v8 _
    refine congrArg (V c main_v8) (funext fun a => Fin.ext ?_)
    match a with
    | ⟨0, _⟩ =>
      show win1_2.index t (0 : Fin 1) * 128 + 1 * q.val = win1_3.index t (1 : Fin 2) * 128 + 1 * q.val
      omega

/-- An index of the table is in point `t`'s block iff each coordinate is in the block's range on its axis. -/
theorem mem_blk (t : Fin cfg1.N) (i : S100000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v9).slice (win1_3.rect t)).set ↔ _
  rw [View.set_slice_whole, Rect.mem_set_unit]
  exact Iff.rfl

/-- Every index of the table is in some point's block: row `r` is in row block `r / 5000`. -/
theorem cover (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  obtain ⟨t, ht⟩ := idx_onto ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_blk]
  intro a
  match a with
  | ⟨0, _⟩ =>
    show win1_3.index t (0 : Fin 2) * 5000 ≤ (i 0).val ∧ (i 0).val < win1_3.index t (0 : Fin 2) * 5000 + 5000
    omega
  | ⟨1, _⟩ =>
    show win1_3.index t (1 : Fin 2) * 128 ≤ (i 1).val ∧ (i 1).val < win1_3.index t (1 : Fin 2) * 128 + 128
    omega

end R1

variable (V : (c : Dev nD) → (b : Ref sig .tc) → Buf (Elt Ideal) ((c : Thread nD τ).loc b))

theorem value1 (c : Dev nD) :
    (dat1 (F := Ideal) V c).arrAt 3 cfg1.N
      = Cert.ReferenceIdeal.Read.val_main_v8 (F := Ideal) (V c main_v4) (V c main_v6) (V c main_v8) :=
  (dat1 (F := Ideal) V c).arrAt_eq_of_cover 3 _ (fun t _ => R1.flushed_eq V c t) R1.cover

end Cert.KernelIdeal.RegionVal

end
-- ==== Proof.Region2.lean ====
import proofs.«403677_j16363825398111_1_alg».proof.Proof.Gen.KernelIdeal.Frame
import proofs.«403677_j16363825398111_1_alg».proof.Proof.RefStage
import proofs.«403677_j16363825398111_1_alg».proof.Proof.BlockLayer
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionVal

open Cert.KernelIdeal Cert.KernelIdeal.Gen Idealize.ShloMosaic Idealize.ShloMosaic.TcCoe Idealize.SL.Sem
open Idealize.ShloMosaic.Pipeline (Dat)

namespace R2

theorem hz : (![0, 0] : Fin 2 → Nat) = fun _ => 0 := funext fun a => by fin_cases a <;> rfl
theorem hz1 : (![0] : Fin 1 → Nat) = fun _ => 0 := funext fun a => by fin_cases a <;> rfl

/-- The index maps over the grid: the row blocks move with the grid point, the weight and the bias stay. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = t.val ∧ win2_3.index t (1 : Fin 2) = 0
    ∧ win2_4.index t (0 : Fin 2) = t.val ∧ win2_4.index t (1 : Fin 2) = 0 ∧ t.val ≤ 19 :=
  (by decide +kernel : ∀ t : Fin grid2.N, _)

theorem idx_onto : ∀ q0 : Fin 20, ∃ t : Fin cfg2.N, win2_4.index t = ![q0.val, 0] :=
  (by decide +kernel : ∀ q0 : Fin 20, ∃ t : Fin grid2.N, win2_4.index t = ![q0.val, 0])

open Cert.KernelIdeal.BlockLayer Idealize.ShloMosaic.ValueIdx in
/-- One entry: the residual entry plus the layer's entry, read off blocks whose entries are the arrays' at the matching indices. -/
theorem entry_eq (x : Vec Ideal S5000x128 .f32) (w : Vec Ideal S128x128 .f32) (b : Vec Ideal S128 .f32) (res : Vec Ideal S5000x128 .f32)
    (X R : (⟨Cert.ReferenceIdeal.S100000x128, .f32⟩ : BufTy).Contents (Elt Ideal))
    (W : (⟨Cert.ReferenceIdeal.S128x128, .f32⟩ : BufTy).Contents (Elt Ideal))
    (B : (⟨Cert.ReferenceIdeal.S128, .f32⟩ : BufTy).Contents (Elt Ideal))
    (p : Fin 5000) (q : Fin 128) (i : Cert.ReferenceIdeal.S100000x128.Idx)
    (hx : ∀ k : Fin 128, x (ix2 p k) = X (Cert.ReferenceIdeal.Read.lidx_main_v4 i k))
    (hw : ∀ k : Fin 128, w (ix2 k q) = W (Cert.ReferenceIdeal.Read.ridx_main_v4 i k))
    (hb : b (ix1 q) = B (Cert.ReferenceIdeal.Read.idx_main_v5 (Cert.ReferenceIdeal.Read.idx_main_v6 i)))
    (hr : res (ix2 p q) = R i) :
    res (ix2 p q) + linReluAt x w b p q
      = FloatOps.addf (F := Ideal) (φ := .f32) (R i) (Cert.ReferenceIdeal.Read.val_main_v8 (F := Ideal) X W B i) := by
  rw [Cert.RefStage.linRelu_apply, hr]
  unfold linReluAt
  rw [hb, Finset.sum_congr rfl fun k _ => by rw [hx k, hw k]]
  rfl

end R2

variable (V : (c : Dev nD) → (b : Ref sig .tc) → Buf (Elt Ideal) ((c : Thread nD τ).loc b))

namespace R2

open Cert.KernelIdeal.BlockLayer Idealize.ShloMosaic.ValueIdx in
/-- What grid point `t` writes back is block `t` of the residual plus the layer of the three other arrays. -/
theorem flushed_eq (c : Dev nD) (t : Fin cfg2.N) :
    (dat2 (F := Ideal) V c).flushed 4 t = ((cfg2.win 4).blk t).view.read (Elt Ideal)
      (addf (F := Ideal) (s := S100000x128) (φ := .f32) (V c main_v4 : (⟨S100000x128, .f32⟩ : BufTy).Contents (Elt Ideal))
          (Cert.ReferenceIdeal.Read.val_main_v8 (F := Ideal) (V c main_v13) (V c main_v15) (V c main_v17)) :
          (⟨S100000x128, .f32⟩ : BufTy).Contents (Elt Ideal)) := by
  show (cfg2.win 4).cut (grid2.coords t) ((dat2 (F := Ideal) V c).after 4 t) = _
  rw [after2_4]
  unfold out2_4
  rw [View.canon_unit_zero hz]
  simp only [View.ld_unit_zero (S := S5000x128) hz, View.ld_unit_zero (S := S128x128) hz, View.ld_unit_zero (S := S128) hz1]
  obtain ⟨e00, e01, e10, e11, e20, e30, e31, e40, e41, ht⟩ := idx_facts t
  funext j
  obtain ⟨p, q, rfl⟩ : ∃ (p : Fin 5000) (q : Fin 128), j = ix2 p q := ⟨j 0, j 1, eq_ix2 j⟩
  show k2_pay1 (F := Ideal) (iblk2 V c 0 t) (iblk2 V c 1 t) (iblk2 V c 2 t) (iblk2 V c 3 t) (ix2 p q)
     = FloatOps.addf (F := Ideal) (φ := .f32) ((V c main_v4 : (⟨S100000x128, .f32⟩ : BufTy).Contents (Elt Ideal)) (((cfg2.win 4).blk t).view.emb (ix2 p q)))
        (Cert.ReferenceIdeal.Read.val_main_v8 (F := Ideal) (V c main_v13) (V c main_v15) (V c main_v17) (((cfg2.win 4).blk t).view.emb (ix2 p q)))
  refine (pay2_apply (iblk2 V c 0 t) (iblk2 V c 1 t) (iblk2 V c 2 t) p q (iblk2 V c 3 t)).trans ?_
  refine entry_eq (iblk2 V c 0 t) (iblk2 V c 1 t) (iblk2 V c 2 t) (iblk2 V c 3 t) (V c main_v13) (V c main_v4) (V c main_v15) (V c main_v17) p q (((cfg2.win 4).blk t).view.emb (ix2 p q)) ?_ ?_ ?_ ?_
  · intro k
    show (V c main_v13 : (⟨S100000x128, .f32⟩ : BufTy).Contents (Elt Ideal)) (((cfg2.win 0).blk t).view.emb (ix2 p k)) = _
    refine congrArg _ (funext fun a => Fin.ext ?_)
    match a with
    | ⟨0, _⟩ => show win2_0.index t (0 : Fin 2) * 5000 + 1 * p.val = win2_4.index t (0 : Fin 2) * 5000 + 1 * p.val; omega
    | ⟨1, _⟩ => show win2_0.index t (1 : Fin 2) * 128 + 1 * k.val = k.val; omega
  · intro k
    show (V c main_v15 : (⟨S128x128, .f32⟩ : BufTy).Contents (Elt Ideal)) (((cfg2.win 1).blk t).view.emb (ix2 k q)) = _
    refine congrArg _ (funext fun a => Fin.ext ?_)
    match a with
    | ⟨0, _⟩ => show win2_1.index t (0 : Fin 2) * 128 + 1 * k.val = k.val; omega
    | ⟨1, _⟩ => show win2_1.index t (1 : Fin 2) * 128 + 1 * q.val = win2_4.index t (1 : Fin 2) * 128 + 1 * q.val; omega
  · show (V c main_v17 : (⟨S128, .f32⟩ : BufTy).Contents (Elt Ideal)) (((cfg2.win 2).blk t).view.emb (ix1 q)) = _
    refine congrArg _ (funext fun a => Fin.ext ?_)
    match a with
    | ⟨0, _⟩ => show win2_2.index t (0 : Fin 1) * 128 + 1 * q.val = win2_4.index t (1 : Fin 2) * 128 + 1 * q.val; omega
  · show (V c main_v4 : (⟨S100000x128, .f32⟩ : BufTy).Contents (Elt Ideal)) (((cfg2.win 3).blk t).view.emb (ix2 p q)) = _
    refine congrArg _ (funext fun a => Fin.ext ?_)
    match a with
    | ⟨0, _⟩ => show win2_3.index t (0 : Fin 2) * 5000 + 1 * p.val = win2_4.index t (0 : Fin 2) * 5000 + 1 * p.val; omega
    | ⟨1, _⟩ => show win2_3.index t (1 : Fin 2) * 128 + 1 * q.val = win2_4.index t (1 : Fin 2) * 128 + 1 * q.val; omega

/-- An index of the array is in point `t`'s block iff each coordinate is in the block's range on its axis. -/
theorem mem_blk (t : Fin cfg2.N) (i : S100000x128.Idx) :
    i ∈ ((cfg2.win 4).blk t).view.set ↔ ∀ a : Fin 2, win2_4.index t a * S5000x128.size a ≤ (i a).val ∧ (i a).val < win2_4.index t a * S5000x128.size a + S5000x128.size a := by
  show i ∈ ((View.whole (Pipeline.arrRef spec2 4)).slice (win2_4.rect t)).set ↔ _
  rw [View.set_slice_whole, Rect.mem_set_unit]
  exact Iff.rfl

/-- Every index of the array is in some point's block: row `r` is in the block of point `r / 5000`. -/
theorem cover (i : S100000x128.Idx) : ∃ t : Fin cfg2.N, (cfg2.win 4).flush t = true ∧ i ∈ ((cfg2.win 4).blk t).view.set := by
  have hi0 : (i 0).val < 100000 := (i 0).isLt
  have hi1 : (i 1).val < 128 := (i 1).isLt
  obtain ⟨t, ht⟩ := idx_onto ⟨(i 0).val / 5000, by omega⟩
  have q0 : win2_4.index t (0 : Fin 2) = (i 0).val / 5000 := congrFun ht 0
  have q1 : win2_4.index t (1 : Fin 2) = 0 := congrFun ht 1
  refine ⟨t, flush2_4 t, ?_⟩
  rw [mem_blk]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 128 ≤ (i 1).val ∧ (i 1).val < win2_4.index t (1 : Fin 2) * 128 + 128; omega

end R2

theorem value2 (c : Dev nD) :
    (dat2 (F := Ideal) V c).arrAt 4 cfg2.N
      = (addf (F := Ideal) (s := S100000x128) (φ := .f32) (V c main_v4 : (⟨S100000x128, .f32⟩ : BufTy).Contents (Elt Ideal))
          (Cert.ReferenceIdeal.Read.val_main_v8 (F := Ideal) (V c main_v13) (V c main_v15) (V c main_v17)) :
          (⟨S100000x128, .f32⟩ : BufTy).Contents (Elt Ideal)) :=
  (dat2 (F := Ideal) V c).arrAt_eq_of_cover 4 _ (fun t _ => R2.flushed_eq V c t) R2.cover

end Cert.KernelIdeal.RegionVal

end
-- ==== Proof.Take.lean ====
import proofs.«403677_j16363825398111_1_alg».proof.Proof.Layers
import Idealize.ShloMosaic.Lib.StableHlo.Predicate
import Idealize.ShloMosaic.Lib.ReduceAll

/-!
  Where every edge's source index addresses a row of the node table, the kernel's masked `take` is the plain gather:
  the mask is all ones, so the select keeps the gathered row everywhere and the fill value is never read.
-/

noncomputable section

namespace Cert.Layers

open Idealize.ShloMosaic Idealize.ShloMosaic.TcCoe Cert.KernelIdeal

variable {F : FTy → Type} [FloatOps F]

/-- A left fold by `and` from 1 over words that are all 1 is 1. -/
private theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from rfl]
    exact foldl_andi_one f hf l

/-- A reduce by `and`, from 1, of an array whose entries are all 1 is 1 at every index. -/
private theorem reduce_andi_one {s t u : Shape} {axes : List (Fin s.rank)} (x : s.Idx → BitVec 1) (hx : ∀ i, x i = 1#1)
    (hr : s.ReducesTo axes t) (hu : 0 < u.numel) (j : t.Idx) :
    Host.reduce IntOp.andi x (constantI u 1 1#1) hr hu j = 1#1 := by
  rw [Host.reduce_eq_foldl]
  exact foldl_andi_one x hx _

theorem takeMasked_eq_gatherRows (msg : (⟨S100000x128, .f32⟩ : BufTy).Contents (Elt F)) (src : (⟨S1600000, .i32⟩ : BufTy).Contents (Elt F))
    (h : ∀ e : S1600000x1.Idx, inRange (F := F) src e = 1#1) : takeMasked msg src = gatherRows msg src := by
  funext i
  unfold takeMasked select broadcastInDim
  rw [reduce_andi_one _ h]
  rfl

end Cert.Layers

end
-- ==== Proof.PreFacts.lean ====
import proofs.«403677_j16363825398111_1_alg».proof.Defs
import proofs.«403677_j16363825398111_1_alg».proof.Proof.Gen.Pre_finite_inputs
import proofs.«403677_j16363825398111_1_alg».proof.Proof.Layers
import Idealize.ShloMosaic.Lib.StableHlo.Predicate
import Idealize.ShloMosaic.Lib.ReduceAll

/-!
  What the precondition says of the source indices: every `edge_index[0][e]`, read the NumPy way, lies in
  `0 … 99999` — the last conjunct of the printed precondition, read at an edge.
-/

noncomputable section

namespace Cert.PreFacts

open Idealize.ShloMosaic Idealize.ShloMosaic.TcCoe Idealize.SL.Sem

theorem src_inRange (m : (ℓ : Loc Cert.KernelIdeal.nD Cert.KernelIdeal.τ Cert.KernelIdeal.sig) → Buf (Elt Ideal) ℓ)
    (hpre : Cert.Pre_KernelIdeal m) (c : Dev Cert.KernelIdeal.nD) (e : Cert.KernelIdeal.S1600000x1.Idx) :
    Cert.Layers.inRange (F := Ideal)
      (Cert.ReferenceIdeal.Read.val_main_v1 (F := Ideal) (m ((c.tc : Thread Cert.KernelIdeal.nD Cert.KernelIdeal.τ).loc Cert.KernelIdeal.main_arg1))) e = 1#1 := by
  -- the precondition at its one index; its last conjunct; that conjunct at every edge
  haveI : Subsingleton Cert.Pre_finite_inputs.S_.Idx := ⟨fun a b => funext fun d => d.elim0⟩
  have h := congrFun (hpre c) ValueIdx.ix0
  dsimp only [Cert.Pre_finite_inputs.fn, Cert.Pre_finite_inputs.fn_part1, Cert.Pre_finite_inputs.fn_part2, Cert.Pre_finite_inputs.fn_part3] at h
  have h56 := (IntOp.andi_eq_one.1 h).2
  clear h
  have hj := fun j => Host.reduce_andi_all _ _ _ _ _ h56 j
  clear h56
  -- the column entry `e` of the [1600000, 1] index array is the entry `e 0` of the [1600000] one
  have hrow : ∀ (hb : Cert.KernelIdeal.S1600000.BroadcastsInDim Cert.KernelIdeal.S1600000x1 ![0])
      (y : Cert.KernelIdeal.S1600000.Idx → BitVec 32),
      broadcastInDim Cert.KernelIdeal.S1600000x1 ![0] hb y e = y (ValueIdx.ix1 ⟨(e 0).val, (e 0).isLt⟩) :=
    fun hb y => broadcastInDim_apply _ hb y e _ (fun a => match a with
      | ⟨0, _⟩ => by show (e 0).val = if (1600000 : Nat) = 1 then 0 else (e 0).val; rw [if_neg (by decide)])
  have hje := hj (ValueIdx.ix1 ⟨(e 0).val, (e 0).isLt⟩)
  clear hj
  -- the mask entry is the same two comparisons of the same word against the same bounds
  unfold Cert.Layers.inRange Cert.Layers.rowIdx
  show IntOp.andi (IntOp.cmpi .sge (broadcastInDim _ _ _ _ e) _) (IntOp.cmpi .sle (broadcastInDim _ _ _ _ e) _) = 1#1
  rw [hrow]
  exact hje

end Cert.PreFacts

end
-- ==== Proof.Round0.lean ====
import proofs.«403677_j16363825398111_1_alg».proof.Proof.ChainBase
import proofs.«403677_j16363825398111_1_alg».proof.Proof.Region1
import proofs.«403677_j16363825398111_1_alg».proof.Proof.Region2
import proofs.«403677_j16363825398111_1_alg».proof.Proof.Take
import proofs.«403677_j16363825398111_1_alg».proof.Proof.PreFacts

/-!
  The kernel program's buffers along its run, round 0 of the message passing: from the embedded node table
  `s₀` the messages `relu (s₀ · W_msg[0] + b_msg[0])` (a pallas_call), their rows gathered along the edges' sources
  (where every source index addresses a row the kernel's masked take is the plain gather), the segment sum over the
  edges' destinations, and the update `s₁ = s₀ + relu (agg · W_upd[0] + b_upd[0])` (a pallas_call): each buffer holds the
  reference's stage of the same arguments.
-/

set_option maxRecDepth 16384

noncomputable section

namespace Cert.KernelIdeal.Chain

open Cert.KernelIdeal Cert.KernelIdeal.Gen Idealize.ShloMosaic Idealize.ShloMosaic.TcCoe Idealize.SL.Sem
open Idealize.ShloMosaic.Pipeline (Dat)
open Cert.ReferenceIdeal.Read

variable (m : (ℓ : Loc nD τ sig) → Buf (Elt Ideal) ℓ) (ρ : Dev nD → PrngReg) (c : Dev nD)

set_option hygiene false in
local macro "a0" : term => `(m ((c.tc : Thread nD τ).loc main_arg0))
set_option hygiene false in
local macro "a1" : term => `(m ((c.tc : Thread nD τ).loc main_arg1))
set_option hygiene false in
local macro "a3" : term => `(m ((c.tc : Thread nD τ).loc main_arg3))
set_option hygiene false in
local macro "a4" : term => `(m ((c.tc : Thread nD τ).loc main_arg4))
set_option hygiene false in
local macro "a5" : term => `(m ((c.tc : Thread nD τ).loc main_arg5))
set_option hygiene false in
local macro "a6" : term => `(m ((c.tc : Thread nD τ).loc main_arg6))
set_option hygiene false in
local macro "a7" : term => `(m ((c.tc : Thread nD τ).loc main_arg7))
set_option hygiene false in
local macro "a8" : term => `(m ((c.tc : Thread nD τ).loc main_arg8))

/-- The round's message weight: the slice of the stacked weights, as the reference takes it. -/
theorem r0_msgW : W3 m ρ c (Proc.devRef .tc main_v6) = val_main_v10 (F := Ideal) a5 := by
  refine (HostRead.msgW0 (W2 m ρ c)).trans ?_
  rw [argAt2 m ρ c main_arg5 (by decide) (by decide)]
theorem r0_msgB : W3 m ρ c (Proc.devRef .tc main_v8) = val_main_v13 (F := Ideal) a6 := by
  refine (HostRead.msgB0 (W2 m ρ c)).trans ?_
  rw [argAt2 m ρ c main_arg6 (by decide) (by decide)]

/-- The messages: the layer on the node table. -/
theorem r0_msg : W4 m ρ c (Proc.devRef .tc main_v9) = val_main_v17 (F := Ideal) a0 a3 a4 a5 a6 := by
  refine ((W4_arr m ρ c 3).trans (RegionVal.value1 (V3 m ρ) c)).trans ?_
  rw [show V3 m ρ c main_v4 = val_main_v8 (F := Ideal) a0 a3 a4 from (keep3 m ρ c main_v4 (by decide)).trans (st0 m ρ c),
    show V3 m ρ c main_v6 = val_main_v10 (F := Ideal) a5 from r0_msgW m ρ c,
    show V3 m ρ c main_v8 = val_main_v13 (F := Ideal) a6 from r0_msgB m ρ c]
  exact (Cert.RefStage.msg0_eq _ _ _ _ _).symm

/-- The gathered messages: under the precondition the masked take is the gather. -/
theorem r0_take (hpre : Cert.Pre_KernelIdeal m) : W5 m ρ c (Proc.devRef .tc main_v10) = val_main_v24 (F := Ideal) a0 a1 a3 a4 a5 a6 := by
  refine (HostRead.take0 (W4 m ρ c)).trans ?_
  rw [r0_msg m ρ c, srcAt4 m ρ c, Cert.Layers.takeMasked_eq_gatherRows _ _ (Cert.PreFacts.src_inRange m hpre c)]
  exact (Cert.Layers.gath0_eq _ _ _ _ _ _).symm

/-- The aggregated messages. -/
theorem r0_agg (hpre : Cert.Pre_KernelIdeal m) : W6 m ρ c (Proc.devRef .tc main_v13) = val_main_v27 (F := Ideal) a0 a1 a3 a4 a5 a6 := by
  refine (HostRead.agg0 (W5 m ρ c)).trans ?_
  rw [r0_take m ρ c hpre, dstAt5 m ρ c]
  exact (Cert.Layers.agg0_eq _ _ _ _ _ _).symm
theorem r0_updW : W6 m ρ c (Proc.devRef .tc main_v15) = val_main_v29 (F := Ideal) a7 := by
  refine (HostRead.updW0 (W5 m ρ c)).trans ?_
  rw [argAt5 m ρ c main_arg7 (by decide) (by decide)]
theorem r0_updB : W6 m ρ c (Proc.devRef .tc main_v17) = val_main_v32 (F := Ideal) a8 := by
  refine (HostRead.updB0 (W5 m ρ c)).trans ?_
  rw [argAt5 m ρ c main_arg8 (by decide) (by decide)]

/-- The node table as the update finds it: carried from the first pallas_call across the segments in between (the message
    pallas_call stages it as an input and does not write it back). -/
theorem r0_res : W6 m ρ c (Proc.devRef .tc main_v4) = val_main_v8 (F := Ideal) a0 a3 a4 :=
  (keep6 m ρ c main_v4 (by decide)).trans ((keep5 m ρ c main_v4 (by decide)).trans ((keep4_in m ρ c 0 rfl).trans
    ((keep3 m ρ c main_v4 (by decide)).trans (st0 m ρ c))))

/-- The updated node table. -/
theorem r0_st (hpre : Cert.Pre_KernelIdeal m) : W7 m ρ c (Proc.devRef .tc main_v18) = val_main_v37 (F := Ideal) a0 a1 a3 a4 a5 a6 a7 a8 := by
  refine ((W7_arr m ρ c 4).trans (RegionVal.value2 (V6 m ρ) c)).trans ?_
  rw [show V6 m ρ c main_v13 = val_main_v27 (F := Ideal) a0 a1 a3 a4 a5 a6 from r0_agg m ρ c hpre,
    show V6 m ρ c main_v15 = val_main_v29 (F := Ideal) a7 from r0_updW m ρ c,
    show V6 m ρ c main_v17 = val_main_v32 (F := Ideal) a8 from r0_updB m ρ c,
    show V6 m ρ c main_v4 = val_main_v8 (F := Ideal) a0 a3 a4 from r0_res m ρ c]
  exact (Cert.RefStage.st1_eq _ _ _ _ _ _ _ _).symm

end Cert.KernelIdeal.Chain

end
-- ==== Proof.Region3.lean ====
import proofs.«403677_j16363825398111_1_alg».proof.Proof.Gen.KernelIdeal.Frame
import proofs.«403677_j16363825398111_1_alg».proof.Proof.RefStage
import proofs.«403677_j16363825398111_1_alg».proof.Proof.BlockLayer
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionVal

open Cert.KernelIdeal Cert.KernelIdeal.Gen Idealize.ShloMosaic Idealize.ShloMosaic.TcCoe Idealize.SL.Sem
open Idealize.ShloMosaic.Pipeline (Dat)

namespace R3
open Idealize.ShloMosaic.ValueIdx Cert.KernelIdeal.BlockLayer

/-- The zero offsets of a rank-2 block, as the constant function. -/
theorem hz2 : (![0, 0] : Fin 2 → Nat) = fun _ => 0 := funext fun a => by fin_cases a <;> rfl
/-- The zero offset of a rank-1 block, as the constant function. -/
theorem hz1 : (![0] : Fin 1 → Nat) = fun _ => 0 := funext fun a => by fin_cases a <;> rfl

/-- The index maps over the 20 grid points: the row block of the input and the row block of the output move together
    along axis 0 and sit at block 0 on axis 1; the weight and the bias stay at block 0; the output's row-block index is
    at most 19. -/
theorem idx_facts : ∀ t : Fin cfg3.N,
    win3_0.index t (0 : Fin 2) = win3_3.index t (0 : Fin 2)
    ∧ win3_0.index t (1 : Fin 2) = 0
    ∧ win3_3.index t (1 : Fin 2) = 0
    ∧ win3_1.index t (0 : Fin 2) = 0
    ∧ win3_1.index t (1 : Fin 2) = 0
    ∧ win3_2.index t (0 : Fin 1) = 0
    ∧ win3_3.index t (0 : Fin 2) ≤ 19 :=
  (by decide +kernel : ∀ t : Fin grid3.N, _)

/-- Every one of the 20 row blocks of the output is some grid point's. -/
theorem idx_onto : ∀ r : Fin 20, ∃ t : Fin cfg3.N, win3_3.index t = ![r.val, 0] :=
  (by decide +kernel : ∀ r : Fin 20, ∃ t : Fin grid3.N, win3_3.index t = ![r.val, 0])

/-- One entry: if row `p` of the block `x` is row `i 0` of the table `X`, column `q` of `w` is column `i 1` of `W` and
    `b q` is `B (i 1)`, then `max (∑ₖ x p k · w k q + b q) 0` is the reference's layer `relu (X · W + B)` at `i`. -/
theorem entry_eq (X : (⟨Cert.ReferenceIdeal.S100000x128, .f32⟩ : BufTy).Contents (Elt Ideal))
    (W : (⟨Cert.ReferenceIdeal.S128x128, .f32⟩ : BufTy).Contents (Elt Ideal))
    (B : (⟨Cert.ReferenceIdeal.S128, .f32⟩ : BufTy).Contents (Elt Ideal))
    (x : Vec Ideal S5000x128 .f32) (w : Vec Ideal S128x128 .f32) (b : Vec Ideal S128 .f32)
    (i : Cert.ReferenceIdeal.S100000x128.Idx) (p : Fin 5000) (q : Fin 128)
    (hx : ∀ k : Fin 128, x (ix2 p k) = X (Cert.ReferenceIdeal.Read.lidx_main_v4 i k))
    (hw : ∀ k : Fin 128, w (ix2 k q) = W (Cert.ReferenceIdeal.Read.ridx_main_v4 i k))
    (hb : b (ix1 q) = B (Cert.ReferenceIdeal.Read.idx_main_v5 (Cert.ReferenceIdeal.Read.idx_main_v6 i))) :
    linReluAt x w b p q = Cert.ReferenceIdeal.Read.val_main_v8 (F := Ideal) X W B i := by
  rw [Cert.RefStage.linRelu_apply]
  unfold linReluAt
  rw [hb, Finset.sum_congr rfl (fun k _ => by rw [hx k, hw k])]

variable (V : (c : Dev nD) → (b : Ref sig .tc) → Buf (Elt Ideal) ((c : Thread nD τ).loc b))

/-- What grid point `t` writes back is block `t` of the reference's layer of the three arrays as the region finds them. -/
theorem flushed_eq (c : Dev nD) (t : Fin cfg3.N) :
    (dat3 (F := Ideal) V c).flushed 3 t = ((cfg3.win 3).blk t).view.read (Elt Ideal)
      (Cert.ReferenceIdeal.Read.val_main_v8 (F := Ideal) (V c main_v18) (V c main_v20) (V c main_v22)) := by
  show (cfg3.win 3).cut (grid3.coords t) ((dat3 V c).after 3 t) = _
  rw [after3_3]
  unfold out3_3
  rw [View.canon_unit_zero hz2]
  simp only [View.ld_unit_zero (S := S5000x128) hz2, View.ld_unit_zero (S := S128x128) hz2, View.ld_unit_zero (S := S128) hz1]
  obtain ⟨e0, e1, e2, e3, e4, e5, e6⟩ := idx_facts t
  funext j
  obtain ⟨p, q, rfl⟩ : ∃ (p : Fin 5000) (q : Fin 128), j = ix2 p q := ⟨j 0, j 1, eq_ix2 j⟩
  show k3_pay1 (F := Ideal) (iblk3 V c 0 t) (iblk3 V c 1 t) (iblk3 V c 2 t) (ix2 p q)
    = Cert.ReferenceIdeal.Read.val_main_v8 (F := Ideal) (V c main_v18) (V c main_v20) (V c main_v22)
        (((cfg3.win 3).blk t).view.emb (ix2 p q))
  refine (pay3_apply (iblk3 V c 0 t) (iblk3 V c 1 t) (iblk3 V c 2 t) p q).trans ?_
  refine entry_eq (V c main_v18) (V c main_v20) (V c main_v22) (iblk3 V c 0 t) (iblk3 V c 1 t) (iblk3 V c 2 t)
    (((cfg3.win 3).blk t).view.emb (ix2 p q)) p q (fun k => ?_) (fun k => ?_) ?_
  · show V c main_v18 (((cfg3.win 0).blk t).view.emb (ix2 p k)) = V c main_v18 _
    refine congrArg (V c main_v18) (funext fun a => Fin.ext ?_)
    match a with
    | ⟨0, _⟩ =>
      show win3_0.index t (0 : Fin 2) * 5000 + 1 * p.val = win3_3.index t (0 : Fin 2) * 5000 + 1 * p.val
      omega
    | ⟨1, _⟩ =>
      show win3_0.index t (1 : Fin 2) * 128 + 1 * k.val = k.val
      omega
  · show V c main_v20 (((cfg3.win 1).blk t).view.emb (ix2 k q)) = V c main_v20 _
    refine congrArg (V c main_v20) (funext fun a => Fin.ext ?_)
    match a with
    | ⟨0, _⟩ =>
      show win3_1.index t (0 : Fin 2) * 128 + 1 * k.val = k.val
      omega
    | ⟨1, _⟩ =>
      show win3_1.index t (1 : Fin 2) * 128 + 1 * q.val = win3_3.index t (1 : Fin 2) * 128 + 1 * q.val
      omega
  · show V c main_v22 (((cfg3.win 2).blk t).view.emb (ix1 q)) = V c main_v22 _
    refine congrArg (V c main_v22) (funext fun a => Fin.ext ?_)
    match a with
    | ⟨0, _⟩ =>
      show win3_2.index t (0 : Fin 1) * 128 + 1 * q.val = win3_3.index t (1 : Fin 2) * 128 + 1 * q.val
      omega

/-- An index of the table is in point `t`'s block iff each coordinate is in the block's range on its axis. -/
theorem mem_blk (t : Fin cfg3.N) (i : S100000x128.Idx) :
    i ∈ ((cfg3.win 3).blk t).view.set ↔ ∀ a : Fin 2, win3_3.index t a * S5000x128.size a ≤ (i a).val
      ∧ (i a).val < win3_3.index t a * S5000x128.size a + S5000x128.size a := by
  show i ∈ ((View.whole main_v23).slice (win3_3.rect t)).set ↔ _
  rw [View.set_slice_whole, Rect.mem_set_unit]
  exact Iff.rfl

/-- Every index of the table is in some point's block: row `r` is in row block `r / 5000`. -/
theorem cover (i : S100000x128.Idx) :
    ∃ t : Fin cfg3.N, (cfg3.win 3).flush t = true ∧ i ∈ ((cfg3.win 3).blk t).view.set := by
  have hi0 : (i 0).val < 100000 := (i 0).isLt
  have hi1 : (i 1).val < 128 := (i 1).isLt
  obtain ⟨t, ht⟩ := idx_onto ⟨(i 0).val / 5000, by omega⟩
  have q0 : win3_3.index t (0 : Fin 2) = (i 0).val / 5000 := congrFun ht 0
  have q1 : win3_3.index t (1 : Fin 2) = 0 := congrFun ht 1
  refine ⟨t, flush3_3 t, ?_⟩
  rw [mem_blk]
  intro a
  match a with
  | ⟨0, _⟩ =>
    show win3_3.index t (0 : Fin 2) * 5000 ≤ (i 0).val ∧ (i 0).val < win3_3.index t (0 : Fin 2) * 5000 + 5000
    omega
  | ⟨1, _⟩ =>
    show win3_3.index t (1 : Fin 2) * 128 ≤ (i 1).val ∧ (i 1).val < win3_3.index t (1 : Fin 2) * 128 + 128
    omega

end R3

variable (V : (c : Dev nD) → (b : Ref sig .tc) → Buf (Elt Ideal) ((c : Thread nD τ).loc b))

theorem value3 (c : Dev nD) :
    (dat3 (F := Ideal) V c).arrAt 3 cfg3.N
      = Cert.ReferenceIdeal.Read.val_main_v8 (F := Ideal) (V c main_v18) (V c main_v20) (V c main_v22) :=
  (dat3 (F := Ideal) V c).arrAt_eq_of_cover 3 _ (fun t _ => R3.flushed_eq V c t) R3.cover

end Cert.KernelIdeal.RegionVal

end
-- ==== Proof.Region4.lean ====
import proofs.«403677_j16363825398111_1_alg».proof.Proof.Gen.KernelIdeal.Frame
import proofs.«403677_j16363825398111_1_alg».proof.Proof.RefStage
import proofs.«403677_j16363825398111_1_alg».proof.Proof.BlockLayer
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionVal

open Cert.KernelIdeal Cert.KernelIdeal.Gen Idealize.ShloMosaic Idealize.ShloMosaic.TcCoe Idealize.SL.Sem
open Idealize.ShloMosaic.Pipeline (Dat)

namespace R4

theorem hz : (![0, 0] : Fin 2 → Nat) = fun _ => 0 := funext fun a => by fin_cases a <;> rfl
theorem hz1 : (![0] : Fin 1 → Nat) = fun _ => 0 := funext fun a => by fin_cases a <;> rfl

/-- The index maps over the grid: the row blocks move with the grid point, the weight and the bias stay. -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 1) = 0
    ∧ win4_3.index t (0 : Fin 2) = t.val ∧ win4_3.index t (1 : Fin 2) = 0
    ∧ win4_4.index t (0 : Fin 2) = t.val ∧ win4_4.index t (1 : Fin 2) = 0 ∧ t.val ≤ 19 :=
  (by decide +kernel : ∀ t : Fin grid4.N, _)

theorem idx_onto : ∀ q0 : Fin 20, ∃ t : Fin cfg4.N, win4_4.index t = ![q0.val, 0] :=
  (by decide +kernel : ∀ q0 : Fin 20, ∃ t : Fin grid4.N, win4_4.index t = ![q0.val, 0])

open Cert.KernelIdeal.BlockLayer Idealize.ShloMosaic.ValueIdx in
/-- One entry: the residual entry plus the layer's entry, read off blocks whose entries are the arrays' at the matching indices. -/
theorem entry_eq (x : Vec Ideal S5000x128 .f32) (w : Vec Ideal S128x128 .f32) (b : Vec Ideal S128 .f32) (res : Vec Ideal S5000x128 .f32)
    (X R : (⟨Cert.ReferenceIdeal.S100000x128, .f32⟩ : BufTy).Contents (Elt Ideal))
    (W : (⟨Cert.ReferenceIdeal.S128x128, .f32⟩ : BufTy).Contents (Elt Ideal))
    (B : (⟨Cert.ReferenceIdeal.S128, .f32⟩ : BufTy).Contents (Elt Ideal))
    (p : Fin 5000) (q : Fin 128) (i : Cert.ReferenceIdeal.S100000x128.Idx)
    (hx : ∀ k : Fin 128, x (ix2 p k) = X (Cert.ReferenceIdeal.Read.lidx_main_v4 i k))
    (hw : ∀ k : Fin 128, w (ix2 k q) = W (Cert.ReferenceIdeal.Read.ridx_main_v4 i k))
    (hb : b (ix1 q) = B (Cert.ReferenceIdeal.Read.idx_main_v5 (Cert.ReferenceIdeal.Read.idx_main_v6 i)))
    (hr : res (ix2 p q) = R i) :
    res (ix2 p q) + linReluAt x w b p q
      = FloatOps.addf (F := Ideal) (φ := .f32) (R i) (Cert.ReferenceIdeal.Read.val_main_v8 (F := Ideal) X W B i) := by
  rw [Cert.RefStage.linRelu_apply, hr]
  unfold linReluAt
  rw [hb, Finset.sum_congr rfl fun k _ => by rw [hx k, hw k]]
  rfl

end R4

variable (V : (c : Dev nD) → (b : Ref sig .tc) → Buf (Elt Ideal) ((c : Thread nD τ).loc b))

namespace R4

open Cert.KernelIdeal.BlockLayer Idealize.ShloMosaic.ValueIdx in
/-- What grid point `t` writes back is block `t` of the residual plus the layer of the three other arrays. -/
theorem flushed_eq (c : Dev nD) (t : Fin cfg4.N) :
    (dat4 (F := Ideal) V c).flushed 4 t = ((cfg4.win 4).blk t).view.read (Elt Ideal)
      (addf (F := Ideal) (s := S100000x128) (φ := .f32) (V c main_v18 : (⟨S100000x128, .f32⟩ : BufTy).Contents (Elt Ideal))
          (Cert.ReferenceIdeal.Read.val_main_v8 (F := Ideal) (V c main_v27) (V c main_v29) (V c main_v31)) :
          (⟨S100000x128, .f32⟩ : BufTy).Contents (Elt Ideal)) := by
  show (cfg4.win 4).cut (grid4.coords t) ((dat4 (F := Ideal) V c).after 4 t) = _
  rw [after4_4]
  unfold out4_4
  rw [View.canon_unit_zero hz]
  simp only [View.ld_unit_zero (S := S5000x128) hz, View.ld_unit_zero (S := S128x128) hz, View.ld_unit_zero (S := S128) hz1]
  obtain ⟨e00, e01, e10, e11, e20, e30, e31, e40, e41, ht⟩ := idx_facts t
  funext j
  obtain ⟨p, q, rfl⟩ : ∃ (p : Fin 5000) (q : Fin 128), j = ix2 p q := ⟨j 0, j 1, eq_ix2 j⟩
  show k4_pay1 (F := Ideal) (iblk4 V c 0 t) (iblk4 V c 1 t) (iblk4 V c 2 t) (iblk4 V c 3 t) (ix2 p q)
     = FloatOps.addf (F := Ideal) (φ := .f32) ((V c main_v18 : (⟨S100000x128, .f32⟩ : BufTy).Contents (Elt Ideal)) (((cfg4.win 4).blk t).view.emb (ix2 p q)))
        (Cert.ReferenceIdeal.Read.val_main_v8 (F := Ideal) (V c main_v27) (V c main_v29) (V c main_v31) (((cfg4.win 4).blk t).view.emb (ix2 p q)))
  refine (pay4_apply (iblk4 V c 0 t) (iblk4 V c 1 t) (iblk4 V c 2 t) p q (iblk4 V c 3 t)).trans ?_
  refine entry_eq (iblk4 V c 0 t) (iblk4 V c 1 t) (iblk4 V c 2 t) (iblk4 V c 3 t) (V c main_v27) (V c main_v18) (V c main_v29) (V c main_v31) p q (((cfg4.win 4).blk t).view.emb (ix2 p q)) ?_ ?_ ?_ ?_
  · intro k
    show (V c main_v27 : (⟨S100000x128, .f32⟩ : BufTy).Contents (Elt Ideal)) (((cfg4.win 0).blk t).view.emb (ix2 p k)) = _
    refine congrArg _ (funext fun a => Fin.ext ?_)
    match a with
    | ⟨0, _⟩ => show win4_0.index t (0 : Fin 2) * 5000 + 1 * p.val = win4_4.index t (0 : Fin 2) * 5000 + 1 * p.val; omega
    | ⟨1, _⟩ => show win4_0.index t (1 : Fin 2) * 128 + 1 * k.val = k.val; omega
  · intro k
    show (V c main_v29 : (⟨S128x128, .f32⟩ : BufTy).Contents (Elt Ideal)) (((cfg4.win 1).blk t).view.emb (ix2 k q)) = _
    refine congrArg _ (funext fun a => Fin.ext ?_)
    match a with
    | ⟨0, _⟩ => show win4_1.index t (0 : Fin 2) * 128 + 1 * k.val = k.val; omega
    | ⟨1, _⟩ => show win4_1.index t (1 : Fin 2) * 128 + 1 * q.val = win4_4.index t (1 : Fin 2) * 128 + 1 * q.val; omega
  · show (V c main_v31 : (⟨S128, .f32⟩ : BufTy).Contents (Elt Ideal)) (((cfg4.win 2).blk t).view.emb (ix1 q)) = _
    refine congrArg _ (funext fun a => Fin.ext ?_)
    match a with
    | ⟨0, _⟩ => show win4_2.index t (0 : Fin 1) * 128 + 1 * q.val = win4_4.index t (1 : Fin 2) * 128 + 1 * q.val; omega
  · show (V c main_v18 : (⟨S100000x128, .f32⟩ : BufTy).Contents (Elt Ideal)) (((cfg4.win 3).blk t).view.emb (ix2 p q)) = _
    refine congrArg _ (funext fun a => Fin.ext ?_)
    match a with
    | ⟨0, _⟩ => show win4_3.index t (0 : Fin 2) * 5000 + 1 * p.val = win4_4.index t (0 : Fin 2) * 5000 + 1 * p.val; omega
    | ⟨1, _⟩ => show win4_3.index t (1 : Fin 2) * 128 + 1 * q.val = win4_4.index t (1 : Fin 2) * 128 + 1 * q.val; omega

/-- An index of the array is in point `t`'s block iff each coordinate is in the block's range on its axis. -/
theorem mem_blk (t : Fin cfg4.N) (i : S100000x128.Idx) :
    i ∈ ((cfg4.win 4).blk t).view.set ↔ ∀ a : Fin 2, win4_4.index t a * S5000x128.size a ≤ (i a).val ∧ (i a).val < win4_4.index t a * S5000x128.size a + S5000x128.size a := by
  show i ∈ ((View.whole (Pipeline.arrRef spec4 4)).slice (win4_4.rect t)).set ↔ _
  rw [View.set_slice_whole, Rect.mem_set_unit]
  exact Iff.rfl

/-- Every index of the array is in some point's block: row `r` is in the block of point `r / 5000`. -/
theorem cover (i : S100000x128.Idx) : ∃ t : Fin cfg4.N, (cfg4.win 4).flush t = true ∧ i ∈ ((cfg4.win 4).blk t).view.set := by
  have hi0 : (i 0).val < 100000 := (i 0).isLt
  have hi1 : (i 1).val < 128 := (i 1).isLt
  obtain ⟨t, ht⟩ := idx_onto ⟨(i 0).val / 5000, by omega⟩
  have q0 : win4_4.index t (0 : Fin 2) = (i 0).val / 5000 := congrFun ht 0
  have q1 : win4_4.index t (1 : Fin 2) = 0 := congrFun ht 1
  refine ⟨t, flush4_4 t, ?_⟩
  rw [mem_blk]
  intro a
  match a with
  | ⟨0, _⟩ => show win4_4.index t (0 : Fin 2) * 5000 ≤ (i 0).val ∧ (i 0).val < win4_4.index t (0 : Fin 2) * 5000 + 5000; omega
  | ⟨1, _⟩ => show win4_4.index t (1 : Fin 2) * 128 ≤ (i 1).val ∧ (i 1).val < win4_4.index t (1 : Fin 2) * 128 + 128; omega

end R4

theorem value4 (c : Dev nD) :
    (dat4 (F := Ideal) V c).arrAt 4 cfg4.N
      = (addf (F := Ideal) (s := S100000x128) (φ := .f32) (V c main_v18 : (⟨S100000x128, .f32⟩ : BufTy).Contents (Elt Ideal))
          (Cert.ReferenceIdeal.Read.val_main_v8 (F := Ideal) (V c main_v27) (V c main_v29) (V c main_v31)) :
          (⟨S100000x128, .f32⟩ : BufTy).Contents (Elt Ideal)) :=
  (dat4 (F := Ideal) V c).arrAt_eq_of_cover 4 _ (fun t _ => R4.flushed_eq V c t) R4.cover

end Cert.KernelIdeal.RegionVal

end
-- ==== Proof.Round1.lean ====
import proofs.«403677_j16363825398111_1_alg».proof.Proof.Round0
import proofs.«403677_j16363825398111_1_alg».proof.Proof.Region3
import proofs.«403677_j16363825398111_1_alg».proof.Proof.Region4

/-!
  The kernel program's buffers along its run, the second round of the message passing: from the node table `s` the messages
  `relu (s · W_msg[1] + b_msg[1])` (a pallas_call), their rows gathered along the edges' sources (under the precondition
  the kernel's masked take is the plain gather), the segment sum over the edges' destinations, and the update
  `s + relu (agg · W_upd[1] + b_upd[1])` (a pallas_call): each buffer holds the reference's stage of the same arguments.
-/

set_option maxRecDepth 16384

noncomputable section

namespace Cert.KernelIdeal.Chain

open Cert.KernelIdeal Cert.KernelIdeal.Gen Idealize.ShloMosaic Idealize.ShloMosaic.TcCoe Idealize.SL.Sem
open Idealize.ShloMosaic.Pipeline (Dat)
open Cert.ReferenceIdeal.Read

variable (m : (ℓ : Loc nD τ sig) → Buf (Elt Ideal) ℓ) (ρ : Dev nD → PrngReg) (c : Dev nD)

set_option hygiene false in
local macro "a0" : term => `(m ((c.tc : Thread nD τ).loc main_arg0))
set_option hygiene false in
local macro "a1" : term => `(m ((c.tc : Thread nD τ).loc main_arg1))
set_option hygiene false in
local macro "a3" : term => `(m ((c.tc : Thread nD τ).loc main_arg3))
set_option hygiene false in
local macro "a4" : term => `(m ((c.tc : Thread nD τ).loc main_arg4))
set_option hygiene false in
local macro "a5" : term => `(m ((c.tc : Thread nD τ).loc main_arg5))
set_option hygiene false in
local macro "a6" : term => `(m ((c.tc : Thread nD τ).loc main_arg6))
set_option hygiene false in
local macro "a7" : term => `(m ((c.tc : Thread nD τ).loc main_arg7))
set_option hygiene false in
local macro "a8" : term => `(m ((c.tc : Thread nD τ).loc main_arg8))

/-- The round's message weight and bias: the slices of the stacked arguments, as the reference takes them. -/
theorem r1_msgW : W8 m ρ c (Proc.devRef .tc main_v20) = val_main_v39 (F := Ideal) a5 := by
  refine (HostRead.msgW1 (W7 m ρ c)).trans ?_
  rw [argAt7 m ρ c main_arg5 (by decide) (by decide)]
theorem r1_msgB : W8 m ρ c (Proc.devRef .tc main_v22) = val_main_v42 (F := Ideal) a6 := by
  refine (HostRead.msgB1 (W7 m ρ c)).trans ?_
  rw [argAt7 m ρ c main_arg6 (by decide) (by decide)]

/-- The messages: the layer on the node table. -/
theorem r1_msg (hpre : Cert.Pre_KernelIdeal m) : W9 m ρ c (Proc.devRef .tc main_v23) = val_main_v46 (F := Ideal) a0 a1 a3 a4 a5 a6 a7 a8 := by
  refine ((W9_arr m ρ c 3).trans (RegionVal.value3 (V8 m ρ) c)).trans ?_
  rw [show V8 m ρ c main_v18 = val_main_v37 (F := Ideal) a0 a1 a3 a4 a5 a6 a7 a8 from (keep8 m ρ c main_v18 (by decide)).trans (r0_st m ρ c hpre),
    show V8 m ρ c main_v20 = val_main_v39 (F := Ideal) a5 from r1_msgW m ρ c,
    show V8 m ρ c main_v22 = val_main_v42 (F := Ideal) a6 from r1_msgB m ρ c]
  exact (Cert.RefStage.msg1_eq _ _ _ _ _ _ _ _).symm

/-- The gathered messages: under the precondition the masked take is the gather. -/
theorem r1_take (hpre : Cert.Pre_KernelIdeal m) : W10 m ρ c (Proc.devRef .tc main_v24) = val_main_v53 (F := Ideal) a0 a1 a3 a4 a5 a6 a7 a8 := by
  refine (HostRead.take1 (W9 m ρ c)).trans ?_
  rw [r1_msg m ρ c hpre, srcAt9 m ρ c, Cert.Layers.takeMasked_eq_gatherRows _ _ (Cert.PreFacts.src_inRange m hpre c)]
  exact (Cert.Layers.gath1_eq _ _ _ _ _ _ _ _).symm

/-- The aggregated messages. -/
theorem r1_agg (hpre : Cert.Pre_KernelIdeal m) : W11 m ρ c (Proc.devRef .tc main_v27) = val_main_v56 (F := Ideal) a0 a1 a3 a4 a5 a6 a7 a8 := by
  refine (HostRead.agg1 (W10 m ρ c)).trans ?_
  rw [r1_take m ρ c hpre, dstAt10 m ρ c]
  exact (Cert.Layers.agg1_eq _ _ _ _ _ _ _ _).symm
theorem r1_updW : W11 m ρ c (Proc.devRef .tc main_v29) = val_main_v58 (F := Ideal) a7 := by
  refine (HostRead.updW1 (W10 m ρ c)).trans ?_
  rw [argAt10 m ρ c main_arg7 (by decide) (by decide)]
theorem r1_updB : W11 m ρ c (Proc.devRef .tc main_v31) = val_main_v61 (F := Ideal) a8 := by
  refine (HostRead.updB1 (W10 m ρ c)).trans ?_
  rw [argAt10 m ρ c main_arg8 (by decide) (by decide)]

/-- The node table as the update finds it: carried from the previous update across the segments in between (the message
    pallas_call stages it as an input and does not write it back). -/
theorem r1_res (hpre : Cert.Pre_KernelIdeal m) : W11 m ρ c (Proc.devRef .tc main_v18) = val_main_v37 (F := Ideal) a0 a1 a3 a4 a5 a6 a7 a8 :=
  (keep11 m ρ c main_v18 (by decide)).trans ((keep10 m ρ c main_v18 (by decide)).trans ((keep9_in m ρ c 0 rfl).trans
    ((keep8 m ρ c main_v18 (by decide)).trans (r0_st m ρ c hpre))))

/-- The updated node table. -/
theorem r1_st (hpre : Cert.Pre_KernelIdeal m) : W12 m ρ c (Proc.devRef .tc main_v32) = val_main_v66 (F := Ideal) a0 a1 a3 a4 a5 a6 a7 a8 := by
  refine ((W12_arr m ρ c 4).trans (RegionVal.value4 (V11 m ρ) c)).trans ?_
  rw [show V11 m ρ c main_v27 = val_main_v56 (F := Ideal) a0 a1 a3 a4 a5 a6 a7 a8 from r1_agg m ρ c hpre,
    show V11 m ρ c main_v29 = val_main_v58 (F := Ideal) a7 from r1_updW m ρ c,
    show V11 m ρ c main_v31 = val_main_v61 (F := Ideal) a8 from r1_updB m ρ c,
    show V11 m ρ c main_v18 = val_main_v37 (F := Ideal) a0 a1 a3 a4 a5 a6 a7 a8 from r1_res m ρ c hpre]
  exact (Cert.RefStage.st2_eq _ _ _ _ _ _ _ _).symm

end Cert.KernelIdeal.Chain

end
-- ==== Proof.Region5.lean ====
import proofs.«403677_j16363825398111_1_alg».proof.Proof.Gen.KernelIdeal.Frame
import proofs.«403677_j16363825398111_1_alg».proof.Proof.RefStage
import proofs.«403677_j16363825398111_1_alg».proof.Proof.BlockLayer
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionVal

open Cert.KernelIdeal Cert.KernelIdeal.Gen Idealize.ShloMosaic Idealize.ShloMosaic.TcCoe Idealize.SL.Sem
open Idealize.ShloMosaic.Pipeline (Dat)

namespace R5
open Idealize.ShloMosaic.ValueIdx Cert.KernelIdeal.BlockLayer

/-- The zero offsets of a rank-2 block, as the constant function. -/
theorem hz2 : (![0, 0] : Fin 2 → Nat) = fun _ => 0 := funext fun a => by fin_cases a <;> rfl
/-- The zero offset of a rank-1 block, as the constant function. -/
theorem hz1 : (![0] : Fin 1 → Nat) = fun _ => 0 := funext fun a => by fin_cases a <;> rfl

/-- The index maps over the 20 grid points: the row block of the input and the row block of the output move together
    along axis 0 and sit at block 0 on axis 1; the weight and the bias stay at block 0; the output's row-block index is
    at most 19. -/
theorem idx_facts : ∀ t : Fin cfg5.N,
    win5_0.index t (0 : Fin 2) = win5_3.index t (0 : Fin 2)
    ∧ win5_0.index t (1 : Fin 2) = 0
    ∧ win5_3.index t (1 : Fin 2) = 0
    ∧ win5_1.index t (0 : Fin 2) = 0
    ∧ win5_1.index t (1 : Fin 2) = 0
    ∧ win5_2.index t (0 : Fin 1) = 0
    ∧ win5_3.index t (0 : Fin 2) ≤ 19 :=
  (by decide +kernel : ∀ t : Fin grid5.N, _)

/-- Every one of the 20 row blocks of the output is some grid point's. -/
theorem idx_onto : ∀ r : Fin 20, ∃ t : Fin cfg5.N, win5_3.index t = ![r.val, 0] :=
  (by decide +kernel : ∀ r : Fin 20, ∃ t : Fin grid5.N, win5_3.index t = ![r.val, 0])

/-- One entry: if row `p` of the block `x` is row `i 0` of the table `X`, column `q` of `w` is column `i 1` of `W` and
    `b q` is `B (i 1)`, then `max (∑ₖ x p k · w k q + b q) 0` is the reference's layer `relu (X · W + B)` at `i`. -/
theorem entry_eq (X : (⟨Cert.ReferenceIdeal.S100000x128, .f32⟩ : BufTy).Contents (Elt Ideal))
    (W : (⟨Cert.ReferenceIdeal.S128x128, .f32⟩ : BufTy).Contents (Elt Ideal))
    (B : (⟨Cert.ReferenceIdeal.S128, .f32⟩ : BufTy).Contents (Elt Ideal))
    (x : Vec Ideal S5000x128 .f32) (w : Vec Ideal S128x128 .f32) (b : Vec Ideal S128 .f32)
    (i : Cert.ReferenceIdeal.S100000x128.Idx) (p : Fin 5000) (q : Fin 128)
    (hx : ∀ k : Fin 128, x (ix2 p k) = X (Cert.ReferenceIdeal.Read.lidx_main_v4 i k))
    (hw : ∀ k : Fin 128, w (ix2 k q) = W (Cert.ReferenceIdeal.Read.ridx_main_v4 i k))
    (hb : b (ix1 q) = B (Cert.ReferenceIdeal.Read.idx_main_v5 (Cert.ReferenceIdeal.Read.idx_main_v6 i))) :
    linReluAt x w b p q = Cert.ReferenceIdeal.Read.val_main_v8 (F := Ideal) X W B i := by
  rw [Cert.RefStage.linRelu_apply]
  unfold linReluAt
  rw [hb, Finset.sum_congr rfl (fun k _ => by rw [hx k, hw k])]

variable (V : (c : Dev nD) → (b : Ref sig .tc) → Buf (Elt Ideal) ((c : Thread nD τ).loc b))

/-- What grid point `t` writes back is block `t` of the reference's layer of the three arrays as the region finds them. -/
theorem flushed_eq (c : Dev nD) (t : Fin cfg5.N) :
    (dat5 (F := Ideal) V c).flushed 3 t = ((cfg5.win 3).blk t).view.read (Elt Ideal)
      (Cert.ReferenceIdeal.Read.val_main_v8 (F := Ideal) (V c main_v32) (V c main_v34) (V c main_v36)) := by
  show (cfg5.win 3).cut (grid5.coords t) ((dat5 V c).after 3 t) = _
  rw [after5_3]
  unfold out5_3
  rw [View.canon_unit_zero hz2]
  simp only [View.ld_unit_zero (S := S5000x128) hz2, View.ld_unit_zero (S := S128x128) hz2, View.ld_unit_zero (S := S128) hz1]
  obtain ⟨e0, e1, e2, e3, e4, e5, e6⟩ := idx_facts t
  funext j
  obtain ⟨p, q, rfl⟩ : ∃ (p : Fin 5000) (q : Fin 128), j = ix2 p q := ⟨j 0, j 1, eq_ix2 j⟩
  show k5_pay1 (F := Ideal) (iblk5 V c 0 t) (iblk5 V c 1 t) (iblk5 V c 2 t) (ix2 p q)
    = Cert.ReferenceIdeal.Read.val_main_v8 (F := Ideal) (V c main_v32) (V c main_v34) (V c main_v36)
        (((cfg5.win 3).blk t).view.emb (ix2 p q))
  refine (pay5_apply (iblk5 V c 0 t) (iblk5 V c 1 t) (iblk5 V c 2 t) p q).trans ?_
  refine entry_eq (V c main_v32) (V c main_v34) (V c main_v36) (iblk5 V c 0 t) (iblk5 V c 1 t) (iblk5 V c 2 t)
    (((cfg5.win 3).blk t).view.emb (ix2 p q)) p q (fun k => ?_) (fun k => ?_) ?_
  · show V c main_v32 (((cfg5.win 0).blk t).view.emb (ix2 p k)) = V c main_v32 _
    refine congrArg (V c main_v32) (funext fun a => Fin.ext ?_)
    match a with
    | ⟨0, _⟩ =>
      show win5_0.index t (0 : Fin 2) * 5000 + 1 * p.val = win5_3.index t (0 : Fin 2) * 5000 + 1 * p.val
      omega
    | ⟨1, _⟩ =>
      show win5_0.index t (1 : Fin 2) * 128 + 1 * k.val = k.val
      omega
  · show V c main_v34 (((cfg5.win 1).blk t).view.emb (ix2 k q)) = V c main_v34 _
    refine congrArg (V c main_v34) (funext fun a => Fin.ext ?_)
    match a with
    | ⟨0, _⟩ =>
      show win5_1.index t (0 : Fin 2) * 128 + 1 * k.val = k.val
      omega
    | ⟨1, _⟩ =>
      show win5_1.index t (1 : Fin 2) * 128 + 1 * q.val = win5_3.index t (1 : Fin 2) * 128 + 1 * q.val
      omega
  · show V c main_v36 (((cfg5.win 2).blk t).view.emb (ix1 q)) = V c main_v36 _
    refine congrArg (V c main_v36) (funext fun a => Fin.ext ?_)
    match a with
    | ⟨0, _⟩ =>
      show win5_2.index t (0 : Fin 1) * 128 + 1 * q.val = win5_3.index t (1 : Fin 2) * 128 + 1 * q.val
      omega

/-- An index of the table is in point `t`'s block iff each coordinate is in the block's range on its axis. -/
theorem mem_blk (t : Fin cfg5.N) (i : S100000x128.Idx) :
    i ∈ ((cfg5.win 3).blk t).view.set ↔ ∀ a : Fin 2, win5_3.index t a * S5000x128.size a ≤ (i a).val
      ∧ (i a).val < win5_3.index t a * S5000x128.size a + S5000x128.size a := by
  show i ∈ ((View.whole main_v37).slice (win5_3.rect t)).set ↔ _
  rw [View.set_slice_whole, Rect.mem_set_unit]
  exact Iff.rfl

/-- Every index of the table is in some point's block: row `r` is in row block `r / 5000`. -/
theorem cover (i : S100000x128.Idx) :
    ∃ t : Fin cfg5.N, (cfg5.win 3).flush t = true ∧ i ∈ ((cfg5.win 3).blk t).view.set := by
  have hi0 : (i 0).val < 100000 := (i 0).isLt
  have hi1 : (i 1).val < 128 := (i 1).isLt
  obtain ⟨t, ht⟩ := idx_onto ⟨(i 0).val / 5000, by omega⟩
  have q0 : win5_3.index t (0 : Fin 2) = (i 0).val / 5000 := congrFun ht 0
  have q1 : win5_3.index t (1 : Fin 2) = 0 := congrFun ht 1
  refine ⟨t, flush5_3 t, ?_⟩
  rw [mem_blk]
  intro a
  match a with
  | ⟨0, _⟩ =>
    show win5_3.index t (0 : Fin 2) * 5000 ≤ (i 0).val ∧ (i 0).val < win5_3.index t (0 : Fin 2) * 5000 + 5000
    omega
  | ⟨1, _⟩ =>
    show win5_3.index t (1 : Fin 2) * 128 ≤ (i 1).val ∧ (i 1).val < win5_3.index t (1 : Fin 2) * 128 + 128
    omega

end R5

variable (V : (c : Dev nD) → (b : Ref sig .tc) → Buf (Elt Ideal) ((c : Thread nD τ).loc b))

theorem value5 (c : Dev nD) :
    (dat5 (F := Ideal) V c).arrAt 3 cfg5.N
      = Cert.ReferenceIdeal.Read.val_main_v8 (F := Ideal) (V c main_v32) (V c main_v34) (V c main_v36) :=
  (dat5 (F := Ideal) V c).arrAt_eq_of_cover 3 _ (fun t _ => R5.flushed_eq V c t) R5.cover

end Cert.KernelIdeal.RegionVal

end
-- ==== Proof.Region6.lean ====
import proofs.«403677_j16363825398111_1_alg».proof.Proof.Gen.KernelIdeal.Frame
import proofs.«403677_j16363825398111_1_alg».proof.Proof.RefStage
import proofs.«403677_j16363825398111_1_alg».proof.Proof.BlockLayer
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionVal

open Cert.KernelIdeal Cert.KernelIdeal.Gen Idealize.ShloMosaic Idealize.ShloMosaic.TcCoe Idealize.SL.Sem
open Idealize.ShloMosaic.Pipeline (Dat)

namespace R6

theorem hz : (![0, 0] : Fin 2 → Nat) = fun _ => 0 := funext fun a => by fin_cases a <;> rfl
theorem hz1 : (![0] : Fin 1 → Nat) = fun _ => 0 := funext fun a => by fin_cases a <;> rfl

/-- The index maps over the grid: the row blocks move with the grid point, the weight and the bias stay. -/
theorem idx_facts : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 1) = 0
    ∧ win6_3.index t (0 : Fin 2) = t.val ∧ win6_3.index t (1 : Fin 2) = 0
    ∧ win6_4.index t (0 : Fin 2) = t.val ∧ win6_4.index t (1 : Fin 2) = 0 ∧ t.val ≤ 19 :=
  (by decide +kernel : ∀ t : Fin grid6.N, _)

theorem idx_onto : ∀ q0 : Fin 20, ∃ t : Fin cfg6.N, win6_4.index t = ![q0.val, 0] :=
  (by decide +kernel : ∀ q0 : Fin 20, ∃ t : Fin grid6.N, win6_4.index t = ![q0.val, 0])

open Cert.KernelIdeal.BlockLayer Idealize.ShloMosaic.ValueIdx in
/-- One entry: the residual entry plus the layer's entry, read off blocks whose entries are the arrays' at the matching indices. -/
theorem entry_eq (x : Vec Ideal S5000x128 .f32) (w : Vec Ideal S128x128 .f32) (b : Vec Ideal S128 .f32) (res : Vec Ideal S5000x128 .f32)
    (X R : (⟨Cert.ReferenceIdeal.S100000x128, .f32⟩ : BufTy).Contents (Elt Ideal))
    (W : (⟨Cert.ReferenceIdeal.S128x128, .f32⟩ : BufTy).Contents (Elt Ideal))
    (B : (⟨Cert.ReferenceIdeal.S128, .f32⟩ : BufTy).Contents (Elt Ideal))
    (p : Fin 5000) (q : Fin 128) (i : Cert.ReferenceIdeal.S100000x128.Idx)
    (hx : ∀ k : Fin 128, x (ix2 p k) = X (Cert.ReferenceIdeal.Read.lidx_main_v4 i k))
    (hw : ∀ k : Fin 128, w (ix2 k q) = W (Cert.ReferenceIdeal.Read.ridx_main_v4 i k))
    (hb : b (ix1 q) = B (Cert.ReferenceIdeal.Read.idx_main_v5 (Cert.ReferenceIdeal.Read.idx_main_v6 i)))
    (hr : res (ix2 p q) = R i) :
    res (ix2 p q) + linReluAt x w b p q
      = FloatOps.addf (F := Ideal) (φ := .f32) (R i) (Cert.ReferenceIdeal.Read.val_main_v8 (F := Ideal) X W B i) := by
  rw [Cert.RefStage.linRelu_apply, hr]
  unfold linReluAt
  rw [hb, Finset.sum_congr rfl fun k _ => by rw [hx k, hw k]]
  rfl

end R6

variable (V : (c : Dev nD) → (b : Ref sig .tc) → Buf (Elt Ideal) ((c : Thread nD τ).loc b))

namespace R6

open Cert.KernelIdeal.BlockLayer Idealize.ShloMosaic.ValueIdx in
/-- What grid point `t` writes back is block `t` of the residual plus the layer of the three other arrays. -/
theorem flushed_eq (c : Dev nD) (t : Fin cfg6.N) :
    (dat6 (F := Ideal) V c).flushed 4 t = ((cfg6.win 4).blk t).view.read (Elt Ideal)
      (addf (F := Ideal) (s := S100000x128) (φ := .f32) (V c main_v32 : (⟨S100000x128, .f32⟩ : BufTy).Contents (Elt Ideal))
          (Cert.ReferenceIdeal.Read.val_main_v8 (F := Ideal) (V c main_v41) (V c main_v43) (V c main_v45)) :
          (⟨S100000x128, .f32⟩ : BufTy).Contents (Elt Ideal)) := by
  show (cfg6.win 4).cut (grid6.coords t) ((dat6 (F := Ideal) V c).after 4 t) = _
  rw [after6_4]
  unfold out6_4
  rw [View.canon_unit_zero hz]
  simp only [View.ld_unit_zero (S := S5000x128) hz, View.ld_unit_zero (S := S128x128) hz, View.ld_unit_zero (S := S128) hz1]
  obtain ⟨e00, e01, e10, e11, e20, e30, e31, e40, e41, ht⟩ := idx_facts t
  funext j
  obtain ⟨p, q, rfl⟩ : ∃ (p : Fin 5000) (q : Fin 128), j = ix2 p q := ⟨j 0, j 1, eq_ix2 j⟩
  show k6_pay1 (F := Ideal) (iblk6 V c 0 t) (iblk6 V c 1 t) (iblk6 V c 2 t) (iblk6 V c 3 t) (ix2 p q)
     = FloatOps.addf (F := Ideal) (φ := .f32) ((V c main_v32 : (⟨S100000x128, .f32⟩ : BufTy).Contents (Elt Ideal)) (((cfg6.win 4).blk t).view.emb (ix2 p q)))
        (Cert.ReferenceIdeal.Read.val_main_v8 (F := Ideal) (V c main_v41) (V c main_v43) (V c main_v45) (((cfg6.win 4).blk t).view.emb (ix2 p q)))
  refine (pay6_apply (iblk6 V c 0 t) (iblk6 V c 1 t) (iblk6 V c 2 t) p q (iblk6 V c 3 t)).trans ?_
  refine entry_eq (iblk6 V c 0 t) (iblk6 V c 1 t) (iblk6 V c 2 t) (iblk6 V c 3 t) (V c main_v41) (V c main_v32) (V c main_v43) (V c main_v45) p q (((cfg6.win 4).blk t).view.emb (ix2 p q)) ?_ ?_ ?_ ?_
  · intro k
    show (V c main_v41 : (⟨S100000x128, .f32⟩ : BufTy).Contents (Elt Ideal)) (((cfg6.win 0).blk t).view.emb (ix2 p k)) = _
    refine congrArg _ (funext fun a => Fin.ext ?_)
    match a with
    | ⟨0, _⟩ => show win6_0.index t (0 : Fin 2) * 5000 + 1 * p.val = win6_4.index t (0 : Fin 2) * 5000 + 1 * p.val; omega
    | ⟨1, _⟩ => show win6_0.index t (1 : Fin 2) * 128 + 1 * k.val = k.val; omega
  · intro k
    show (V c main_v43 : (⟨S128x128, .f32⟩ : BufTy).Contents (Elt Ideal)) (((cfg6.win 1).blk t).view.emb (ix2 k q)) = _
    refine congrArg _ (funext fun a => Fin.ext ?_)
    match a with
    | ⟨0, _⟩ => show win6_1.index t (0 : Fin 2) * 128 + 1 * k.val = k.val; omega
    | ⟨1, _⟩ => show win6_1.index t (1 : Fin 2) * 128 + 1 * q.val = win6_4.index t (1 : Fin 2) * 128 + 1 * q.val; omega
  · show (V c main_v45 : (⟨S128, .f32⟩ : BufTy).Contents (Elt Ideal)) (((cfg6.win 2).blk t).view.emb (ix1 q)) = _
    refine congrArg _ (funext fun a => Fin.ext ?_)
    match a with
    | ⟨0, _⟩ => show win6_2.index t (0 : Fin 1) * 128 + 1 * q.val = win6_4.index t (1 : Fin 2) * 128 + 1 * q.val; omega
  · show (V c main_v32 : (⟨S100000x128, .f32⟩ : BufTy).Contents (Elt Ideal)) (((cfg6.win 3).blk t).view.emb (ix2 p q)) = _
    refine congrArg _ (funext fun a => Fin.ext ?_)
    match a with
    | ⟨0, _⟩ => show win6_3.index t (0 : Fin 2) * 5000 + 1 * p.val = win6_4.index t (0 : Fin 2) * 5000 + 1 * p.val; omega
    | ⟨1, _⟩ => show win6_3.index t (1 : Fin 2) * 128 + 1 * q.val = win6_4.index t (1 : Fin 2) * 128 + 1 * q.val; omega

/-- An index of the array is in point `t`'s block iff each coordinate is in the block's range on its axis. -/
theorem mem_blk (t : Fin cfg6.N) (i : S100000x128.Idx) :
    i ∈ ((cfg6.win 4).blk t).view.set ↔ ∀ a : Fin 2, win6_4.index t a * S5000x128.size a ≤ (i a).val ∧ (i a).val < win6_4.index t a * S5000x128.size a + S5000x128.size a := by
  show i ∈ ((View.whole (Pipeline.arrRef spec6 4)).slice (win6_4.rect t)).set ↔ _
  rw [View.set_slice_whole, Rect.mem_set_unit]
  exact Iff.rfl

/-- Every index of the array is in some point's block: row `r` is in the block of point `r / 5000`. -/
theorem cover (i : S100000x128.Idx) : ∃ t : Fin cfg6.N, (cfg6.win 4).flush t = true ∧ i ∈ ((cfg6.win 4).blk t).view.set := by
  have hi0 : (i 0).val < 100000 := (i 0).isLt
  have hi1 : (i 1).val < 128 := (i 1).isLt
  obtain ⟨t, ht⟩ := idx_onto ⟨(i 0).val / 5000, by omega⟩
  have q0 : win6_4.index t (0 : Fin 2) = (i 0).val / 5000 := congrFun ht 0
  have q1 : win6_4.index t (1 : Fin 2) = 0 := congrFun ht 1
  refine ⟨t, flush6_4 t, ?_⟩
  rw [mem_blk]
  intro a
  match a with
  | ⟨0, _⟩ => show win6_4.index t (0 : Fin 2) * 5000 ≤ (i 0).val ∧ (i 0).val < win6_4.index t (0 : Fin 2) * 5000 + 5000; omega
  | ⟨1, _⟩ => show win6_4.index t (1 : Fin 2) * 128 ≤ (i 1).val ∧ (i 1).val < win6_4.index t (1 : Fin 2) * 128 + 128; omega

end R6

theorem value6 (c : Dev nD) :
    (dat6 (F := Ideal) V c).arrAt 4 cfg6.N
      = (addf (F := Ideal) (s := S100000x128) (φ := .f32) (V c main_v32 : (⟨S100000x128, .f32⟩ : BufTy).Contents (Elt Ideal))
          (Cert.ReferenceIdeal.Read.val_main_v8 (F := Ideal) (V c main_v41) (V c main_v43) (V c main_v45)) :
          (⟨S100000x128, .f32⟩ : BufTy).Contents (Elt Ideal)) :=
  (dat6 (F := Ideal) V c).arrAt_eq_of_cover 4 _ (fun t _ => R6.flushed_eq V c t) R6.cover

end Cert.KernelIdeal.RegionVal

end
-- ==== Proof.Round2.lean ====
import proofs.«403677_j16363825398111_1_alg».proof.Proof.Round1
import proofs.«403677_j16363825398111_1_alg».proof.Proof.Region5
import proofs.«403677_j16363825398111_1_alg».proof.Proof.Region6

/-!
  The kernel program's buffers along its run, the third round of the message passing: from the node table `s` the messages
  `relu (s · W_msg[2] + b_msg[2])` (a pallas_call), their rows gathered along the edges' sources (under the precondition
  the kernel's masked take is the plain gather), the segment sum over the edges' destinations, and the update
  `s + relu (agg · W_upd[2] + b_upd[2])` (a pallas_call): each buffer holds the reference's stage of the same arguments.
-/

set_option maxRecDepth 16384

noncomputable section

namespace Cert.KernelIdeal.Chain

open Cert.KernelIdeal Cert.KernelIdeal.Gen Idealize.ShloMosaic Idealize.ShloMosaic.TcCoe Idealize.SL.Sem
open Idealize.ShloMosaic.Pipeline (Dat)
open Cert.ReferenceIdeal.Read

variable (m : (ℓ : Loc nD τ sig) → Buf (Elt Ideal) ℓ) (ρ : Dev nD → PrngReg) (c : Dev nD)

set_option hygiene false in
local macro "a0" : term => `(m ((c.tc : Thread nD τ).loc main_arg0))
set_option hygiene false in
local macro "a1" : term => `(m ((c.tc : Thread nD τ).loc main_arg1))
set_option hygiene false in
local macro "a3" : term => `(m ((c.tc : Thread nD τ).loc main_arg3))
set_option hygiene false in
local macro "a4" : term => `(m ((c.tc : Thread nD τ).loc main_arg4))
set_option hygiene false in
local macro "a5" : term => `(m ((c.tc : Thread nD τ).loc main_arg5))
set_option hygiene false in
local macro "a6" : term => `(m ((c.tc : Thread nD τ).loc main_arg6))
set_option hygiene false in
local macro "a7" : term => `(m ((c.tc : Thread nD τ).loc main_arg7))
set_option hygiene false in
local macro "a8" : term => `(m ((c.tc : Thread nD τ).loc main_arg8))

/-- The round's message weight and bias: the slices of the stacked arguments, as the reference takes them. -/
theorem r2_msgW : W13 m ρ c (Proc.devRef .tc main_v34) = val_main_v68 (F := Ideal) a5 := by
  refine (HostRead.msgW2 (W12 m ρ c)).trans ?_
  rw [argAt12 m ρ c main_arg5 (by decide) (by decide)]
theorem r2_msgB : W13 m ρ c (Proc.devRef .tc main_v36) = val_main_v71 (F := Ideal) a6 := by
  refine (HostRead.msgB2 (W12 m ρ c)).trans ?_
  rw [argAt12 m ρ c main_arg6 (by decide) (by decide)]

/-- The messages: the layer on the node table. -/
theorem r2_msg (hpre : Cert.Pre_KernelIdeal m) : W14 m ρ c (Proc.devRef .tc main_v37) = val_main_v75 (F := Ideal) a0 a1 a3 a4 a5 a6 a7 a8 := by
  refine ((W14_arr m ρ c 3).trans (RegionVal.value5 (V13 m ρ) c)).trans ?_
  rw [show V13 m ρ c main_v32 = val_main_v66 (F := Ideal) a0 a1 a3 a4 a5 a6 a7 a8 from (keep13 m ρ c main_v32 (by decide)).trans (r1_st m ρ c hpre),
    show V13 m ρ c main_v34 = val_main_v68 (F := Ideal) a5 from r2_msgW m ρ c,
    show V13 m ρ c main_v36 = val_main_v71 (F := Ideal) a6 from r2_msgB m ρ c]
  exact (Cert.RefStage.msg2_eq _ _ _ _ _ _ _ _).symm

/-- The gathered messages: under the precondition the masked take is the gather. -/
theorem r2_take (hpre : Cert.Pre_KernelIdeal m) : W15 m ρ c (Proc.devRef .tc main_v38) = val_main_v82 (F := Ideal) a0 a1 a3 a4 a5 a6 a7 a8 := by
  refine (HostRead.take2 (W14 m ρ c)).trans ?_
  rw [r2_msg m ρ c hpre, srcAt14 m ρ c, Cert.Layers.takeMasked_eq_gatherRows _ _ (Cert.PreFacts.src_inRange m hpre c)]
  exact (Cert.Layers.gath2_eq _ _ _ _ _ _ _ _).symm

/-- The aggregated messages. -/
theorem r2_agg (hpre : Cert.Pre_KernelIdeal m) : W16 m ρ c (Proc.devRef .tc main_v41) = val_main_v85 (F := Ideal) a0 a1 a3 a4 a5 a6 a7 a8 := by
  refine (HostRead.agg2 (W15 m ρ c)).trans ?_
  rw [r2_take m ρ c hpre, dstAt15 m ρ c]
  exact (Cert.Layers.agg2_eq _ _ _ _ _ _ _ _).symm
theorem r2_updW : W16 m ρ c (Proc.devRef .tc main_v43) = val_main_v87 (F := Ideal) a7 := by
  refine (HostRead.updW2 (W15 m ρ c)).trans ?_
  rw [argAt15 m ρ c main_arg7 (by decide) (by decide)]
theorem r2_updB : W16 m ρ c (Proc.devRef .tc main_v45) = val_main_v90 (F := Ideal) a8 := by
  refine (HostRead.updB2 (W15 m ρ c)).trans ?_
  rw [argAt15 m ρ c main_arg8 (by decide) (by decide)]

/-- The node table as the update finds it: carried from the previous update across the segments in between (the message
    pallas_call stages it as an input and does not write it back). -/
theorem r2_res (hpre : Cert.Pre_KernelIdeal m) : W16 m ρ c (Proc.devRef .tc main_v32) = val_main_v66 (F := Ideal) a0 a1 a3 a4 a5 a6 a7 a8 :=
  (keep16 m ρ c main_v32 (by decide)).trans ((keep15 m ρ c main_v32 (by decide)).trans ((keep14_in m ρ c 0 rfl).trans
    ((keep13 m ρ c main_v32 (by decide)).trans (r1_st m ρ c hpre))))

/-- The updated node table. -/
theorem r2_st (hpre : Cert.Pre_KernelIdeal m) : W17 m ρ c (Proc.devRef .tc main_v46) = val_main_v95 (F := Ideal) a0 a1 a3 a4 a5 a6 a7 a8 := by
  refine ((W17_arr m ρ c 4).trans (RegionVal.value6 (V16 m ρ) c)).trans ?_
  rw [show V16 m ρ c main_v41 = val_main_v85 (F := Ideal) a0 a1 a3 a4 a5 a6 a7 a8 from r2_agg m ρ c hpre,
    show V16 m ρ c main_v43 = val_main_v87 (F := Ideal) a7 from r2_updW m ρ c,
    show V16 m ρ c main_v45 = val_main_v90 (F := Ideal) a8 from r2_updB m ρ c,
    show V16 m ρ c main_v32 = val_main_v66 (F := Ideal) a0 a1 a3 a4 a5 a6 a7 a8 from r2_res m ρ c hpre]
  exact (Cert.RefStage.st3_eq _ _ _ _ _ _ _ _).symm

end Cert.KernelIdeal.Chain

end
-- ==== Proof.Region7.lean ====
import proofs.«403677_j16363825398111_1_alg».proof.Proof.Gen.KernelIdeal.Frame
import proofs.«403677_j16363825398111_1_alg».proof.Proof.RefStage
import proofs.«403677_j16363825398111_1_alg».proof.Proof.BlockLayer
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionVal

open Cert.KernelIdeal Cert.KernelIdeal.Gen Idealize.ShloMosaic Idealize.ShloMosaic.TcCoe Idealize.SL.Sem
open Idealize.ShloMosaic.Pipeline (Dat)

namespace R7
open Idealize.ShloMosaic.ValueIdx Cert.KernelIdeal.BlockLayer

/-- The zero offsets of a rank-2 block, as the constant function. -/
theorem hz2 : (![0, 0] : Fin 2 → Nat) = fun _ => 0 := funext fun a => by fin_cases a <;> rfl
/-- The zero offset of a rank-1 block, as the constant function. -/
theorem hz1 : (![0] : Fin 1 → Nat) = fun _ => 0 := funext fun a => by fin_cases a <;> rfl

/-- The index maps over the 20 grid points: the row block of the input and the row block of the output move together
    along axis 0 and sit at block 0 on axis 1; the weight and the bias stay at block 0; the output's row-block index is
    at most 19. -/
theorem idx_facts : ∀ t : Fin cfg7.N,
    win7_0.index t (0 : Fin 2) = win7_3.index t (0 : Fin 2)
    ∧ win7_0.index t (1 : Fin 2) = 0
    ∧ win7_3.index t (1 : Fin 2) = 0
    ∧ win7_1.index t (0 : Fin 2) = 0
    ∧ win7_1.index t (1 : Fin 2) = 0
    ∧ win7_2.index t (0 : Fin 1) = 0
    ∧ win7_3.index t (0 : Fin 2) ≤ 19 :=
  (by decide +kernel : ∀ t : Fin grid7.N, _)

/-- Every one of the 20 row blocks of the output is some grid point's. -/
theorem idx_onto : ∀ r : Fin 20, ∃ t : Fin cfg7.N, win7_3.index t = ![r.val, 0] :=
  (by decide +kernel : ∀ r : Fin 20, ∃ t : Fin grid7.N, win7_3.index t = ![r.val, 0])

/-- One entry: if row `p` of the block `x` is row `i 0` of the table `X`, column `q` of `w` is column `i 1` of `W` and
    `b q` is `B (i 1)`, then `max (∑ₖ x p k · w k q + b q) 0` is the reference's layer `relu (X · W + B)` at `i`. -/
theorem entry_eq (X : (⟨Cert.ReferenceIdeal.S100000x128, .f32⟩ : BufTy).Contents (Elt Ideal))
    (W : (⟨Cert.ReferenceIdeal.S128x128, .f32⟩ : BufTy).Contents (Elt Ideal))
    (B : (⟨Cert.ReferenceIdeal.S128, .f32⟩ : BufTy).Contents (Elt Ideal))
    (x : Vec Ideal S5000x128 .f32) (w : Vec Ideal S128x128 .f32) (b : Vec Ideal S128 .f32)
    (i : Cert.ReferenceIdeal.S100000x128.Idx) (p : Fin 5000) (q : Fin 128)
    (hx : ∀ k : Fin 128, x (ix2 p k) = X (Cert.ReferenceIdeal.Read.lidx_main_v4 i k))
    (hw : ∀ k : Fin 128, w (ix2 k q) = W (Cert.ReferenceIdeal.Read.ridx_main_v4 i k))
    (hb : b (ix1 q) = B (Cert.ReferenceIdeal.Read.idx_main_v5 (Cert.ReferenceIdeal.Read.idx_main_v6 i))) :
    linReluAt x w b p q = Cert.ReferenceIdeal.Read.val_main_v8 (F := Ideal) X W B i := by
  rw [Cert.RefStage.linRelu_apply]
  unfold linReluAt
  rw [hb, Finset.sum_congr rfl (fun k _ => by rw [hx k, hw k])]

variable (V : (c : Dev nD) → (b : Ref sig .tc) → Buf (Elt Ideal) ((c : Thread nD τ).loc b))

/-- What grid point `t` writes back is block `t` of the reference's layer of the three arrays as the region finds them. -/
theorem flushed_eq (c : Dev nD) (t : Fin cfg7.N) :
    (dat7 (F := Ideal) V c).flushed 3 t = ((cfg7.win 3).blk t).view.read (Elt Ideal)
      (Cert.ReferenceIdeal.Read.val_main_v8 (F := Ideal) (V c main_v46) (V c main_v48) (V c main_v50)) := by
  show (cfg7.win 3).cut (grid7.coords t) ((dat7 V c).after 3 t) = _
  rw [after7_3]
  unfold out7_3
  rw [View.canon_unit_zero hz2]
  simp only [View.ld_unit_zero (S := S5000x128) hz2, View.ld_unit_zero (S := S128x128) hz2, View.ld_unit_zero (S := S128) hz1]
  obtain ⟨e0, e1, e2, e3, e4, e5, e6⟩ := idx_facts t
  funext j
  obtain ⟨p, q, rfl⟩ : ∃ (p : Fin 5000) (q : Fin 128), j = ix2 p q := ⟨j 0, j 1, eq_ix2 j⟩
  show k7_pay1 (F := Ideal) (iblk7 V c 0 t) (iblk7 V c 1 t) (iblk7 V c 2 t) (ix2 p q)
    = Cert.ReferenceIdeal.Read.val_main_v8 (F := Ideal) (V c main_v46) (V c main_v48) (V c main_v50)
        (((cfg7.win 3).blk t).view.emb (ix2 p q))
  refine (pay7_apply (iblk7 V c 0 t) (iblk7 V c 1 t) (iblk7 V c 2 t) p q).trans ?_
  refine entry_eq (V c main_v46) (V c main_v48) (V c main_v50) (iblk7 V c 0 t) (iblk7 V c 1 t) (iblk7 V c 2 t)
    (((cfg7.win 3).blk t).view.emb (ix2 p q)) p q (fun k => ?_) (fun k => ?_) ?_
  · show V c main_v46 (((cfg7.win 0).blk t).view.emb (ix2 p k)) = V c main_v46 _
    refine congrArg (V c main_v46) (funext fun a => Fin.ext ?_)
    match a with
    | ⟨0, _⟩ =>
      show win7_0.index t (0 : Fin 2) * 5000 + 1 * p.val = win7_3.index t (0 : Fin 2) * 5000 + 1 * p.val
      omega
    | ⟨1, _⟩ =>
      show win7_0.index t (1 : Fin 2) * 128 + 1 * k.val = k.val
      omega
  · show V c main_v48 (((cfg7.win 1).blk t).view.emb (ix2 k q)) = V c main_v48 _
    refine congrArg (V c main_v48) (funext fun a => Fin.ext ?_)
    match a with
    | ⟨0, _⟩ =>
      show win7_1.index t (0 : Fin 2) * 128 + 1 * k.val = k.val
      omega
    | ⟨1, _⟩ =>
      show win7_1.index t (1 : Fin 2) * 128 + 1 * q.val = win7_3.index t (1 : Fin 2) * 128 + 1 * q.val
      omega
  · show V c main_v50 (((cfg7.win 2).blk t).view.emb (ix1 q)) = V c main_v50 _
    refine congrArg (V c main_v50) (funext fun a => Fin.ext ?_)
    match a with
    | ⟨0, _⟩ =>
      show win7_2.index t (0 : Fin 1) * 128 + 1 * q.val = win7_3.index t (1 : Fin 2) * 128 + 1 * q.val
      omega

/-- An index of the table is in point `t`'s block iff each coordinate is in the block's range on its axis. -/
theorem mem_blk (t : Fin cfg7.N) (i : S100000x128.Idx) :
    i ∈ ((cfg7.win 3).blk t).view.set ↔ ∀ a : Fin 2, win7_3.index t a * S5000x128.size a ≤ (i a).val
      ∧ (i a).val < win7_3.index t a * S5000x128.size a + S5000x128.size a := by
  show i ∈ ((View.whole main_v51).slice (win7_3.rect t)).set ↔ _
  rw [View.set_slice_whole, Rect.mem_set_unit]
  exact Iff.rfl

/-- Every index of the table is in some point's block: row `r` is in row block `r / 5000`. -/
theorem cover (i : S100000x128.Idx) :
    ∃ t : Fin cfg7.N, (cfg7.win 3).flush t = true ∧ i ∈ ((cfg7.win 3).blk t).view.set := by
  have hi0 : (i 0).val < 100000 := (i 0).isLt
  have hi1 : (i 1).val < 128 := (i 1).isLt
  obtain ⟨t, ht⟩ := idx_onto ⟨(i 0).val / 5000, by omega⟩
  have q0 : win7_3.index t (0 : Fin 2) = (i 0).val / 5000 := congrFun ht 0
  have q1 : win7_3.index t (1 : Fin 2) = 0 := congrFun ht 1
  refine ⟨t, flush7_3 t, ?_⟩
  rw [mem_blk]
  intro a
  match a with
  | ⟨0, _⟩ =>
    show win7_3.index t (0 : Fin 2) * 5000 ≤ (i 0).val ∧ (i 0).val < win7_3.index t (0 : Fin 2) * 5000 + 5000
    omega
  | ⟨1, _⟩ =>
    show win7_3.index t (1 : Fin 2) * 128 ≤ (i 1).val ∧ (i 1).val < win7_3.index t (1 : Fin 2) * 128 + 128
    omega

end R7

variable (V : (c : Dev nD) → (b : Ref sig .tc) → Buf (Elt Ideal) ((c : Thread nD τ).loc b))

theorem value7 (c : Dev nD) :
    (dat7 (F := Ideal) V c).arrAt 3 cfg7.N
      = Cert.ReferenceIdeal.Read.val_main_v8 (F := Ideal) (V c main_v46) (V c main_v48) (V c main_v50) :=
  (dat7 (F := Ideal) V c).arrAt_eq_of_cover 3 _ (fun t _ => R7.flushed_eq V c t) R7.cover

end Cert.KernelIdeal.RegionVal

end
-- ==== Proof.Region8.lean ====
import proofs.«403677_j16363825398111_1_alg».proof.Proof.Gen.KernelIdeal.Frame
import proofs.«403677_j16363825398111_1_alg».proof.Proof.RefStage
import proofs.«403677_j16363825398111_1_alg».proof.Proof.BlockLayer
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionVal

open Cert.KernelIdeal Cert.KernelIdeal.Gen Idealize.ShloMosaic Idealize.ShloMosaic.TcCoe Idealize.SL.Sem
open Idealize.ShloMosaic.Pipeline (Dat)

namespace R8

theorem hz : (![0, 0] : Fin 2 → Nat) = fun _ => 0 := funext fun a => by fin_cases a <;> rfl
theorem hz1 : (![0] : Fin 1 → Nat) = fun _ => 0 := funext fun a => by fin_cases a <;> rfl

/-- The index maps over the grid: the row blocks move with the grid point, the weight and the bias stay. -/
theorem idx_facts : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 1) = 0
    ∧ win8_3.index t (0 : Fin 2) = t.val ∧ win8_3.index t (1 : Fin 2) = 0
    ∧ win8_4.index t (0 : Fin 2) = t.val ∧ win8_4.index t (1 : Fin 2) = 0 ∧ t.val ≤ 19 :=
  (by decide +kernel : ∀ t : Fin grid8.N, _)

theorem idx_onto : ∀ q0 : Fin 20, ∃ t : Fin cfg8.N, win8_4.index t = ![q0.val, 0] :=
  (by decide +kernel : ∀ q0 : Fin 20, ∃ t : Fin grid8.N, win8_4.index t = ![q0.val, 0])

open Cert.KernelIdeal.BlockLayer Idealize.ShloMosaic.ValueIdx in
/-- One entry: the residual entry plus the layer's entry, read off blocks whose entries are the arrays' at the matching indices. -/
theorem entry_eq (x : Vec Ideal S5000x128 .f32) (w : Vec Ideal S128x128 .f32) (b : Vec Ideal S128 .f32) (res : Vec Ideal S5000x128 .f32)
    (X R : (⟨Cert.ReferenceIdeal.S100000x128, .f32⟩ : BufTy).Contents (Elt Ideal))
    (W : (⟨Cert.ReferenceIdeal.S128x128, .f32⟩ : BufTy).Contents (Elt Ideal))
    (B : (⟨Cert.ReferenceIdeal.S128, .f32⟩ : BufTy).Contents (Elt Ideal))
    (p : Fin 5000) (q : Fin 128) (i : Cert.ReferenceIdeal.S100000x128.Idx)
    (hx : ∀ k : Fin 128, x (ix2 p k) = X (Cert.ReferenceIdeal.Read.lidx_main_v4 i k))
    (hw : ∀ k : Fin 128, w (ix2 k q) = W (Cert.ReferenceIdeal.Read.ridx_main_v4 i k))
    (hb : b (ix1 q) = B (Cert.ReferenceIdeal.Read.idx_main_v5 (Cert.ReferenceIdeal.Read.idx_main_v6 i)))
    (hr : res (ix2 p q) = R i) :
    res (ix2 p q) + linReluAt x w b p q
      = FloatOps.addf (F := Ideal) (φ := .f32) (R i) (Cert.ReferenceIdeal.Read.val_main_v8 (F := Ideal) X W B i) := by
  rw [Cert.RefStage.linRelu_apply, hr]
  unfold linReluAt
  rw [hb, Finset.sum_congr rfl fun k _ => by rw [hx k, hw k]]
  rfl

end R8

variable (V : (c : Dev nD) → (b : Ref sig .tc) → Buf (Elt Ideal) ((c : Thread nD τ).loc b))

namespace R8

open Cert.KernelIdeal.BlockLayer Idealize.ShloMosaic.ValueIdx in
/-- What grid point `t` writes back is block `t` of the residual plus the layer of the three other arrays. -/
theorem flushed_eq (c : Dev nD) (t : Fin cfg8.N) :
    (dat8 (F := Ideal) V c).flushed 4 t = ((cfg8.win 4).blk t).view.read (Elt Ideal)
      (addf (F := Ideal) (s := S100000x128) (φ := .f32) (V c main_v46 : (⟨S100000x128, .f32⟩ : BufTy).Contents (Elt Ideal))
          (Cert.ReferenceIdeal.Read.val_main_v8 (F := Ideal) (V c main_v55) (V c main_v57) (V c main_v59)) :
          (⟨S100000x128, .f32⟩ : BufTy).Contents (Elt Ideal)) := by
  show (cfg8.win 4).cut (grid8.coords t) ((dat8 (F := Ideal) V c).after 4 t) = _
  rw [after8_4]
  unfold out8_4
  rw [View.canon_unit_zero hz]
  simp only [View.ld_unit_zero (S := S5000x128) hz, View.ld_unit_zero (S := S128x128) hz, View.ld_unit_zero (S := S128) hz1]
  obtain ⟨e00, e01, e10, e11, e20, e30, e31, e40, e41, ht⟩ := idx_facts t
  funext j
  obtain ⟨p, q, rfl⟩ : ∃ (p : Fin 5000) (q : Fin 128), j = ix2 p q := ⟨j 0, j 1, eq_ix2 j⟩
  show k8_pay1 (F := Ideal) (iblk8 V c 0 t) (iblk8 V c 1 t) (iblk8 V c 2 t) (iblk8 V c 3 t) (ix2 p q)
     = FloatOps.addf (F := Ideal) (φ := .f32) ((V c main_v46 : (⟨S100000x128, .f32⟩ : BufTy).Contents (Elt Ideal)) (((cfg8.win 4).blk t).view.emb (ix2 p q)))
        (Cert.ReferenceIdeal.Read.val_main_v8 (F := Ideal) (V c main_v55) (V c main_v57) (V c main_v59) (((cfg8.win 4).blk t).view.emb (ix2 p q)))
  refine (pay8_apply (iblk8 V c 0 t) (iblk8 V c 1 t) (iblk8 V c 2 t) p q (iblk8 V c 3 t)).trans ?_
  refine entry_eq (iblk8 V c 0 t) (iblk8 V c 1 t) (iblk8 V c 2 t) (iblk8 V c 3 t) (V c main_v55) (V c main_v46) (V c main_v57) (V c main_v59) p q (((cfg8.win 4).blk t).view.emb (ix2 p q)) ?_ ?_ ?_ ?_
  · intro k
    show (V c main_v55 : (⟨S100000x128, .f32⟩ : BufTy).Contents (Elt Ideal)) (((cfg8.win 0).blk t).view.emb (ix2 p k)) = _
    refine congrArg _ (funext fun a => Fin.ext ?_)
    match a with
    | ⟨0, _⟩ => show win8_0.index t (0 : Fin 2) * 5000 + 1 * p.val = win8_4.index t (0 : Fin 2) * 5000 + 1 * p.val; omega
    | ⟨1, _⟩ => show win8_0.index t (1 : Fin 2) * 128 + 1 * k.val = k.val; omega
  · intro k
    show (V c main_v57 : (⟨S128x128, .f32⟩ : BufTy).Contents (Elt Ideal)) (((cfg8.win 1).blk t).view.emb (ix2 k q)) = _
    refine congrArg _ (funext fun a => Fin.ext ?_)
    match a with
    | ⟨0, _⟩ => show win8_1.index t (0 : Fin 2) * 128 + 1 * k.val = k.val; omega
    | ⟨1, _⟩ => show win8_1.index t (1 : Fin 2) * 128 + 1 * q.val = win8_4.index t (1 : Fin 2) * 128 + 1 * q.val; omega
  · show (V c main_v59 : (⟨S128, .f32⟩ : BufTy).Contents (Elt Ideal)) (((cfg8.win 2).blk t).view.emb (ix1 q)) = _
    refine congrArg _ (funext fun a => Fin.ext ?_)
    match a with
    | ⟨0, _⟩ => show win8_2.index t (0 : Fin 1) * 128 + 1 * q.val = win8_4.index t (1 : Fin 2) * 128 + 1 * q.val; omega
  · show (V c main_v46 : (⟨S100000x128, .f32⟩ : BufTy).Contents (Elt Ideal)) (((cfg8.win 3).blk t).view.emb (ix2 p q)) = _
    refine congrArg _ (funext fun a => Fin.ext ?_)
    match a with
    | ⟨0, _⟩ => show win8_3.index t (0 : Fin 2) * 5000 + 1 * p.val = win8_4.index t (0 : Fin 2) * 5000 + 1 * p.val; omega
    | ⟨1, _⟩ => show win8_3.index t (1 : Fin 2) * 128 + 1 * q.val = win8_4.index t (1 : Fin 2) * 128 + 1 * q.val; omega

/-- An index of the array is in point `t`'s block iff each coordinate is in the block's range on its axis. -/
theorem mem_blk (t : Fin cfg8.N) (i : S100000x128.Idx) :
    i ∈ ((cfg8.win 4).blk t).view.set ↔ ∀ a : Fin 2, win8_4.index t a * S5000x128.size a ≤ (i a).val ∧ (i a).val < win8_4.index t a * S5000x128.size a + S5000x128.size a := by
  show i ∈ ((View.whole (Pipeline.arrRef spec8 4)).slice (win8_4.rect t)).set ↔ _
  rw [View.set_slice_whole, Rect.mem_set_unit]
  exact Iff.rfl

/-- Every index of the array is in some point's block: row `r` is in the block of point `r / 5000`. -/
theorem cover (i : S100000x128.Idx) : ∃ t : Fin cfg8.N, (cfg8.win 4).flush t = true ∧ i ∈ ((cfg8.win 4).blk t).view.set := by
  have hi0 : (i 0).val < 100000 := (i 0).isLt
  have hi1 : (i 1).val < 128 := (i 1).isLt
  obtain ⟨t, ht⟩ := idx_onto ⟨(i 0).val / 5000, by omega⟩
  have q0 : win8_4.index t (0 : Fin 2) = (i 0).val / 5000 := congrFun ht 0
  have q1 : win8_4.index t (1 : Fin 2) = 0 := congrFun ht 1
  refine ⟨t, flush8_4 t, ?_⟩
  rw [mem_blk]
  intro a
  match a with
  | ⟨0, _⟩ => show win8_4.index t (0 : Fin 2) * 5000 ≤ (i 0).val ∧ (i 0).val < win8_4.index t (0 : Fin 2) * 5000 + 5000; omega
  | ⟨1, _⟩ => show win8_4.index t (1 : Fin 2) * 128 ≤ (i 1).val ∧ (i 1).val < win8_4.index t (1 : Fin 2) * 128 + 128; omega

end R8

theorem value8 (c : Dev nD) :
    (dat8 (F := Ideal) V c).arrAt 4 cfg8.N
      = (addf (F := Ideal) (s := S100000x128) (φ := .f32) (V c main_v46 : (⟨S100000x128, .f32⟩ : BufTy).Contents (Elt Ideal))
          (Cert.ReferenceIdeal.Read.val_main_v8 (F := Ideal) (V c main_v55) (V c main_v57) (V c main_v59)) :
          (⟨S100000x128, .f32⟩ : BufTy).Contents (Elt Ideal)) :=
  (dat8 (F := Ideal) V c).arrAt_eq_of_cover 4 _ (fun t _ => R8.flushed_eq V c t) R8.cover

end Cert.KernelIdeal.RegionVal

end
-- ==== Proof.Round3.lean ====
import proofs.«403677_j16363825398111_1_alg».proof.Proof.Round2
import proofs.«403677_j16363825398111_1_alg».proof.Proof.Region7
import proofs.«403677_j16363825398111_1_alg».proof.Proof.Region8

/-!
  The kernel program's buffers along its run, the fourth round of the message passing: from the node table `s` the messages
  `relu (s · W_msg[3] + b_msg[3])` (a pallas_call), their rows gathered along the edges' sources (under the precondition
  the kernel's masked take is the plain gather), the segment sum over the edges' destinations, and the update
  `s + relu (agg · W_upd[3] + b_upd[3])` (a pallas_call): each buffer holds the reference's stage of the same arguments.
-/

set_option maxRecDepth 16384

noncomputable section

namespace Cert.KernelIdeal.Chain

open Cert.KernelIdeal Cert.KernelIdeal.Gen Idealize.ShloMosaic Idealize.ShloMosaic.TcCoe Idealize.SL.Sem
open Idealize.ShloMosaic.Pipeline (Dat)
open Cert.ReferenceIdeal.Read

variable (m : (ℓ : Loc nD τ sig) → Buf (Elt Ideal) ℓ) (ρ : Dev nD → PrngReg) (c : Dev nD)

set_option hygiene false in
local macro "a0" : term => `(m ((c.tc : Thread nD τ).loc main_arg0))
set_option hygiene false in
local macro "a1" : term => `(m ((c.tc : Thread nD τ).loc main_arg1))
set_option hygiene false in
local macro "a3" : term => `(m ((c.tc : Thread nD τ).loc main_arg3))
set_option hygiene false in
local macro "a4" : term => `(m ((c.tc : Thread nD τ).loc main_arg4))
set_option hygiene false in
local macro "a5" : term => `(m ((c.tc : Thread nD τ).loc main_arg5))
set_option hygiene false in
local macro "a6" : term => `(m ((c.tc : Thread nD τ).loc main_arg6))
set_option hygiene false in
local macro "a7" : term => `(m ((c.tc : Thread nD τ).loc main_arg7))
set_option hygiene false in
local macro "a8" : term => `(m ((c.tc : Thread nD τ).loc main_arg8))

/-- The round's message weight and bias: the slices of the stacked arguments, as the reference takes them. -/
theorem r3_msgW : W18 m ρ c (Proc.devRef .tc main_v48) = val_main_v97 (F := Ideal) a5 := by
  refine (HostRead.msgW3 (W17 m ρ c)).trans ?_
  rw [argAt17 m ρ c main_arg5 (by decide) (by decide)]
theorem r3_msgB : W18 m ρ c (Proc.devRef .tc main_v50) = val_main_v100 (F := Ideal) a6 := by
  refine (HostRead.msgB3 (W17 m ρ c)).trans ?_
  rw [argAt17 m ρ c main_arg6 (by decide) (by decide)]

/-- The messages: the layer on the node table. -/
theorem r3_msg (hpre : Cert.Pre_KernelIdeal m) : W19 m ρ c (Proc.devRef .tc main_v51) = val_main_v104 (F := Ideal) a0 a1 a3 a4 a5 a6 a7 a8 := by
  refine ((W19_arr m ρ c 3).trans (RegionVal.value7 (V18 m ρ) c)).trans ?_
  rw [show V18 m ρ c main_v46 = val_main_v95 (F := Ideal) a0 a1 a3 a4 a5 a6 a7 a8 from (keep18 m ρ c main_v46 (by decide)).trans (r2_st m ρ c hpre),
    show V18 m ρ c main_v48 = val_main_v97 (F := Ideal) a5 from r3_msgW m ρ c,
    show V18 m ρ c main_v50 = val_main_v100 (F := Ideal) a6 from r3_msgB m ρ c]
  exact (Cert.RefStage.msg3_eq _ _ _ _ _ _ _ _).symm

/-- The gathered messages: under the precondition the masked take is the gather. -/
theorem r3_take (hpre : Cert.Pre_KernelIdeal m) : W20 m ρ c (Proc.devRef .tc main_v52) = val_main_v111 (F := Ideal) a0 a1 a3 a4 a5 a6 a7 a8 := by
  refine (HostRead.take3 (W19 m ρ c)).trans ?_
  rw [r3_msg m ρ c hpre, srcAt19 m ρ c, Cert.Layers.takeMasked_eq_gatherRows _ _ (Cert.PreFacts.src_inRange m hpre c)]
  exact (Cert.Layers.gath3_eq _ _ _ _ _ _ _ _).symm

/-- The aggregated messages. -/
theorem r3_agg (hpre : Cert.Pre_KernelIdeal m) : W21 m ρ c (Proc.devRef .tc main_v55) = val_main_v114 (F := Ideal) a0 a1 a3 a4 a5 a6 a7 a8 := by
  refine (HostRead.agg3 (W20 m ρ c)).trans ?_
  rw [r3_take m ρ c hpre, dstAt20 m ρ c]
  exact (Cert.Layers.agg3_eq _ _ _ _ _ _ _ _).symm
theorem r3_updW : W21 m ρ c (Proc.devRef .tc main_v57) = val_main_v116 (F := Ideal) a7 := by
  refine (HostRead.updW3 (W20 m ρ c)).trans ?_
  rw [argAt20 m ρ c main_arg7 (by decide) (by decide)]
theorem r3_updB : W21 m ρ c (Proc.devRef .tc main_v59) = val_main_v119 (F := Ideal) a8 := by
  refine (HostRead.updB3 (W20 m ρ c)).trans ?_
  rw [argAt20 m ρ c main_arg8 (by decide) (by decide)]

/-- The node table as the update finds it: carried from the previous update across the segments in between (the message
    pallas_call stages it as an input and does not write it back). -/
theorem r3_res (hpre : Cert.Pre_KernelIdeal m) : W21 m ρ c (Proc.devRef .tc main_v46) = val_main_v95 (F := Ideal) a0 a1 a3 a4 a5 a6 a7 a8 :=
  (keep21 m ρ c main_v46 (by decide)).trans ((keep20 m ρ c main_v46 (by decide)).trans ((keep19_in m ρ c 0 rfl).trans
    ((keep18 m ρ c main_v46 (by decide)).trans (r2_st m ρ c hpre))))

/-- The updated node table. -/
theorem r3_st (hpre : Cert.Pre_KernelIdeal m) : W22 m ρ c (Proc.devRef .tc main_v60) = val_main_v124 (F := Ideal) a0 a1 a3 a4 a5 a6 a7 a8 := by
  refine ((W22_arr m ρ c 4).trans (RegionVal.value8 (V21 m ρ) c)).trans ?_
  rw [show V21 m ρ c main_v55 = val_main_v114 (F := Ideal) a0 a1 a3 a4 a5 a6 a7 a8 from r3_agg m ρ c hpre,
    show V21 m ρ c main_v57 = val_main_v116 (F := Ideal) a7 from r3_updW m ρ c,
    show V21 m ρ c main_v59 = val_main_v119 (F := Ideal) a8 from r3_updB m ρ c,
    show V21 m ρ c main_v46 = val_main_v95 (F := Ideal) a0 a1 a3 a4 a5 a6 a7 a8 from r3_res m ρ c hpre]
  exact (Cert.RefStage.st4_eq _ _ _ _ _ _ _ _).symm

end Cert.KernelIdeal.Chain

end
-- ==== Proof.Region9.lean ====
import proofs.«403677_j16363825398111_1_alg».proof.Proof.Gen.KernelIdeal.Frame
import proofs.«403677_j16363825398111_1_alg».proof.Proof.RefStage
import proofs.«403677_j16363825398111_1_alg».proof.Proof.BlockLayer
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionVal

open Cert.KernelIdeal Cert.KernelIdeal.Gen Idealize.ShloMosaic Idealize.ShloMosaic.TcCoe Idealize.SL.Sem
open Idealize.ShloMosaic.Pipeline (Dat)

namespace R9

/-- Both zero offsets of a rank-2 rectangle, as the constant function. -/
theorem hz2 : (![0, 0] : Fin 2 → Nat) = fun _ => 0 := funext fun a => by fin_cases a <;> rfl
/-- The zero offset of a rank-1 rectangle, as the constant function. -/
theorem hz1 : (![0] : Fin 1 → Nat) = fun _ => 0 := funext fun a => by fin_cases a <;> rfl

/-- The index maps over the grid's one point: every window's block index is 0 on every axis. -/
theorem idx_facts : ∀ t : Fin cfg9.N,
    win9_0.index t (0 : Fin 2) = 0 ∧ win9_0.index t (1 : Fin 2) = 0
    ∧ win9_1.index t (0 : Fin 2) = 0 ∧ win9_1.index t (1 : Fin 2) = 0
    ∧ win9_2.index t (0 : Fin 1) = 0
    ∧ win9_3.index t (0 : Fin 2) = 0 ∧ win9_3.index t (1 : Fin 2) = 0 :=
  (by decide +kernel : ∀ t : Fin grid9.N, _)

variable (V : (c : Dev nD) → (b : Ref sig .tc) → Buf (Elt Ideal) ((c : Thread nD τ).loc b))

/-- The pooled table's block at the point is the table: entry (p, k) of the block is entry (p, k) of the array. -/
theorem blk0_apply (c : Dev nD) (t : Fin cfg9.N) (p : Fin 512) (k : Fin 128) :
    iblk9 (F := Ideal) V c 0 t (ValueIdx.ix2 p k) = V c main_v63 (ValueIdx.ix2 p k) := by
  obtain ⟨e0, e1, -⟩ := idx_facts t
  show V c main_v63 (((cfg9.win 0).blk t).view.emb (ValueIdx.ix2 p k)) = V c main_v63 (ValueIdx.ix2 p k)
  refine congrArg (V c main_v63) ?_
  funext a; apply Fin.ext
  match a with
  | ⟨0, _⟩ => show win9_0.index t (0 : Fin 2) * 512 + 1 * p.val = p.val; omega
  | ⟨1, _⟩ => show win9_0.index t (1 : Fin 2) * 128 + 1 * k.val = k.val; omega

/-- The weight's block at the point is the weight. -/
theorem blk1_apply (c : Dev nD) (t : Fin cfg9.N) (k : Fin 128) (q : Fin 32) :
    iblk9 (F := Ideal) V c 1 t (ValueIdx.ix2 k q) = V c main_arg9 (ValueIdx.ix2 k q) := by
  obtain ⟨-, -, e0, e1, -⟩ := idx_facts t
  show V c main_arg9 (((cfg9.win 1).blk t).view.emb (ValueIdx.ix2 k q)) = V c main_arg9 (ValueIdx.ix2 k q)
  refine congrArg (V c main_arg9) ?_
  funext a; apply Fin.ext
  match a with
  | ⟨0, _⟩ => show win9_1.index t (0 : Fin 2) * 128 + 1 * k.val = k.val; omega
  | ⟨1, _⟩ => show win9_1.index t (1 : Fin 2) * 32 + 1 * q.val = q.val; omega

/-- The bias's block at the point is the bias. -/
theorem blk2_apply (c : Dev nD) (t : Fin cfg9.N) (q : Fin 32) :
    iblk9 (F := Ideal) V c 2 t (ValueIdx.ix1 q) = V c main_arg10 (ValueIdx.ix1 q) := by
  obtain ⟨-, -, -, -, e0, -⟩ := idx_facts t
  show V c main_arg10 (((cfg9.win 2).blk t).view.emb (ValueIdx.ix1 q)) = V c main_arg10 (ValueIdx.ix1 q)
  refine congrArg (V c main_arg10) ?_
  funext a; apply Fin.ext
  match a with
  | ⟨0, _⟩ => show win9_2.index t (0 : Fin 1) * 32 + 1 * q.val = q.val; omega

/-- Entry (p, q) of the output's block at the point sits at entry (p, q) of the array. -/
theorem emb3 (t : Fin cfg9.N) (p : Fin 512) (q : Fin 32) :
    ((cfg9.win 3).blk t).view.emb (ValueIdx.ix2 p q) = (ValueIdx.ix2 p q : Cert.ReferenceIdeal.S512x32.Idx) := by
  obtain ⟨-, -, -, -, -, e0, e1⟩ := idx_facts t
  funext a; apply Fin.ext
  match a with
  | ⟨0, _⟩ => show win9_3.index t (0 : Fin 2) * 512 + 1 * p.val = p.val; omega
  | ⟨1, _⟩ => show win9_3.index t (1 : Fin 2) * 32 + 1 * q.val = q.val; omega

/-- What the point writes back is its block of the closing affine map of the three arrays. -/
theorem flushed_eq (c : Dev nD) (t : Fin cfg9.N) :
    (dat9 (F := Ideal) V c).flushed 3 t = ((cfg9.win 3).blk t).view.read (Elt Ideal)
      (Cert.RefStage.outLin (F := Ideal) (V c main_v63) (V c main_arg9) (V c main_arg10)) := by
  show (cfg9.win 3).cut (grid9.coords t) ((dat9 (F := Ideal) V c).after 3 t) = _
  rw [after9_3]
  unfold out9_3
  rw [View.canon_unit_zero hz2]
  simp only [View.ld_unit_zero (S := S512x128) hz2, View.ld_unit_zero (S := S128x32) hz2, View.ld_unit_zero (S := S32) hz1]
  funext j
  obtain ⟨p, q, rfl⟩ : ∃ (p : Fin 512) (q : Fin 32), j = ValueIdx.ix2 p q := ⟨j 0, j 1, ValueIdx.eq_ix2 j⟩
  show k9_pay1 (F := Ideal) (iblk9 V c 0 t) (iblk9 V c 1 t) (iblk9 V c 2 t) (ValueIdx.ix2 p q)
    = Cert.RefStage.outLin (F := Ideal) (V c main_v63) (V c main_arg9) (V c main_arg10) (((cfg9.win 3).blk t).view.emb (ValueIdx.ix2 p q))
  rw [emb3 t p q]
  refine (Cert.KernelIdeal.BlockLayer.pay9_apply (iblk9 (F := Ideal) V c 0 t) (iblk9 (F := Ideal) V c 1 t) (iblk9 (F := Ideal) V c 2 t) p q).trans ?_
  refine Eq.trans ?_ (Cert.RefStage.outLin_apply (V c main_v63) (V c main_arg9) (V c main_arg10) (ValueIdx.ix2 p q)).symm
  unfold Cert.KernelIdeal.BlockLayer.linAt
  have hl : ∀ k : Fin 128, Cert.ReferenceIdeal.Read.lidx_main_v128 (ValueIdx.ix2 p q) k = ValueIdx.ix2 p k := fun k =>
    funext fun a => Fin.ext (by
      match a with
      | ⟨0, _⟩ => rfl
      | ⟨1, _⟩ => rfl)
  have hr : ∀ k : Fin 128, Cert.ReferenceIdeal.Read.ridx_main_v128 (ValueIdx.ix2 p q) k = ValueIdx.ix2 k q := fun k =>
    funext fun a => Fin.ext (by
      match a with
      | ⟨0, _⟩ => rfl
      | ⟨1, _⟩ => rfl)
  have hb : Cert.ReferenceIdeal.Read.idx_main_v129 (Cert.ReferenceIdeal.Read.idx_main_v130 (ValueIdx.ix2 p q)) = ValueIdx.ix1 q :=
    funext fun a => Fin.ext (by
      match a with
      | ⟨0, _⟩ => rfl)
  rw [hb, blk2_apply V c t q]
  refine congrArg (· + V c main_arg10 (ValueIdx.ix1 q)) ?_
  refine Finset.sum_congr rfl fun k _ => ?_
  rw [hl k, hr k, blk0_apply V c t p k, blk1_apply V c t k q]

/-- An index of the array is in the point's block iff each coordinate is in the block's range on its axis. -/
theorem mem_blk (t : Fin cfg9.N) (i : S512x32.Idx) :
    i ∈ ((cfg9.win 3).blk t).view.set ↔ ∀ a : Fin 2, win9_3.index t a * S512x32.size a ≤ (i a).val ∧ (i a).val < win9_3.index t a * S512x32.size a + S512x32.size a := by
  show i ∈ ((View.whole main_v64).slice (win9_3.rect t)).set ↔ _
  rw [View.set_slice_whole, Rect.mem_set_unit]
  exact Iff.rfl

/-- The one point's block is the whole array. -/
theorem cover (i : S512x32.Idx) : ∃ t : Fin cfg9.N, (cfg9.win 3).flush t = true ∧ i ∈ ((cfg9.win 3).blk t).view.set := by
  refine ⟨t9_0, flush9_3 t9_0, ?_⟩
  rw [mem_blk]
  obtain ⟨-, -, -, -, -, e0, e1⟩ := idx_facts t9_0
  have hi0 : (i 0).val < 512 := (i 0).isLt
  have hi1 : (i 1).val < 32 := (i 1).isLt
  intro a
  match a with
  | ⟨0, _⟩ => show win9_3.index t9_0 (0 : Fin 2) * 512 ≤ (i 0).val ∧ (i 0).val < win9_3.index t9_0 (0 : Fin 2) * 512 + 512; omega
  | ⟨1, _⟩ => show win9_3.index t9_0 (1 : Fin 2) * 32 ≤ (i 1).val ∧ (i 1).val < win9_3.index t9_0 (1 : Fin 2) * 32 + 32; omega

end R9

variable (V : (c : Dev nD) → (b : Ref sig .tc) → Buf (Elt Ideal) ((c : Thread nD τ).loc b))

theorem value9 (c : Dev nD) :
    (dat9 (F := Ideal) V c).arrAt 3 cfg9.N
      = Cert.RefStage.outLin (F := Ideal) (V c main_v63) (V c main_arg9) (V c main_arg10) :=
  (dat9 (F := Ideal) V c).arrAt_eq_of_cover 3 _ (fun t _ => R9.flushed_eq V c t) R9.cover

end Cert.KernelIdeal.RegionVal

end
-- ==== Proof.ChainEnd.lean ====
import proofs.«403677_j16363825398111_1_alg».proof.Proof.Round3
import proofs.«403677_j16363825398111_1_alg».proof.Proof.Region9

/-!
  The kernel program's buffers along its run, the end: the node table after the fourth round is pooled into the 512 graphs
  (the same segment sum the reference takes) and the closing pallas_call applies `· W_out + b_out`: the result buffer
  holds the reference's result of the same arguments.
-/

set_option maxRecDepth 16384

noncomputable section

namespace Cert.KernelIdeal.Chain

open Cert.KernelIdeal Cert.KernelIdeal.Gen Idealize.ShloMosaic Idealize.ShloMosaic.TcCoe Idealize.SL.Sem
open Idealize.ShloMosaic.Pipeline (Dat)
open Cert.ReferenceIdeal.Read

variable (m : (ℓ : Loc nD τ sig) → Buf (Elt Ideal) ℓ) (ρ : Dev nD → PrngReg) (c : Dev nD)

set_option hygiene false in
local macro "a0" : term => `(m ((c.tc : Thread nD τ).loc main_arg0))
set_option hygiene false in
local macro "a1" : term => `(m ((c.tc : Thread nD τ).loc main_arg1))
set_option hygiene false in
local macro "a2" : term => `(m ((c.tc : Thread nD τ).loc main_arg2))
set_option hygiene false in
local macro "a3" : term => `(m ((c.tc : Thread nD τ).loc main_arg3))
set_option hygiene false in
local macro "a4" : term => `(m ((c.tc : Thread nD τ).loc main_arg4))
set_option hygiene false in
local macro "a5" : term => `(m ((c.tc : Thread nD τ).loc main_arg5))
set_option hygiene false in
local macro "a6" : term => `(m ((c.tc : Thread nD τ).loc main_arg6))
set_option hygiene false in
local macro "a7" : term => `(m ((c.tc : Thread nD τ).loc main_arg7))
set_option hygiene false in
local macro "a8" : term => `(m ((c.tc : Thread nD τ).loc main_arg8))
set_option hygiene false in
local macro "a9" : term => `(m ((c.tc : Thread nD τ).loc main_arg9))
set_option hygiene false in
local macro "a10" : term => `(m ((c.tc : Thread nD τ).loc main_arg10))

/-- The pooled table. -/
theorem pooled (hpre : Cert.Pre_KernelIdeal m) : W23 m ρ c (Proc.devRef .tc main_v63) = val_main_v127 (F := Ideal) a0 a1 a2 a3 a4 a5 a6 a7 a8 := by
  refine (HostRead.pool (W22 m ρ c)).trans ?_
  rw [r3_st m ρ c hpre, argAt22 m ρ c main_arg2 (by decide) (by decide)]
  exact (Cert.Layers.pool_eq _ _ _ _ _ _ _ _ _).symm

/-- THE RESULT: what the last boundary holds at the result buffer is the reference's result of the arguments. -/
theorem result (hpre : Cert.Pre_KernelIdeal m) : W24 m ρ c (Proc.devRef .tc main_v64)
    = val_main_v131 (F := Ideal) a0 a1 a2 a3 a4 a5 a6 a7 a8 a9 a10 := by
  refine ((W24_arr m ρ c 3).trans (RegionVal.value9 (V23 m ρ) c)).trans ?_
  rw [show V23 m ρ c main_v63 = val_main_v127 (F := Ideal) a0 a1 a2 a3 a4 a5 a6 a7 a8 from pooled m ρ c hpre,
    show V23 m ρ c main_arg9 = a9 from argAt23 m ρ c main_arg9 (by decide) (by decide),
    show V23 m ρ c main_arg10 = a10 from argAt23 m ρ c main_arg10 (by decide) (by decide)]
  exact (Cert.RefStage.out_eq _ _ _ _ _ _ _ _ _ _ _).symm

end Cert.KernelIdeal.Chain

end
-- ==== Proof.lean ====
/-
  Kernel against reference, over the extended reals.

  Both programs compute a message-passing network on a graph of 100000 nodes and 1600000 edges: an embedding
  `s₀ = relu (x · W_emb + b_emb)`; four rounds `msg = relu (s · W_msg[r] + b_msg[r])`,
  `agg = segment_sum (msg[src], dst)`, `s ← s + relu (agg · W_upd[r] + b_upd[r])`; a sum-pooling of the nodes into 512
  graphs, `segment_sum (s, batch)`; and a closing affine map `· W_out + b_out`. The kernel program runs every dense
  layer as a pallas_call over blocks of 5000 rows (its operands rounded to bf16 before the product: the identity on the
  extended reals) and leaves the gather and the segment sums to the host, where they are the reference's own operations.
  The one place the two differ is the gather: the reference's `msg[src]` clamps an index outside the table, the
  kernel's `take` fills such a row with a sentinel. The precondition keeps every source index inside the table
  (`-100000 ≤ src ≤ 99999`, read the NumPy way), where the two agree; the proof uses it there and nowhere else.

  The kernel's result is read off its run boundary by boundary (each buffer is shown to hold the reference's stage of the
  same arguments), the reference's off its generated run; the two final terms are the same stage of the arguments.
-/
import proofs.«403677_j16363825398111_1_alg».proof.Defs
import proofs.«403677_j16363825398111_1_alg».proof.Proof.Gen.Kernel
import proofs.«403677_j16363825398111_1_alg».proof.Proof.Gen.Kernel.Frame
import proofs.«403677_j16363825398111_1_alg».proof.Proof.Gen.KernelIdeal
import proofs.«403677_j16363825398111_1_alg».proof.Proof.Gen.KernelIdeal.Frame
import proofs.«403677_j16363825398111_1_alg».proof.Proof.Gen.ReferenceIdeal
import proofs.«403677_j16363825398111_1_alg».proof.Proof.Gen.ReferenceIdeal.Run
import proofs.«403677_j16363825398111_1_alg».proof.Proof.Gen.ReferenceIdeal.Read
import proofs.«403677_j16363825398111_1_alg».proof.Proof.Gen.Pre_finite_inputs
import proofs.«403677_j16363825398111_1_alg».proof.Proof.KRun
import proofs.«403677_j16363825398111_1_alg».proof.Proof.ChainEnd
import Idealize.ShloMosaic.Adequacy
import Idealize.ShloMosaic.Init

set_option maxRecDepth 16384

noncomputable section

namespace Cert.Proof

open Idealize.ShloMosaic Idealize.SL.Sem

/-- The word-level kernel runs and leaves its arguments alone. -/
theorem frame_k : Cert.frame_Kernel := fun m ρ _ => Cert.Kernel.Gen.frame m ρ
/-- So does the idealized kernel. -/
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments, under the precondition, both programs end with the reference's last stage of
    the kernel's arguments in their result buffers. -/
theorem algebraic : Cert.algebraic_KernelIdeal_ReferenceIdeal := by
  intro m ρ m' ρ' hpre hagree
  refine ⟨fun c => Cert.ReferenceIdeal.Read.val_main_v131 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · exact (θ_run Cert.KernelIdeal.defs _ _).mono
      (fun r h c => ⟨((h c).1).trans (Cert.KernelIdeal.Chain.result m ρ c hpre), (h c).2⟩)
      (Cert.KernelIdeal.Gen.run_named m ρ)
  · refine (θ_run Cert.ReferenceIdeal.defs _ _).mono (fun r h c => ⟨?_, (h c).2⟩)
      (Cert.ReferenceIdeal.Value.run (F := Ideal) m' ρ')
    obtain ⟨e0, e1, e2, e3, e4, e5, e6, e7, e8, e9, e10⟩ := hagree c
    rw [(h c).1, Cert.ReferenceIdeal.Read.val_main_v131_eq, e0, e1, e2, e3, e4, e5, e6, e7, e8, e9, e10]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
